-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S2400000 : Shape := ⟨1, ![2400000]⟩
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S384x64 : Shape := ⟨2, ![384, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S2400000 : S_.BroadcastsInDim S2400000 (![] : Fin 0 → Fin S2400000.rank)
  reducesTo_S2400000_S_d0 : S2400000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S384x64 : S_.BroadcastsInDim S384x64 (![] : Fin 0 → Fin S384x64.rank)
  reducesTo_S384x64_S_d0_1 : S384x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part4 {F : FTy → Type} [FloatOps F] (main_arg1 : IVec S16384 32) (main_v63 : IVec S_ 1) (main_v65 : IVec S16384 1) (main_v67 : IVec S16384 1) : IVec S_ 1 :=
  let main_v68 : IVec S16384 1 := andi main_v65 main_v67
  let main_c_26 : IVec S_ 1 := constantI S_ 1 1#1
  let main_v69 : IVec S_ 1 := (fun x v => Host.reduce IntOp.andi x v reducesTo_S16384_S_d0 h_S_) main_v68 main_c_26
  let main_v70 : IVec S_ 1 := andi main_v63 main_v69
  let main_c_27 : IVec S_ 32 := constantI S_ 32 4294717296#32
  let main_v71 : IVec S16384 32 := broadcastInDim S16384 ![] bcast_S_S16384 main_c_27
  let main_v72 : IVec S16384 1 := cmpi .sge main_arg1 main_v71
  let main_c_28 : IVec S_ 32 := constantI S_ 32 50000#32
  let main_v73 : IVec S16384 32 := broadcastInDim S16384 ![] bcast_S_S16384 main_c_28
  let main_v74 : IVec S16384 1 := cmpi .slt main_arg1 main_v73
  let main_v75 : IVec S16384 1 := andi main_v72 main_v74
  let main_c_29 : IVec S_ 1 := constantI S_ 1 1#1
  let main_v76 : IVec S_ 1 := (fun x v => Host.reduce IntOp.andi x v reducesTo_S16384_S_d0 h_S_) main_v75 main_c_29
  let main_v77 : IVec S_ 1 := andi main_v70 main_v76
  main_v77

def fn_part3 {F : FTy → Type} [FloatOps F] (main_arg0 : IVec S16384 32) (main_arg1 : IVec S16384 32) (main_arg15 : FVec F S32x1 .f32) (main_arg16 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg15
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg16
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 4294817296#32
  let main_v64 : IVec S16384 32 := broadcastInDim S16384 ![] bcast_S_S16384 main_c_24
  let main_v65 : IVec S16384 1 := cmpi .sge main_arg0 main_v64
  let main_c_25 : IVec S_ 32 := constantI S_ 32 150000#32
  let main_v66 : IVec S16384 32 := broadcastInDim S16384 ![] bcast_S_S16384 main_c_25
  let main_v67 : IVec S16384 1 := cmpi .slt main_arg0 main_v66
  fn_part4 (F := F) main_arg1 main_v63 main_v65 main_v67

def fn_part2 {F : FTy → Type} [FloatOps F] (main_arg0 : IVec S16384 32) (main_arg1 : IVec S16384 32) (main_arg11 : FVec F S384x64 .f32) (main_arg12 : FVec F S64 .f32) (main_arg13 : FVec F S64x32 .f32) (main_arg14 : FVec F S32 .f32) (main_arg15 : FVec F S32x1 .f32) (main_arg16 : FVec F S1 .f32) (main_v33 : IVec S_ 1) : IVec S_ 1 :=
  let main_v34 : FVec F S384x64 .f32 := Host.absf main_arg11
  let main_cst_12 : FVec F S_ .f32 := constant S_ .f32 0x7F800000#32
  let main_v35 : FVec F S384x64 .f32 := broadcastInDim S384x64 ![] bcast_S_S384x64 main_cst_12
  let main_v36 : IVec S384x64 1 := cmpf .olt main_v34 main_v35
  let main_c_13 : IVec S_ 1 := constantI S_ 1 1#1
  let main_v37 : IVec S_ 1 := (fun x v => Host.reduce IntOp.andi x v reducesTo_S384x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg13
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg14
  let main_cst_18 : FVec F S_ .f32 := constant S_ .f32 0x7F800000#32
  let main_v50 : FVec F S32 .f32 := broadcastInDim S32 ![] bcast_S_S32 main_cst_18
  fn_part3 (F := F) main_arg0 main_arg1 main_arg15 main_arg16 main_v48 main_v49 main_v50

def fn_part1 {F : FTy → Type} [FloatOps F] (main_arg0 : IVec S16384 32) (main_arg1 : IVec S16384 32) (main_arg8 : FVec F S64 .f32) (main_arg9 : FVec F S64x64 .f32) (main_arg10 : FVec F S64 .f32) (main_arg11 : FVec F S384x64 .f32) (main_arg12 : FVec F S64 .f32) (main_arg13 : FVec F S64x32 .f32) (main_arg14 : FVec F S32 .f32) (main_arg15 : FVec F S32x1 .f32) (main_arg16 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg11 main_arg12 main_arg13 main_arg14 main_arg15 main_arg16 main_v33

def fn {F : FTy → Type} [FloatOps F] (main_arg0 : IVec S16384 32) (main_arg1 : IVec S16384 32) (main_arg2 : IVec S2400000 32) (main_arg3 : IVec S2400000 32) (main_arg4 : FVec F S2400000 .f32) (main_arg5 : FVec F S100000x64 .f32) (main_arg6 : FVec F S50000x64 .f32) (main_arg7 : FVec F S64x64 .f32) (main_arg8 : FVec F S64 .f32) (main_arg9 : FVec F S64x64 .f32) (main_arg10 : FVec F S64 .f32) (main_arg11 : FVec F S384x64 .f32) (main_arg12 : FVec F S64 .f32) (main_arg13 : FVec F S64x32 .f32) (main_arg14 : FVec F S32 .f32) (main_arg15 : FVec F S32x1 .f32) (main_arg16 : FVec F S1 .f32) : IVec S_ 1 :=
  let main_v0 : FVec F S2400000 .f32 := Host.absf main_arg4
  let main_cst : FVec F S_ .f32 := constant S_ .f32 0x7F800000#32
  let main_v1 : FVec F S2400000 .f32 := broadcastInDim S2400000 ![] bcast_S_S2400000 main_cst
  let main_v2 : IVec S2400000 1 := cmpf .olt main_v0 main_v1
  let main_c : IVec S_ 1 := constantI S_ 1 1#1
  let main_v3 : IVec S_ 1 := (fun x v => Host.reduce IntOp.andi x v reducesTo_S2400000_S_d0 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg6
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg1 main_arg8 main_arg9 main_arg10 main_arg11 main_arg12 main_arg13 main_arg14 main_arg15 main_arg16 main_v13 main_v16
-- ==== Kernel.lean ====
abbrev S16384 : Shape := ⟨1, ![16384]⟩
abbrev S2400000 : Shape := ⟨1, ![2400000]⟩
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S384x64 : Shape := ⟨2, ![384, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S1x64 : Shape := ⟨2, ![1, 64]⟩
abbrev S6000x64 : Shape := ⟨2, ![6000, 64]⟩
abbrev S150000x128 : Shape := ⟨2, ![150000, 128]⟩
abbrev S150000x192 : Shape := ⟨2, ![150000, 192]⟩
abbrev S16384x1 : Shape := ⟨2, ![16384, 1]⟩
abbrev S1x1 : Shape := ⟨2, ![1, 1]⟩
abbrev S16384x192 : Shape := ⟨2, ![16384, 192]⟩
abbrev S16384x384 : Shape := ⟨2, ![16384, 384]⟩
abbrev S1x32 : Shape := ⟨2, ![1, 32]⟩
abbrev S2048x384 : Shape := ⟨2, ![2048, 384]⟩
abbrev S2048x1 : Shape := ⟨2, ![2048, 1]⟩
abbrev S2048x64 : Shape := ⟨2, ![2048, 64]⟩
abbrev S2048x32 : Shape := ⟨2, ![2048, 32]⟩

abbrev nBuf : Space → Nat
  | .hbm => 111
  | .vmem => 26
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S2400000, .i32⟩
  | .hbm, ⟨3, _⟩ => ⟨S2400000, .i32⟩
  | .hbm, ⟨4, _⟩ => ⟨S2400000, .f32⟩
  | .hbm, ⟨5, _⟩ => ⟨S100000x64, .f32⟩
  | .hbm, ⟨6, _⟩ => ⟨S50000x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S384x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x1, .f32⟩
  | .hbm, ⟨16, _⟩ => ⟨S1, .f32⟩
  | .hbm, ⟨17, _⟩ => ⟨S150000x64, .f32⟩
  | .hbm, ⟨18, _⟩ => ⟨S2400000x1, .f32⟩
  | .hbm, ⟨19, _⟩ => ⟨S_, .i32⟩
  | .hbm, ⟨20, _⟩ => ⟨S2400000, .i32⟩
  | .hbm, ⟨21, _⟩ => ⟨S2400000, .i1⟩
  | .hbm, ⟨22, _⟩ => ⟨S_, .i32⟩
  | .hbm, ⟨23, _⟩ => ⟨S2400000, .i32⟩
  | .hbm, ⟨24, _⟩ => ⟨S2400000, .i32⟩
  | .hbm, ⟨25, _⟩ => ⟨S2400000, .i32⟩
  | .hbm, ⟨26, _⟩ => ⟨S2400000x1, .i32⟩
  | .hbm, ⟨27, _⟩ => ⟨S2400000x64, .f32⟩
  | .hbm, ⟨28, _⟩ => ⟨S2400000x64, .f32⟩
  | .hbm, ⟨29, _⟩ => ⟨S2400000x64, .f32⟩
  | .hbm, ⟨30, _⟩ => ⟨S_, .f32⟩
  | .hbm, ⟨31, _⟩ => ⟨S150000x64, .f32⟩
  | .hbm, ⟨32, _⟩ => ⟨S2400000x1, .i32⟩
  | .hbm, ⟨33, _⟩ => ⟨S150000x64, .f32⟩
  | .hbm, ⟨34, _⟩ => ⟨S1x64, .f32⟩
  | .hbm, ⟨35, _⟩ => ⟨S150000x64, .f32⟩
  | .hbm, ⟨36, _⟩ => ⟨S150000x128, .f32⟩
  | .hbm, ⟨37, _⟩ => ⟨S2400000x1, .f32⟩
  | .hbm, ⟨38, _⟩ => ⟨S_, .i32⟩
  | .hbm, ⟨39, _⟩ => ⟨S2400000, .i32⟩
  | .hbm, ⟨40, _⟩ => ⟨S2400000, .i1⟩
  | .hbm, ⟨41, _⟩ => ⟨S_, .i32⟩
  | .hbm, ⟨42, _⟩ => ⟨S2400000, .i32⟩
  | .hbm, ⟨43, _⟩ => ⟨S2400000, .i32⟩
  | .hbm, ⟨44, _⟩ => ⟨S2400000, .i32⟩
  | .hbm, ⟨45, _⟩ => ⟨S2400000x1, .i32⟩
  | .hbm, ⟨46, _⟩ => ⟨S2400000x64, .f32⟩
  | .hbm, ⟨47, _⟩ => ⟨S2400000x64, .f32⟩
  | .hbm, ⟨48, _⟩ => ⟨S2400000x64, .f32⟩
  | .hbm, ⟨49, _⟩ => ⟨S_, .f32⟩
  | .hbm, ⟨50, _⟩ => ⟨S150000x64, .f32⟩
  | .hbm, ⟨51, _⟩ => ⟨S2400000x1, .i32⟩
  | .hbm, ⟨52, _⟩ => ⟨S150000x64, .f32⟩
  | .hbm, ⟨53, _⟩ => ⟨S1x64, .f32⟩
  | .hbm, ⟨54, _⟩ => ⟨S150000x64, .f32⟩
  | .hbm, ⟨55, _⟩ => ⟨S150000x192, .f32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S16384x1, .i32⟩
  | .hbm, ⟨64, _⟩ => ⟨S1, .i32⟩
  | .hbm, ⟨65, _⟩ => ⟨S_, .i32⟩
  | .hbm, ⟨66, _⟩ => ⟨S16384x1, .i32⟩
  | .hbm, ⟨67, _⟩ => ⟨S16384x1, .i1⟩
  | .hbm, ⟨68, _⟩ => ⟨S1x1, .i32⟩
  | .hbm, ⟨69, _⟩ => ⟨S16384x1, .i32⟩
  | .hbm, ⟨70, _⟩ => ⟨S16384x1, .i1⟩
  | .hbm, ⟨71, _⟩ => ⟨S16384x1, .i1⟩
  | .hbm, ⟨72, _⟩ => ⟨S_, .i1⟩
  | .hbm, ⟨73, _⟩ => ⟨S16384, .i1⟩
  | .hbm, ⟨74, _⟩ => ⟨S16384x192, .f32⟩
  | .hbm, ⟨75, _⟩ => ⟨S16384x192, .i1⟩
  | .hbm, ⟨76, _⟩ => ⟨S_, .f32⟩
  | .hbm, ⟨77, _⟩ => ⟨S16384x192, .f32⟩
  | .hbm, ⟨78, _⟩ => ⟨S16384x192, .f32⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S_, .i32⟩
  | .hbm, ⟨83, _⟩ => ⟨S16384, .i32⟩
  | .hbm, ⟨84, _⟩ => ⟨S16384, .i1⟩
  | .hbm, ⟨85, _⟩ => ⟨S_, .i32⟩
  | .hbm, ⟨86, _⟩ => ⟨S16384, .i32⟩
  | .hbm, ⟨87, _⟩ => ⟨S16384, .i32⟩
  | .hbm, ⟨88, _⟩ => ⟨S16384, .i32⟩
  | .hbm, ⟨89, _⟩ => ⟨S16384x1, .i32⟩
  | .hbm, ⟨90, _⟩ => ⟨S1, .i32⟩
  | .hbm, ⟨91, _⟩ => ⟨S_, .i32⟩
  | .hbm, ⟨92, _⟩ => ⟨S16384x1, .i32⟩
  | .hbm, ⟨93, _⟩ => ⟨S16384x1, .i1⟩
  | .hbm, ⟨94, _⟩ => ⟨S1x1, .i32⟩
  | .hbm, ⟨95, _⟩ => ⟨S16384x1, .i32⟩
  | .hbm, ⟨96, _⟩ => ⟨S16384x1, .i1⟩
  | .hbm, ⟨97, _⟩ => ⟨S16384x1, .i1⟩
  | .hbm, ⟨98, _⟩ => ⟨S_, .i1⟩
  | .hbm, ⟨99, _⟩ => ⟨S16384, .i1⟩
  | .hbm, ⟨100, _⟩ => ⟨S16384x192, .f32⟩
  | .hbm, ⟨101, _⟩ => ⟨S16384x192, .i1⟩
  | .hbm, ⟨102, _⟩ => ⟨S_, .f32⟩
  | .hbm, ⟨103, _⟩ => ⟨S16384x192, .f32⟩
  | .hbm, ⟨104, _⟩ => ⟨S16384x192, .f32⟩
  | .hbm, ⟨105, _⟩ => ⟨S16384x384, .f32⟩
  | .hbm, ⟨106, _⟩ => ⟨S1x64, .f32⟩
  | .hbm, ⟨107, _⟩ => ⟨S1x32, .f32⟩
  | .hbm, ⟨108, _⟩ => ⟨S1x1, .f32⟩
  | .hbm, ⟨109, _⟩ => ⟨S16384x1, .f32⟩
  | .hbm, ⟨110, _⟩ => ⟨S16384, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S64x64, .f32⟩
  | .local _ .vmem, ⟨5, _⟩ => ⟨S1x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x64, .f32⟩
  | .local _ .vmem, ⟨10, _⟩ => ⟨S6000x64, .f32⟩
  | .local _ .vmem, ⟨11, _⟩ => ⟨S6000x64, .f32⟩
  | .local _ .vmem, ⟨12, _⟩ => ⟨S64x64, .f32⟩
  | .local _ .vmem, ⟨13, _⟩ => ⟨S1x64, .f32⟩
  | .local _ .vmem, ⟨14, _⟩ => ⟨S6000x64, .f32⟩
  | .local _ .vmem, ⟨15, _⟩ => ⟨S6000x64, .f32⟩
  | .local _ .vmem, ⟨16, _⟩ => ⟨S2048x384, .f32⟩
  | .local _ .vmem, ⟨17, _⟩ => ⟨S2048x384, .f32⟩
  | .local _ .vmem, ⟨18, _⟩ => ⟨S384x64, .f32⟩
  | .local _ .vmem, ⟨19, _⟩ => ⟨S1x64, .f32⟩
  | .local _ .vmem, ⟨20, _⟩ => ⟨S64x32, .f32⟩
  | .local _ .vmem, ⟨21, _⟩ => ⟨S1x32, .f32⟩
  | .local _ .vmem, ⟨22, _⟩ => ⟨S32x1, .f32⟩
  | .local _ .vmem, ⟨23, _⟩ => ⟨S1x1, .f32⟩
  | .local _ .vmem, ⟨24, _⟩ => ⟨S2048x1, .f32⟩
  | .local _ .vmem, ⟨25, _⟩ => ⟨S2048x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_v14 : Ref sig .tc := ⟨.hbm, 75, rfl⟩
abbrev main_call0_cst : Ref sig .tc := ⟨.hbm, 76, rfl⟩
abbrev main_call0_v15 : Ref sig .tc := ⟨.hbm, 77, rfl⟩
abbrev main_v33 : Ref sig .tc := ⟨.hbm, 78, rfl⟩
abbrev main_c_4 : Ref sig .tc := ⟨.hbm, 79, rfl⟩
abbrev main_v34 : Ref sig .tc := ⟨.hbm, 80, rfl⟩
abbrev main_v35 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  shapeCasts_S64_S1x64 : S64.ShapeCasts S1x64
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  concatenates_S150000x64_S150000x64_S150000x128_d1 : Shape.Concatenates [S150000x64, S150000x64] S150000x128 1
  concatenates_S150000x128_S150000x64_S150000x192_d1 : Shape.Concatenates [S150000x128, S150000x64] S150000x192 1
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x192_0 : S16384.BroadcastsInDim S16384x192 (![0] : Fin 1 → Fin S16384x192.rank)
  bcast_S_S16384x192 : S_.BroadcastsInDim S16384x192 (![] : Fin 0 → Fin S16384x192.rank)
  concatenates_S16384x192_S16384x192_S16384x384_d1 : Shape.Concatenates [S16384x192, S16384x192] S16384x384 1
  shapeCasts_S32_S1x32 : S32.ShapeCasts S1x32
  shapeCasts_S1_S1x1 : S1.ShapeCasts S1x1
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S384x64_S384x64_0_0 : ∀ a, (![0, 0] : Fin 2 → Nat) a + S384x64.size a ≤ S384x64.size a
  h_S384x64 : 0 < S384x64.numel
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S6000x64_S64x64_S6000x64_1_0_0_1_n_n_wf : DotDims.WF S6000x64 S64x64 S6000x64 [1] [0] [0] [1] [] []
  gather_S150000x192_S16384x1_S16384x192_1_0_n_n_0_1_1192_wf : GatherDims.WF S150000x192 S16384x1 S16384x192 [1] [0] [] [0] [] 1 ![1, 192]
  dot_S2048x384_S384x64_S2048x64_1_0_0_1_n_n_wf : DotDims.WF S2048x384 S384x64 S2048x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x64.size a ≤ S150000x64.size a
  hwx0_4 : ∀ i : grid0.Coords, EltTy.bits .f32 = 32 ∨ (Rect.block (s := S150000x64) S6000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x64.size a ≤ S150000x64.size a
  hwx1_4 : ∀ i : grid1.Coords, EltTy.bits .f32 = 32 ∨ (Rect.block (s := S150000x64) S6000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x384.size a ≤ S16384x384.size a
  hwx2_0 : ∀ i : grid2.Coords, EltTy.bits .f32 = 32 ∨ (Rect.block (s := S16384x384) S2048x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x64.size a ≤ S384x64.size a
  hwx2_1 : ∀ i : grid2.Coords, EltTy.bits .f32 = 32 ∨ (Rect.block (s := S384x64) S384x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1.size a ≤ S32x1.size a
  hwx2_5 : ∀ i : grid2.Coords, EltTy.bits .f32 = 32 ∨ (Rect.block (s := S32x1) S32x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x1.size a ≤ S16384x1.size a
  hwx2_7 : ∀ i : grid2.Coords, EltTy.bits .f32 = 32 ∨ (Rect.block (s := S16384x1) S2048x1.size (cc2_transform_7 i) (hinb2_7 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S150000x192_S16384x1_S16384x192_1_0_n_n_0_1_1192 : GatherDims S150000x192 S16384x1 S16384x192 where
  offsetDims := [1]
  collapsedSliceDims := [0]
  operandBatchingDims := []
  startIndicesBatchingDims := []
  startIndexMap := [0]
  indexVectorDim := 1
  sliceSizes := ![1, 192]
  wf := gather_S150000x192_S16384x1_S16384x192_1_0_n_n_0_1_1192_wf
def dot_S2048x384_S384x64_S2048x64_1_0_0_1_n_n : DotDims S2048x384 S384x64 S2048x64 where
  lhsContracting := [1]
  rhsContracting := [0]
  lhsNonContracting := [0]
  rhsNonContracting := [1]
  lhsBatch := []
  rhsBatch := []
  wf := dot_S2048x384_S384x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_v13) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S6000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S6000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S2048x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S384x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S32x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41) S2048x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S16384 : Shape := ⟨1, ![16384]⟩
abbrev S2400000 : Shape := ⟨1, ![2400000]⟩
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S384x64 : Shape := ⟨2, ![384, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S1x64 : Shape := ⟨2, ![1, 64]⟩
abbrev S150000x128 : Shape := ⟨2, ![150000, 128]⟩
abbrev S150000x192 : Shape := ⟨2, ![150000, 192]⟩
abbrev S16384x1 : Shape := ⟨2, ![16384, 1]⟩
abbrev S16384x192 : Shape := ⟨2, ![16384, 192]⟩
abbrev S16384x384 : Shape := ⟨2, ![16384, 384]⟩
abbrev S16384x64 : Shape := ⟨2, ![16384, 64]⟩
abbrev S16384x32 : Shape := ⟨2, ![16384, 32]⟩
abbrev S1x32 : Shape := ⟨2, ![1, 32]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S2400000, .i32⟩
  | .hbm, ⟨3, _⟩ => ⟨S2400000, .i32⟩
  | .hbm, ⟨4, _⟩ => ⟨S2400000, .f32⟩
  | .hbm, ⟨5, _⟩ => ⟨S100000x64, .f32⟩
  | .hbm, ⟨6, _⟩ => ⟨S50000x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S384x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x1, .f32⟩
  | .hbm, ⟨16, _⟩ => ⟨S1, .f32⟩
  | .hbm, ⟨17, _⟩ => ⟨S150000x64, .f32⟩
  | .hbm, ⟨18, _⟩ => ⟨S2400000x1, .f32⟩
  | .hbm, ⟨19, _⟩ => ⟨S_, .i32⟩
  | .hbm, ⟨20, _⟩ => ⟨S2400000, .i32⟩
  | .hbm, ⟨21, _⟩ => ⟨S2400000, .i1⟩
  | .hbm, ⟨22, _⟩ => ⟨S_, .i32⟩
  | .hbm, ⟨23, _⟩ => ⟨S2400000, .i32⟩
  | .hbm, ⟨24, _⟩ => ⟨S2400000, .i32⟩
  | .hbm, ⟨25, _⟩ => ⟨S2400000, .i32⟩
  | .hbm, ⟨26, _⟩ => ⟨S2400000x1, .i32⟩
  | .hbm, ⟨27, _⟩ => ⟨S2400000x64, .f32⟩
  | .hbm, ⟨28, _⟩ => ⟨S2400000x64, .f32⟩
  | .hbm, ⟨29, _⟩ => ⟨S2400000x64, .f32⟩
  | .hbm, ⟨30, _⟩ => ⟨S_, .f32⟩
  | .hbm, ⟨31, _⟩ => ⟨S150000x64, .f32⟩
  | .hbm, ⟨32, _⟩ => ⟨S2400000x1, .i32⟩
  | .hbm, ⟨33, _⟩ => ⟨S150000x64, .f32⟩
  | .hbm, ⟨34, _⟩ => ⟨S150000x64, .f32⟩
  | .hbm, ⟨35, _⟩ => ⟨S150000x64, .f32⟩
  | .hbm, ⟨36, _⟩ => ⟨S1x64, .f32⟩
  | .hbm, ⟨37, _⟩ => ⟨S150000x64, .f32⟩
  | .hbm, ⟨38, _⟩ => ⟨S150000x64, .f32⟩
  | .hbm, ⟨39, _⟩ => ⟨S_, .f32⟩
  | .hbm, ⟨40, _⟩ => ⟨S150000x64, .f32⟩
  | .hbm, ⟨41, _⟩ => ⟨S150000x64, .f32⟩
  | .hbm, ⟨42, _⟩ => ⟨S150000x128, .f32⟩
  | .hbm, ⟨43, _⟩ => ⟨S2400000x1, .f32⟩
  | .hbm, ⟨44, _⟩ => ⟨S_, .i32⟩
  | .hbm, ⟨45, _⟩ => ⟨S2400000, .i32⟩
  | .hbm, ⟨46, _⟩ => ⟨S2400000, .i1⟩
  | .hbm, ⟨47, _⟩ => ⟨S_, .i32⟩
  | .hbm, ⟨48, _⟩ => ⟨S2400000, .i32⟩
  | .hbm, ⟨49, _⟩ => ⟨S2400000, .i32⟩
  | .hbm, ⟨50, _⟩ => ⟨S2400000, .i32⟩
  | .hbm, ⟨51, _⟩ => ⟨S2400000x1, .i32⟩
  | .hbm, ⟨52, _⟩ => ⟨S2400000x64, .f32⟩
  | .hbm, ⟨53, _⟩ => ⟨S2400000x64, .f32⟩
  | .hbm, ⟨54, _⟩ => ⟨S2400000x64, .f32⟩
  | .hbm, ⟨55, _⟩ => ⟨S_, .f32⟩
  | .hbm, ⟨56, _⟩ => ⟨S150000x64, .f32⟩
  | .hbm, ⟨57, _⟩ => ⟨S2400000x1, .i32⟩
  | .hbm, ⟨58, _⟩ => ⟨S150000x64, .f32⟩
  | .hbm, ⟨59, _⟩ => ⟨S150000x64, .f32⟩
  | .hbm, ⟨60, _⟩ => ⟨S150000x64, .f32⟩
  | .hbm, ⟨61, _⟩ => ⟨S1x64, .f32⟩
  | .hbm, ⟨62, _⟩ => ⟨S150000x64, .f32⟩
  | .hbm, ⟨63, _⟩ => ⟨S150000x64, .f32⟩
  | .hbm, ⟨64, _⟩ => ⟨S_, .f32⟩
  | .hbm, ⟨65, _⟩ => ⟨S150000x64, .f32⟩
  | .hbm, ⟨66, _⟩ => ⟨S150000x64, .f32⟩
  | .hbm, ⟨67, _⟩ => ⟨S150000x192, .f32⟩
  | .hbm, ⟨68, _⟩ => ⟨S_, .i32⟩
  | .hbm, ⟨69, _⟩ => ⟨S16384, .i32⟩
  | .hbm, ⟨70, _⟩ => ⟨S16384, .i1⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .i32⟩
  | .hbm, ⟨75, _⟩ => ⟨S16384x1, .i32⟩
  | .hbm, ⟨76, _⟩ => ⟨S16384x192, .f32⟩
  | .hbm, ⟨77, _⟩ => ⟨S_, .i32⟩
  | .hbm, ⟨78, _⟩ => ⟨S16384, .i32⟩
  | .hbm, ⟨79, _⟩ => ⟨S16384, .i32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S16384x192, .f32⟩
  | .hbm, ⟨89, _⟩ => ⟨S16384x384, .f32⟩
  | .hbm, ⟨90, _⟩ => ⟨S16384x64, .f32⟩
  | .hbm, ⟨91, _⟩ => ⟨S1x64, .f32⟩
  | .hbm, ⟨92, _⟩ => ⟨S16384x64, .f32⟩
  | .hbm, ⟨93, _⟩ => ⟨S16384x64, .f32⟩
  | .hbm, ⟨94, _⟩ => ⟨S_, .f32⟩
  | .hbm, ⟨95, _⟩ => ⟨S16384x64, .f32⟩
  | .hbm, ⟨96, _⟩ => ⟨S16384x64, .f32⟩
  | .hbm, ⟨97, _⟩ => ⟨S16384x32, .f32⟩
  | .hbm, ⟨98, _⟩ => ⟨S1x32, .f32⟩
  | .hbm, ⟨99, _⟩ => ⟨S16384x32, .f32⟩
  | .hbm, ⟨100, _⟩ => ⟨S16384x32, .f32⟩
  | .hbm, ⟨101, _⟩ => ⟨S16384x1, .f32⟩
  | .hbm, ⟨102, _⟩ => ⟨S1x1, .f32⟩
  | .hbm, ⟨103, _⟩ => ⟨S16384x1, .f32⟩
  | .hbm, ⟨104, _⟩ => ⟨S16384x1, .f32⟩
  | .hbm, ⟨105, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_1 : Ref sig .tc := ⟨.hbm, 44, rfl⟩
abbrev main_v22 : Ref sig .tc := ⟨.hbm, 45, rfl⟩
abbrev main_v23 : Ref sig .tc := ⟨.hbm, 46, rfl⟩
abbrev main_c_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call1_cst : Ref sig .tc := ⟨.hbm, 64, rfl⟩
abbrev main_call1_v0 : Ref sig .tc := ⟨.hbm, 65, rfl⟩
abbrev main_v39 : Ref sig .tc := ⟨.hbm, 66, rfl⟩
abbrev main_v40 : Ref sig .tc := ⟨.hbm, 67, rfl⟩
abbrev main_c_4 : Ref sig .tc := ⟨.hbm, 68, rfl⟩
abbrev main_v41 : Ref sig .tc := ⟨.hbm, 69, rfl⟩
abbrev main_v42 : Ref sig .tc := ⟨.hbm, 70, rfl⟩
abbrev main_c_5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_6 : Ref sig .tc := ⟨.hbm, 77, rfl⟩
abbrev main_v48 : Ref sig .tc := ⟨.hbm, 78, rfl⟩
abbrev main_v49 : Ref sig .tc := ⟨.hbm, 79, rfl⟩
abbrev main_c_7 : Ref sig .tc := ⟨.hbm, 80, rfl⟩
abbrev main_v50 : Ref sig .tc := ⟨.hbm, 81, rfl⟩
abbrev main_v51 : Ref sig .tc := ⟨.hbm, 82, rfl⟩
abbrev main_c_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_cst : Ref sig .tc := ⟨.hbm, 94, rfl⟩
abbrev main_call2_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  concatenates_S150000x64_S150000x64_S150000x128_d1 : Shape.Concatenates [S150000x64, S150000x64] S150000x128 1
  concatenates_S150000x128_S150000x64_S150000x192_d1 : Shape.Concatenates [S150000x128, S150000x64] S150000x192 1
  bcast_S_S16384 : S_.BroadcastsInDim S16384 (![] : Fin 0 → Fin S16384.rank)
  bcast_S16384_S16384x1_0 : S16384.BroadcastsInDim S16384x1 (![0] : Fin 1 → Fin S16384x1.rank)
  concatenates_S16384x192_S16384x192_S16384x384_d1 : Shape.Concatenates [S16384x192, S16384x192] S16384x384 1
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []
  gather_S150000x192_S16384x1_S16384x192_1_0_n_n_0_1_1192_wf : GatherDims.WF S150000x192 S16384x1 S16384x192 [1] [0] [] [0] [] 1 ![1, 192]
  dot_S16384x384_S384x64_S16384x64_1_0_0_1_n_n_wf : DotDims.WF S16384x384 S384x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x192_S16384x1_S16384x192_1_0_n_n_0_1_1192 : GatherDims S150000x192 S16384x1 S16384x192 where
  offsetDims := [1]
  collapsedSliceDims := [0]
  operandBatchingDims := []
  startIndicesBatchingDims := []
  startIndexMap := [0]
  indexVectorDim := 1
  sliceSizes := ![1, 192]
  wf := gather_S150000x192_S16384x1_S16384x192_1_0_n_n_0_1_1192_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.Spec.lean ====
/-
  The mathematics both programs compute, one row at a time, over the extended reals.

  A dense layer sends a row x of length K to x · W + b: entry j is the sum over k of x k * W k j, plus b j.
  A graph-convolution layer sends a node's aggregated row s and its own feature row f to relu((s + f) · W + b).
  The scoring head sends a row e of 384 features through three dense layers, 384 → 64 → 32 → 1, with a relu after the
  first only. Every entry of a result depends on ONE row of the left operand, so cutting the rows into tiles changes
  nothing, and no law beyond reading a matrix product as a sum is needed to compare two programs that both compute these.

  `layerArr` and `mlpArr` are the same maps on whole arrays of the literal shapes this program has.
-/
import Idealize.ShloMosaic.PureOps.Ideal
import Idealize.ShloMosaic.Lib.ValueIdx

noncomputable section

open scoped BigOperators

namespace Cert.Spec

open Idealize.ShloMosaic Idealize.ShloMosaic.ValueIdx

/-- Entry `j` of `x · W + b` for a row `x` of length `K`. -/
def affineRow {K M : Nat} (x : Fin K → EReal) (W : Fin K → Fin M → EReal) (b : Fin M → EReal) (j : Fin M) : EReal :=
  (∑ k : Fin K, x k * W k j) + b j

/-- Entry `j` of one graph-convolution layer on one node: `relu((s + f) · W + b)`. -/
def layerRow (s f : Fin 64 → EReal) (W : Fin 64 → Fin 64 → EReal) (b : Fin 64 → EReal) (j : Fin 64) : EReal :=
  max (affineRow (fun k => s k + f k) W b j) 0

/-- The scoring head on one row of 384 features: `(relu(e · W1 + b1) · W2 + b2) · W3 + b3`, a single number. -/
def mlpRow (e : Fin 384 → EReal) (W1 : Fin 384 → Fin 64 → EReal) (b1 : Fin 64 → EReal)
    (W2 : Fin 64 → Fin 32 → EReal) (b2 : Fin 32 → EReal) (W3 : Fin 32 → Fin 1 → EReal) (b3 : Fin 1 → EReal) : EReal :=
  affineRow (affineRow (fun a => max (affineRow e W1 b1 a) 0) W2 b2) W3 b3 0

/-- The graph-convolution layer on all 150000 nodes at once: row `r` of the result is `layerRow` of row `r` of `s` and of `f`. -/
def layerArr (s f : (⟨2, ![150000, 64]⟩ : Shape).Idx → EReal) (W : (⟨2, ![64, 64]⟩ : Shape).Idx → EReal) (b : Fin 64 → EReal) :
    (⟨2, ![150000, 64]⟩ : Shape).Idx → EReal :=
  fun i => layerRow (fun k => s (ix2 (i 0 : Fin 150000) k)) (fun k => f (ix2 (i 0 : Fin 150000) k)) (fun k j => W (ix2 k j)) b (i 1 : Fin 64)

theorem layerArr_apply (s f : (⟨2, ![150000, 64]⟩ : Shape).Idx → EReal) (W : (⟨2, ![64, 64]⟩ : Shape).Idx → EReal) (b : Fin 64 → EReal)
    (r : Fin 150000) (q : Fin 64) :
    layerArr s f W b (ix2 r q) = layerRow (fun k => s (ix2 r k)) (fun k => f (ix2 r k)) (fun k j => W (ix2 k j)) b q := rfl

/-- The scoring head on all 16384 rows at once: a column of 16384 numbers. -/
def mlpArr (e : (⟨2, ![16384, 384]⟩ : Shape).Idx → EReal) (W1 : (⟨2, ![384, 64]⟩ : Shape).Idx → EReal) (b1 : Fin 64 → EReal)
    (W2 : (⟨2, ![64, 32]⟩ : Shape).Idx → EReal) (b2 : Fin 32 → EReal) (W3 : (⟨2, ![32, 1]⟩ : Shape).Idx → EReal) (b3 : Fin 1 → EReal) :
    (⟨2, ![16384, 1]⟩ : Shape).Idx → EReal :=
  fun i => mlpRow (fun k => e (ix2 (i 0 : Fin 16384) k)) (fun k j => W1 (ix2 k j)) b1 (fun k j => W2 (ix2 k j)) b2 (fun k j => W3 (ix2 k j)) b3

theorem mlpArr_apply (e : (⟨2, ![16384, 384]⟩ : Shape).Idx → EReal) (W1 : (⟨2, ![384, 64]⟩ : Shape).Idx → EReal) (b1 : Fin 64 → EReal)
    (W2 : (⟨2, ![64, 32]⟩ : Shape).Idx → EReal) (b2 : Fin 32 → EReal) (W3 : (⟨2, ![32, 1]⟩ : Shape).Idx → EReal) (b3 : Fin 1 → EReal)
    (r : Fin 16384) (q : Fin 1) :
    mlpArr e W1 b1 W2 b2 W3 b3 (ix2 r q) = mlpRow (fun k => e (ix2 r k)) (fun k j => W1 (ix2 k j)) b1 (fun k j => W2 (ix2 k j)) b2 (fun k j => W3 (ix2 k j)) b3 := rfl

end Cert.Spec

end
-- ==== Proof.Stages.lean ====
/-
  The whole computation as ONE function of the seventeen argument arrays, stage by stage.

  Node features start as the user table stacked on the item table (150000 rows of 64). A sparse aggregation
  (`aggregate`: gather the rows named by the column indices, scale each by its edge value, scatter-add into the rows named
  by the row indices) followed by a graph-convolution layer (Spec's `layerArr`) gives the next features, twice. The three
  feature arrays side by side are a table of 150000 rows of 192; the rows named by the user indices and by the item indices
  shifted past the 100000 user rows, side by side, are 16384 rows of 384, which the scoring head (Spec's `mlpArr`) sends to
  one number each. The aggregation, the stacking and the row gathers are never opened: both programs apply the same
  operations there, so they are carried as they are printed. A negative row index counts from the table's end (`rowIndex`).
-/
import proofs.«428266_j67147518705976_1_alg».proof.Proof.Gen.KernelIdeal
import proofs.«428266_j67147518705976_1_alg».proof.Proof.Spec
import Idealize.ShloMosaic.Lib.ValueIdx

set_option maxRecDepth 16384

noncomputable section

namespace Cert.KernelIdeal.Stages

open Idealize.ShloMosaic Idealize.ShloMosaic.TcCoe Idealize.ShloMosaic.ValueIdx
open Cert.KernelIdeal Cert.KernelIdeal.Facts₀ Cert.KernelIdeal.Facts

/-- The user rows stacked on the item rows. -/
def feat0 (a5 : FVec Ideal S100000x64 .f32) (a6 : FVec Ideal S50000x64 .f32) : FVec Ideal S150000x64 .f32 :=
  concatenate S150000x64 0 [⟨S100000x64, a5⟩, ⟨S50000x64, a6⟩] concatenates_S100000x64_S50000x64_S150000x64_d0

/-- The sparse aggregation: row `rows n` of the result gains `vals n` times row `cols n` of `x`, for every edge `n`. -/
def aggregate (rows cols : IVec S2400000 32) (vals : FVec Ideal S2400000 .f32) (x : FVec Ideal S150000x64 .f32) :
    FVec Ideal S150000x64 .f32 :=
  Host.scatterAdd scatter_S150000x64_S2400000x1_S2400000x64_1_0_0_1
    (broadcastInDim S150000x64 ![] bcast_S_S150000x64 (constant S_ .f32 0x00000000#32))
    (broadcastInDim S2400000x1 ![0] bcast_S2400000_S2400000x1_0 rows)
    (mulf (broadcastInDim S2400000x64 ![0, 1] bcast_S2400000x1_S2400000x64_0_1 (broadcastInDim S2400000x1 ![0] bcast_S2400000_S2400000x1_0 vals))
      (Host.gather gather_S150000x64_S2400000x1_S2400000x64_1_0_n_n_0_1_164 x
        (broadcastInDim S2400000x1 ![0] bcast_S2400000_S2400000x1_0
          (select (cmpi .slt cols (broadcastInDim S2400000 ![] bcast_S_S2400000 (constantI S_ 32 0#32)))
            (addi cols (broadcastInDim S2400000 ![] bcast_S_S2400000 (constantI S_ 32 150000#32))) cols))))

/-- A bias vector as the row map reads it. -/
abbrev bias {n : Nat} (b : (⟨1, ![n]⟩ : Shape).Idx → EReal) : Fin n → EReal := fun j => b (ix1 j)

/-- The features after the first layer. -/
def feat1 (a2 a3 : IVec S2400000 32) (a4 : FVec Ideal S2400000 .f32) (a5 : FVec Ideal S100000x64 .f32) (a6 : FVec Ideal S50000x64 .f32)
    (a7 : FVec Ideal S64x64 .f32) (a8 : FVec Ideal S64 .f32) : FVec Ideal S150000x64 .f32 :=
  Cert.Spec.layerArr (aggregate a2 a3 a4 (feat0 a5 a6)) (feat0 a5 a6) a7 (bias a8)

/-- The features after the second layer. -/
def feat2 (a2 a3 : IVec S2400000 32) (a4 : FVec Ideal S2400000 .f32) (a5 : FVec Ideal S100000x64 .f32) (a6 : FVec Ideal S50000x64 .f32)
    (a7 : FVec Ideal S64x64 .f32) (a8 : FVec Ideal S64 .f32) (a9 : FVec Ideal S64x64 .f32) (a10 : FVec Ideal S64 .f32) : FVec Ideal S150000x64 .f32 :=
  Cert.Spec.layerArr (aggregate a2 a3 a4 (feat1 a2 a3 a4 a5 a6 a7 a8)) (feat1 a2 a3 a4 a5 a6 a7 a8) a9 (bias a10)

/-- Two feature arrays side by side. -/
def beside1 (x y : FVec Ideal S150000x64 .f32) : FVec Ideal S150000x128 .f32 :=
  concatenate S150000x128 1 [⟨S150000x64, x⟩, ⟨S150000x64, y⟩] concatenates_S150000x64_S150000x64_S150000x128_d1

/-- The third feature array beside the first two. -/
def beside2 (x : FVec Ideal S150000x128 .f32) (y : FVec Ideal S150000x64 .f32) : FVec Ideal S150000x192 .f32 :=
  concatenate S150000x192 1 [⟨S150000x128, x⟩, ⟨S150000x64, y⟩] concatenates_S150000x128_S150000x64_S150000x192_d1

/-- The table of all three feature arrays side by side. -/
def table (a2 a3 : IVec S2400000 32) (a4 : FVec Ideal S2400000 .f32) (a5 : FVec Ideal S100000x64 .f32) (a6 : FVec Ideal S50000x64 .f32)
    (a7 : FVec Ideal S64x64 .f32) (a8 : FVec Ideal S64 .f32) (a9 : FVec Ideal S64x64 .f32) (a10 : FVec Ideal S64 .f32) : FVec Ideal S150000x192 .f32 :=
  beside2 (beside1 (feat0 a5 a6) (feat1 a2 a3 a4 a5 a6 a7 a8)) (feat2 a2 a3 a4 a5 a6 a7 a8 a9 a10)

/-- A row index as NumPy reads it: a negative index counts from the end of the 150000 rows. -/
def rowIndex (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 150000#32))) idx)

/-- The rows of a table named by a vector of row indices. -/
def rowsAt (x : FVec Ideal S150000x192 .f32) (idx : IVec S16384 32) : FVec Ideal S16384x192 .f32 :=
  Host.gather gather_S150000x192_S16384x1_S16384x192_1_0_n_n_0_1_1192 x (rowIndex idx)

/-- The item indices shifted past the 100000 user rows. -/
def itemRows (a1 : IVec S16384 32) : IVec S16384 32 :=
  addi a1 (broadcastInDim S16384 ![] bcast_S_S16384 (constantI S_ 32 100000#32))

/-- A user's row beside an item's row. -/
def beside3 (x y : FVec Ideal S16384x192 .f32) : FVec Ideal S16384x384 .f32 :=
  concatenate S16384x384 1 [⟨S16384x192, x⟩, ⟨S16384x192, y⟩] concatenates_S16384x192_S16384x192_S16384x384_d1

/-- The result: one score for each of the 16384 (user, item) pairs. -/
def scores (a0 a1 : IVec S16384 32) (a2 a3 : IVec S2400000 32) (a4 : FVec Ideal S2400000 .f32) (a5 : FVec Ideal S100000x64 .f32)
    (a6 : FVec Ideal S50000x64 .f32) (a7 : FVec Ideal S64x64 .f32) (a8 : FVec Ideal S64 .f32) (a9 : FVec Ideal S64x64 .f32) (a10 : FVec Ideal S64 .f32)
    (a11 : FVec Ideal S384x64 .f32) (a12 : FVec Ideal S64 .f32) (a13 : FVec Ideal S64x32 .f32) (a14 : FVec Ideal S32 .f32)
    (a15 : FVec Ideal S32x1 .f32) (a16 : FVec Ideal S1 .f32) : FVec Ideal S16384 .f32 :=
  shapeCast S16384
    (Cert.Spec.mlpArr
      (beside3 (rowsAt (table a2 a3 a4 a5 a6 a7 a8 a9 a10) a0) (rowsAt (table a2 a3 a4 a5 a6 a7 a8 a9 a10) (itemRows a1)))
      a11 (bias a12) a13 (bias a14) a15 (bias a16))
    shapeCasts_S16384x1_S16384

end Cert.KernelIdeal.Stages

end
-- ==== Proof.LayerRegions.lean ====
/-
  The two graph-convolution regions, in closed form.

  Each region runs one body over 25 grid points. At point t the body reads rows 6000 t … 6000 t + 5999 of the aggregated
  array s and of the feature array f, the whole 64×64 weight matrix W and the whole 1×64 bias row b, and stores
  max((s + f) · W + b, 0) into the same rows of the output. Entry (p, q) of the stored tile is the row map
  `Cert.Spec.layerRow` of row p of the two input tiles, because a matrix product's entry is a sum over the contracted
  coordinate of products taken from one row of the left operand. Row p of a tile at point t is row 6000 t + p of the
  array in the inputs and in the output alike, so what point t writes back is tile t of `Cert.Spec.layerArr` of the
  whole arrays; every row r < 150000 lies in tile r / 6000, so the 25 tiles are the whole array.
-/
import proofs.«428266_j67147518705976_1_alg».proof.Proof.Gen.KernelIdeal.Frame
import proofs.«428266_j67147518705976_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.LayerRegions

open Idealize.ShloMosaic Idealize.ShloMosaic.TcCoe Idealize.ShloMosaic.ValueIdx Idealize.SL.Sem
open Cert.KernelIdeal Cert.KernelIdeal.Gen

/-! ## The tile's matrix product, entry by entry -/

/-- Axis 0 of the left operand's index is the output row. -/
theorem lhs_tile_0 (i : S6000x64.Idx) (q : dot_S6000x64_S64x64_S6000x64_1_0_0_1_n_n.contr.Idx) :
    (dot_S6000x64_S64x64_S6000x64_1_0_0_1_n_n.lhsIdx i q 0).val = (i 0).val := by
  unfold DotDims.lhsIdx
  rw [dif_neg (show ¬(0 : Fin S6000x64.rank) ∈ dot_S6000x64_S64x64_S6000x64_1_0_0_1_n_n.lhsBatch by decide), dif_pos (show (0 : Fin S6000x64.rank) ∈ dot_S6000x64_S64x64_S6000x64_1_0_0_1_n_n.lhsNonContracting by decide)]
  rfl
/-- Axis 1 of the left operand's index is the contracted coordinate. -/
theorem lhs_tile_1 (i : S6000x64.Idx) (q : dot_S6000x64_S64x64_S6000x64_1_0_0_1_n_n.contr.Idx) :
    (dot_S6000x64_S64x64_S6000x64_1_0_0_1_n_n.lhsIdx i q 1).val = (q ⟨0, by decide⟩).val :=
  dot_S6000x64_S64x64_S6000x64_1_0_0_1_n_n.lhsIdx_val_of_single rfl i q
/-- Axis 0 of the right operand's index is the contracted coordinate. -/
theorem rhs_tile_0 (i : S6000x64.Idx) (q : dot_S6000x64_S64x64_S6000x64_1_0_0_1_n_n.contr.Idx) :
    (dot_S6000x64_S64x64_S6000x64_1_0_0_1_n_n.rhsIdx i q 0).val = (q ⟨0, by decide⟩).val :=
  dot_S6000x64_S64x64_S6000x64_1_0_0_1_n_n.rhsIdx_val_of_single rfl i q
/-- Axis 1 of the right operand's index is the output column. -/
theorem rhs_tile_1 (i : S6000x64.Idx) (q : dot_S6000x64_S64x64_S6000x64_1_0_0_1_n_n.contr.Idx) :
    (dot_S6000x64_S64x64_S6000x64_1_0_0_1_n_n.rhsIdx i q 1).val = (i 1).val := by
  unfold DotDims.rhsIdx
  rw [dif_neg (show ¬(1 : Fin S64x64.rank) ∈ dot_S6000x64_S64x64_S6000x64_1_0_0_1_n_n.rhsBatch by decide), dif_pos (show (1 : Fin S64x64.rank) ∈ dot_S6000x64_S64x64_S6000x64_1_0_0_1_n_n.rhsNonContracting by decide)]
  rfl

/-- Entry (p, q) of a 6000×64 by 64×64 product into a zero accumulator is the sum over k of a(p,k) · b(k,q). -/
theorem tile_matmul_apply {φ₁ φ₂ : FTy} (a : FVec Ideal S6000x64 φ₁) (b : FVec Ideal S64x64 φ₂) (p : Fin 6000) (q : Fin 64) :
    FloatOps.matmul dot_S6000x64_S64x64_S6000x64_1_0_0_1_n_n none a b (constant (F := Ideal) S6000x64 .f32 0x00000000#32) (ix2 p q)
      = ∑ k : Fin 64, a (ix2 p k) * b (ix2 k q) := by
  rw [Ideal.matmul_constant_zero_apply, ← Equiv.sum_comp (contrEquiv1 dot_S6000x64_S64x64_S6000x64_1_0_0_1_n_n 64 rfl rfl).symm]
  refine Finset.sum_congr rfl fun k _ => ?_
  have hk := contrEquiv1_symm_val dot_S6000x64_S64x64_S6000x64_1_0_0_1_n_n 64 rfl rfl k
  have el : dot_S6000x64_S64x64_S6000x64_1_0_0_1_n_n.lhsIdx (ix2 p q) ((contrEquiv1 dot_S6000x64_S64x64_S6000x64_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S6000x64_S64x64_S6000x64_1_0_0_1_n_n.rhsIdx (ix2 p q) ((contrEquiv1 dot_S6000x64_S64x64_S6000x64_1_0_0_1_n_n 64 rfl rfl).symm k) = ix2 k q := funext fun a => Fin.ext (by
    match a with
    | ⟨0, _⟩ => exact (rhs_tile_0 _ _).trans hk
    | ⟨1, _⟩ => exact rhs_tile_1 _ _)
  rw [el, er]

/-- The bias row spread over the tile's rows reads the bias at the column. -/
theorem tile_bias_apply {α : Type} (x : S1x64.Idx → α) (p : Fin 6000) (q : Fin 64) :
    broadcastTo S6000x64 x broadcasts_S1x64_S6000x64 (ix2 p q) = x (ix2 (0 : Fin 1) q) := by
  refine broadcastTo_apply x broadcasts_S1x64_S6000x64 (ix2 p q) (ix2 (0 : Fin 1) q) (fun a => ?_)
  match a with
  | ⟨0, _⟩ => rfl
  | ⟨1, _⟩ => rfl

/-- What the body stores in the output tile, at row p and column q: the layer's row map on row p of the two input tiles. -/
theorem k0_pay1_apply (x0 x1 : Vec Ideal S6000x64 .f32) (x2 : Vec Ideal S64x64 .f32) (x3 : Vec Ideal S1x64 .f32) (p : Fin 6000) (q : Fin 64) :
    k0_pay1 x0 x1 x2 x3 (ix2 p q)
      = Cert.Spec.layerRow (fun k => x0 (ix2 p k)) (fun k => x1 (ix2 p k)) (fun k j => x2 (ix2 k j)) (fun j => x3 (ix2 (0 : Fin 1) j)) q := by
  unfold k0_pay1
  simp only [shapeCast_self]
  show max (FloatOps.matmul dot_S6000x64_S64x64_S6000x64_1_0_0_1_n_n none _ _ (constant (F := Ideal) S6000x64 .f32 0x00000000#32) (ix2 p q) + broadcastTo S6000x64 x3 broadcasts_S1x64_S6000x64 (ix2 p q)) (Ideal.ofBits .f32 0x00000000#32) = _
  rw [tile_matmul_apply, tile_bias_apply, Ideal.ofBits_zero_f32]
  rfl

/-- The same entry for the second layer's body, which is the same function of its four tiles. -/
theorem k1_pay1_apply (x0 x1 : Vec Ideal S6000x64 .f32) (x2 : Vec Ideal S64x64 .f32) (x3 : Vec Ideal S1x64 .f32) (p : Fin 6000) (q : Fin 64) :
    k1_pay1 x0 x1 x2 x3 (ix2 p q)
      = Cert.Spec.layerRow (fun k => x0 (ix2 p k)) (fun k => x1 (ix2 p k)) (fun k j => x2 (ix2 k j)) (fun j => x3 (ix2 (0 : Fin 1) j)) q := by
  unfold k1_pay1
  simp only [shapeCast_self]
  show max (FloatOps.matmul dot_S6000x64_S64x64_S6000x64_1_0_0_1_n_n none _ _ (constant (F := Ideal) S6000x64 .f32 0x00000000#32) (ix2 p q) + broadcastTo S6000x64 x3 broadcasts_S1x64_S6000x64 (ix2 p q)) (Ideal.ofBits .f32 0x00000000#32) = _
  rw [tile_matmul_apply, tile_bias_apply, Ideal.ofBits_zero_f32]
  rfl

/-! ## Rows of the array by tile -/

/-- The zero offsets of a whole-buffer access. -/
theorem zero_offsets : (![0, 0] : Fin 2 → Nat) = fun _ => 0 := funext fun a => by fin_cases a <;> rfl

/-- Row p of tile n, as a row of the 150000. -/
def tileRow (n : Nat) (hn : n < 25) (p : Fin 6000) : Fin 150000 := ⟨n * 6000 + p.val, by have := p.isLt; omega⟩

variable (V : (c : Dev nD) → (b : Ref sig .tc) → Buf (Elt Ideal) ((c : Thread nD τ).loc b))

/-! ## Region 0: the 25 tiles together are the layer on all 150000 nodes -/

/-- The tile windows' block indices at grid point t: the two inputs and the output sit at block row t, column block 0;
    the weight matrix and the bias row are whole at every point. -/
theorem tile_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the aggregated-input tile at point t is row 6000 t + p of the array. -/
theorem emb_agg0 (t : Fin cfg0.N) (p : Fin 6000) (k : Fin 64) :
    ((cfg0.win 0).blk t).view.emb (ix2 p k) = ix2 (tileRow t.val (lt_of_lt_of_eq t.isLt N_0) p) k := by
  obtain ⟨e0, e1, -⟩ := tile_index0 t
  funext a; apply Fin.ext
  match a with
  | ⟨0, _⟩ => show win0_0.index t (0 : Fin 2) * 6000 + 1 * p.val = t.val * 6000 + p.val; rw [e0]; omega
  | ⟨1, _⟩ => show win0_0.index t (1 : Fin 2) * 64 + 1 * k.val = k.val; rw [e1]; omega

/-- Row p of the feature-input tile at point t is row 6000 t + p of the array. -/
theorem emb_feat0 (t : Fin cfg0.N) (p : Fin 6000) (k : Fin 64) :
    ((cfg0.win 1).blk t).view.emb (ix2 p k) = ix2 (tileRow t.val (lt_of_lt_of_eq t.isLt N_0) p) k := by
  obtain ⟨-, -, e0, e1, -⟩ := tile_index0 t
  funext a; apply Fin.ext
  match a with
  | ⟨0, _⟩ => show win0_1.index t (0 : Fin 2) * 6000 + 1 * p.val = t.val * 6000 + p.val; rw [e0]; omega
  | ⟨1, _⟩ => show win0_1.index t (1 : Fin 2) * 64 + 1 * k.val = k.val; rw [e1]; omega

/-- The weight window is the whole matrix at every point. -/
theorem emb_weight0 (t : Fin cfg0.N) (k j : Fin 64) :
    ((cfg0.win 2).blk t).view.emb (ix2 k j) = ix2 k j := by
  obtain ⟨-, -, -, -, e0, e1, -⟩ := tile_index0 t
  funext a; apply Fin.ext
  match a with
  | ⟨0, _⟩ => show win0_2.index t (0 : Fin 2) * 64 + 1 * k.val = k.val; rw [e0]; omega
  | ⟨1, _⟩ => show win0_2.index t (1 : Fin 2) * 64 + 1 * j.val = j.val; rw [e1]; omega

/-- The bias window is the whole row at every point. -/
theorem emb_bias0 (t : Fin cfg0.N) (j : Fin 64) :
    ((cfg0.win 3).blk t).view.emb (ix2 (0 : Fin 1) j) = ix2 (0 : Fin 1) j := by
  obtain ⟨-, -, -, -, -, -, e0, e1, -⟩ := tile_index0 t
  funext a; apply Fin.ext
  match a with
  | ⟨0, _⟩ => show win0_3.index t (0 : Fin 2) * 1 + 1 * 0 = 0; rw [e0]
  | ⟨1, _⟩ => show win0_3.index t (1 : Fin 2) * 64 + 1 * j.val = j.val; rw [e1]; omega

/-- Row p of the output tile at point t is row 6000 t + p of the array. -/
theorem emb_out0 (t : Fin cfg0.N) (p : Fin 6000) (q : Fin 64) :
    ((cfg0.win 4).blk t).view.emb (ix2 p q) = ix2 (tileRow t.val (lt_of_lt_of_eq t.isLt N_0) p) q := by
  obtain ⟨-, -, -, -, -, -, -, -, e0, e1⟩ := tile_index0 t
  funext a; apply Fin.ext
  match a with
  | ⟨0, _⟩ => show win0_4.index t (0 : Fin 2) * 6000 + 1 * p.val = t.val * 6000 + p.val; rw [e0]; omega
  | ⟨1, _⟩ => show win0_4.index t (1 : Fin 2) * 64 + 1 * q.val = q.val; rw [e1]; omega

/-- What point t writes back is tile t of the layer applied to the whole arrays: an output row needs only the same row
    of the two inputs, and that row is in the inputs' tiles at the same point. -/
theorem flushed0_eq (c : Dev nD) (t : Fin cfg0.N) :
    (dat0 (F := Ideal) V c).flushed 4 t
      = ((cfg0.win 4).blk t).view.read (Elt Ideal)
          (Cert.Spec.layerArr (V c main_v13) (V c main_v0) (V c main_arg7) (fun j => V c main_v14 (ix2 (0 : Fin 1) j))) := by
  show (cfg0.win 4).cut (grid0.coords t) ((dat0 V c).after 4 t) = _
  rw [after0_4]
  unfold out0_4
  rw [View.canon_unit_zero zero_offsets]
  simp only [View.ld_unit_zero (S := S6000x64) zero_offsets, View.ld_unit_zero (S := S64x64) zero_offsets,
    View.ld_unit_zero (S := S1x64) zero_offsets]
  funext j
  obtain ⟨p, q, rfl⟩ : ∃ (p : Fin 6000) (q : Fin 64), j = ix2 p q := ⟨j 0, j 1, eq_ix2 j⟩
  show k0_pay1 (iblk0 V c 0 t) (iblk0 V c 1 t) (iblk0 V c 2 t) (iblk0 V c 3 t) (ix2 p q)
    = Cert.Spec.layerArr _ _ _ _ (((cfg0.win 4).blk t).view.emb (ix2 p q))
  rw [k0_pay1_apply, emb_out0, Cert.Spec.layerArr_apply]
  have hs : ∀ k : Fin 64, iblk0 V c 0 t (ix2 p k) = V c main_v13 (ix2 (tileRow t.val (lt_of_lt_of_eq t.isLt N_0) p) k) := fun k => by
    show V c main_v13 (((cfg0.win 0).blk t).view.emb (ix2 p k)) = _
    rw [emb_agg0]
  have hf : ∀ k : Fin 64, iblk0 V c 1 t (ix2 p k) = V c main_v0 (ix2 (tileRow t.val (lt_of_lt_of_eq t.isLt N_0) p) k) := fun k => by
    show V c main_v0 (((cfg0.win 1).blk t).view.emb (ix2 p k)) = _
    rw [emb_feat0]
  have hw : ∀ k j : Fin 64, iblk0 V c 2 t (ix2 k j) = V c main_arg7 (ix2 k j) := fun k j => by
    show V c main_arg7 (((cfg0.win 2).blk t).view.emb (ix2 k j)) = _
    rw [emb_weight0]
  have hb : ∀ j : Fin 64, iblk0 V c 3 t (ix2 (0 : Fin 1) j) = V c main_v14 (ix2 (0 : Fin 1) j) := fun j => by
    show V c main_v14 (((cfg0.win 3).blk t).view.emb (ix2 (0 : Fin 1) j)) = _
    rw [emb_bias0]
  simp only [hs, hf, hw, hb]

/-- An index of the output array is in point t's tile iff each coordinate is in the tile's range on its axis. -/
theorem mem_tile0 (t : Fin cfg0.N) (i : S150000x64.Idx) :
    i ∈ ((cfg0.win 4).blk t).view.set
      ↔ ∀ a : Fin 2, win0_4.index t a * S6000x64.size a ≤ (i a).val ∧ (i a).val < win0_4.index t a * S6000x64.size a + S6000x64.size a := by
  show i ∈ ((View.whole main_v15).slice (win0_4.rect t)).set ↔ _
  rw [View.set_slice_whole, Rect.mem_set_unit]
  exact Iff.rfl

/-- Every row r of the 150000 lies in the tile of point r / 6000, so the tiles cover the array. -/
theorem tiles_cover0 (i : S150000x64.Idx) :
    ∃ t : Fin cfg0.N, (cfg0.win 4).flush t = true ∧ i ∈ ((cfg0.win 4).blk t).view.set := by
  have hi0 : (i 0).val < 150000 := idx2_lt0 i
  have hi1 : (i 1).val < 64 := idx2_lt1 i
  have ht : (i 0).val / 6000 < cfg0.N := lt_of_lt_of_eq (by omega : (i 0).val / 6000 < 25) N_0.symm
  obtain ⟨-, -, -, -, -, -, -, -, e0, e1⟩ := tile_index0 ⟨(i 0).val / 6000, ht⟩
  have e0' : win0_4.index ⟨(i 0).val / 6000, ht⟩ (0 : Fin 2) = (i 0).val / 6000 := e0
  refine ⟨⟨(i 0).val / 6000, ht⟩, flush0_4 _, ?_⟩
  rw [mem_tile0]
  intro a
  match a with
  | ⟨0, _⟩ =>
    show win0_4.index ⟨(i 0).val / 6000, ht⟩ (0 : Fin 2) * 6000 ≤ (i 0).val
      ∧ (i 0).val < win0_4.index ⟨(i 0).val / 6000, ht⟩ (0 : Fin 2) * 6000 + 6000
    rw [e0']; omega
  | ⟨1, _⟩ =>
    show win0_4.index ⟨(i 0).val / 6000, ht⟩ (1 : Fin 2) * 64 ≤ (i 1).val
      ∧ (i 1).val < win0_4.index ⟨(i 0).val / 6000, ht⟩ (1 : Fin 2) * 64 + 64
    rw [e1]; omega

/-- After region 0 the output array is the graph-convolution layer of the arrays the region found. -/
theorem final0 (c : Dev nD) :
    (dat0 (F := Ideal) V c).arrAt 4 cfg0.N
      = Cert.Spec.layerArr (V c main_v13) (V c main_v0) (V c main_arg7) (fun j => V c main_v14 (ix2 (0 : Fin 1) j)) :=
  (dat0 (F := Ideal) V c).arrAt_eq_of_cover 4 _ (fun t _ => flushed0_eq V c t) (fun i => tiles_cover0 i)

/-! ## Region 1: the 25 tiles together are the layer on all 150000 nodes -/

/-- The tile windows' block indices at grid point t: the two inputs and the output sit at block row t, column block 0;
    the weight matrix and the bias row are whole at every point. -/
theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the aggregated-input tile at point t is row 6000 t + p of the array. -/
theorem emb_agg1 (t : Fin cfg1.N) (p : Fin 6000) (k : Fin 64) :
    ((cfg1.win 0).blk t).view.emb (ix2 p k) = ix2 (tileRow t.val (lt_of_lt_of_eq t.isLt N_1) p) k := by
  obtain ⟨e0, e1, -⟩ := tile_index1 t
  funext a; apply Fin.ext
  match a with
  | ⟨0, _⟩ => show win1_0.index t (0 : Fin 2) * 6000 + 1 * p.val = t.val * 6000 + p.val; rw [e0]; omega
  | ⟨1, _⟩ => show win1_0.index t (1 : Fin 2) * 64 + 1 * k.val = k.val; rw [e1]; omega

/-- Row p of the feature-input tile at point t is row 6000 t + p of the array. -/
theorem emb_feat1 (t : Fin cfg1.N) (p : Fin 6000) (k : Fin 64) :
    ((cfg1.win 1).blk t).view.emb (ix2 p k) = ix2 (tileRow t.val (lt_of_lt_of_eq t.isLt N_1) p) k := by
  obtain ⟨-, -, e0, e1, -⟩ := tile_index1 t
  funext a; apply Fin.ext
  match a with
  | ⟨0, _⟩ => show win1_1.index t (0 : Fin 2) * 6000 + 1 * p.val = t.val * 6000 + p.val; rw [e0]; omega
  | ⟨1, _⟩ => show win1_1.index t (1 : Fin 2) * 64 + 1 * k.val = k.val; rw [e1]; omega

/-- The weight window is the whole matrix at every point. -/
theorem emb_weight1 (t : Fin cfg1.N) (k j : Fin 64) :
    ((cfg1.win 2).blk t).view.emb (ix2 k j) = ix2 k j := by
  obtain ⟨-, -, -, -, e0, e1, -⟩ := tile_index1 t
  funext a; apply Fin.ext
  match a with
  | ⟨0, _⟩ => show win1_2.index t (0 : Fin 2) * 64 + 1 * k.val = k.val; rw [e0]; omega
  | ⟨1, _⟩ => show win1_2.index t (1 : Fin 2) * 64 + 1 * j.val = j.val; rw [e1]; omega

/-- The bias window is the whole row at every point. -/
theorem emb_bias1 (t : Fin cfg1.N) (j : Fin 64) :
    ((cfg1.win 3).blk t).view.emb (ix2 (0 : Fin 1) j) = ix2 (0 : Fin 1) j := by
  obtain ⟨-, -, -, -, -, -, e0, e1, -⟩ := tile_index1 t
  funext a; apply Fin.ext
  match a with
  | ⟨0, _⟩ => show win1_3.index t (0 : Fin 2) * 1 + 1 * 0 = 0; rw [e0]
  | ⟨1, _⟩ => show win1_3.index t (1 : Fin 2) * 64 + 1 * j.val = j.val; rw [e1]; omega

/-- Row p of the output tile at point t is row 6000 t + p of the array. -/
theorem emb_out1 (t : Fin cfg1.N) (p : Fin 6000) (q : Fin 64) :
    ((cfg1.win 4).blk t).view.emb (ix2 p q) = ix2 (tileRow t.val (lt_of_lt_of_eq t.isLt N_1) p) q := by
  obtain ⟨-, -, -, -, -, -, -, -, e0, e1⟩ := tile_index1 t
  funext a; apply Fin.ext
  match a with
  | ⟨0, _⟩ => show win1_4.index t (0 : Fin 2) * 6000 + 1 * p.val = t.val * 6000 + p.val; rw [e0]; omega
  | ⟨1, _⟩ => show win1_4.index t (1 : Fin 2) * 64 + 1 * q.val = q.val; rw [e1]; omega

/-- What point t writes back is tile t of the layer applied to the whole arrays: an output row needs only the same row
    of the two inputs, and that row is in the inputs' tiles at the same point. -/
theorem flushed1_eq (c : Dev nD) (t : Fin cfg1.N) :
    (dat1 (F := Ideal) V c).flushed 4 t
      = ((cfg1.win 4).blk t).view.read (Elt Ideal)
          (Cert.Spec.layerArr (V c main_v29) (V c main_v15) (V c main_arg9) (fun j => V c main_v30 (ix2 (0 : Fin 1) j))) := by
  show (cfg1.win 4).cut (grid1.coords t) ((dat1 V c).after 4 t) = _
  rw [after1_4]
  unfold out1_4
  rw [View.canon_unit_zero zero_offsets]
  simp only [View.ld_unit_zero (S := S6000x64) zero_offsets, View.ld_unit_zero (S := S64x64) zero_offsets,
    View.ld_unit_zero (S := S1x64) zero_offsets]
  funext j
  obtain ⟨p, q, rfl⟩ : ∃ (p : Fin 6000) (q : Fin 64), j = ix2 p q := ⟨j 0, j 1, eq_ix2 j⟩
  show k1_pay1 (iblk1 V c 0 t) (iblk1 V c 1 t) (iblk1 V c 2 t) (iblk1 V c 3 t) (ix2 p q)
    = Cert.Spec.layerArr _ _ _ _ (((cfg1.win 4).blk t).view.emb (ix2 p q))
  rw [k1_pay1_apply, emb_out1, Cert.Spec.layerArr_apply]
  have hs : ∀ k : Fin 64, iblk1 V c 0 t (ix2 p k) = V c main_v29 (ix2 (tileRow t.val (lt_of_lt_of_eq t.isLt N_1) p) k) := fun k => by
    show V c main_v29 (((cfg1.win 0).blk t).view.emb (ix2 p k)) = _
    rw [emb_agg1]
  have hf : ∀ k : Fin 64, iblk1 V c 1 t (ix2 p k) = V c main_v15 (ix2 (tileRow t.val (lt_of_lt_of_eq t.isLt N_1) p) k) := fun k => by
    show V c main_v15 (((cfg1.win 1).blk t).view.emb (ix2 p k)) = _
    rw [emb_feat1]
  have hw : ∀ k j : Fin 64, iblk1 V c 2 t (ix2 k j) = V c main_arg9 (ix2 k j) := fun k j => by
    show V c main_arg9 (((cfg1.win 2).blk t).view.emb (ix2 k j)) = _
    rw [emb_weight1]
  have hb : ∀ j : Fin 64, iblk1 V c 3 t (ix2 (0 : Fin 1) j) = V c main_v30 (ix2 (0 : Fin 1) j) := fun j => by
    show V c main_v30 (((cfg1.win 3).blk t).view.emb (ix2 (0 : Fin 1) j)) = _
    rw [emb_bias1]
  simp only [hs, hf, hw, hb]

/-- An index of the output array is in point t's tile iff each coordinate is in the tile's range on its axis. -/
theorem mem_tile1 (t : Fin cfg1.N) (i : S150000x64.Idx) :
    i ∈ ((cfg1.win 4).blk t).view.set
      ↔ ∀ a : Fin 2, win1_4.index t a * S6000x64.size a ≤ (i a).val ∧ (i a).val < win1_4.index t a * S6000x64.size a + S6000x64.size a := by
  show i ∈ ((View.whole main_v31).slice (win1_4.rect t)).set ↔ _
  rw [View.set_slice_whole, Rect.mem_set_unit]
  exact Iff.rfl

/-- Every row r of the 150000 lies in the tile of point r / 6000, so the tiles cover the array. -/
theorem tiles_cover1 (i : S150000x64.Idx) :
    ∃ t : Fin cfg1.N, (cfg1.win 4).flush t = true ∧ i ∈ ((cfg1.win 4).blk t).view.set := by
  have hi0 : (i 0).val < 150000 := idx2_lt0 i
  have hi1 : (i 1).val < 64 := idx2_lt1 i
  have ht : (i 0).val / 6000 < cfg1.N := lt_of_lt_of_eq (by omega : (i 0).val / 6000 < 25) N_1.symm
  obtain ⟨-, -, -, -, -, -, -, -, e0, e1⟩ := tile_index1 ⟨(i 0).val / 6000, ht⟩
  have e0' : win1_4.index ⟨(i 0).val / 6000, ht⟩ (0 : Fin 2) = (i 0).val / 6000 := e0
  refine ⟨⟨(i 0).val / 6000, ht⟩, flush1_4 _, ?_⟩
  rw [mem_tile1]
  intro a
  match a with
  | ⟨0, _⟩ =>
    show win1_4.index ⟨(i 0).val / 6000, ht⟩ (0 : Fin 2) * 6000 ≤ (i 0).val
      ∧ (i 0).val < win1_4.index ⟨(i 0).val / 6000, ht⟩ (0 : Fin 2) * 6000 + 6000
    rw [e0']; omega
  | ⟨1, _⟩ =>
    show win1_4.index ⟨(i 0).val / 6000, ht⟩ (1 : Fin 2) * 64 ≤ (i 1).val
      ∧ (i 1).val < win1_4.index ⟨(i 0).val / 6000, ht⟩ (1 : Fin 2) * 64 + 64
    rw [e1]; omega

/-- After region 1 the output array is the graph-convolution layer of the arrays the region found. -/
theorem final1 (c : Dev nD) :
    (dat1 (F := Ideal) V c).arrAt 4 cfg1.N
      = Cert.Spec.layerArr (V c main_v29) (V c main_v15) (V c main_arg9) (fun j => V c main_v30 (ix2 (0 : Fin 1) j)) :=
  (dat1 (F := Ideal) V c).arrAt_eq_of_cover 4 _ (fun t _ => flushed1_eq V c t) (fun i => tiles_cover1 i)

end Cert.KernelIdeal.LayerRegions

end
-- ==== Proof.MlpRegion.lean ====
/-
  The scoring-head region's closed form.

  The region runs over eight tiles of 2048 rows of the 16384×384 input e. On a tile it computes, row by row,
  (relu(e_r · W1 + b1) · W2 + b2) · W3 + b3 with W1 : 384×64, W2 : 64×32, W3 : 32×1 and bias rows b1, b2, b3, and writes
  the 2048×1 result to the tile's rows of the output column.

  First the body's arithmetic is read at one row: each matrix product at an entry is the sum over the contracted
  axis of the operands' products, the narrowing to bf16 is the identity over the extended reals, a bias row is
  repeated down the rows. Then the tiles are put together: tile t's input block is rows 2048 t … 2048 t + 2047 of e,
  the six parameter windows are their whole arrays, every output row depends on the same row of e only, and the eight
  output blocks cover the column; so the column after the region is the scoring head applied to every row of e.
-/
import proofs.«428266_j67147518705976_1_alg».proof.Proof.Gen.KernelIdeal.Frame
import proofs.«428266_j67147518705976_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.MlpRegion

open Idealize.ShloMosaic Idealize.ShloMosaic.TcCoe Idealize.ShloMosaic.ValueIdx Idealize.SL.Sem Cert.KernelIdeal Cert.KernelIdeal.Gen

/-! ## The three matrix products, read at an entry

Each product contracts the left operand's axis 1 with the right operand's axis 0 and has no batch axis, so entry
(p, j) of the result reads row p of the left operand and column j of the right one. -/

/-! ### The first layer's product: 2048×384 by 384×64 -/

theorem lhs_prod1_0 (i : S2048x64.Idx) (q : dot_S2048x384_S384x64_S2048x64_1_0_0_1_n_n.contr.Idx) :
    (dot_S2048x384_S384x64_S2048x64_1_0_0_1_n_n.lhsIdx i q 0).val = (i 0).val := by
  unfold DotDims.lhsIdx
  rw [dif_neg (show ¬(0 : Fin S2048x384.rank) ∈ dot_S2048x384_S384x64_S2048x64_1_0_0_1_n_n.lhsBatch by decide), dif_pos (show (0 : Fin S2048x384.rank) ∈ dot_S2048x384_S384x64_S2048x64_1_0_0_1_n_n.lhsNonContracting by decide)]
  rfl
theorem lhs_prod1_1 (i : S2048x64.Idx) (q : dot_S2048x384_S384x64_S2048x64_1_0_0_1_n_n.contr.Idx) :
    (dot_S2048x384_S384x64_S2048x64_1_0_0_1_n_n.lhsIdx i q 1).val = (q ⟨0, by decide⟩).val :=
  dot_S2048x384_S384x64_S2048x64_1_0_0_1_n_n.lhsIdx_val_of_single rfl i q
theorem rhs_prod1_0 (i : S2048x64.Idx) (q : dot_S2048x384_S384x64_S2048x64_1_0_0_1_n_n.contr.Idx) :
    (dot_S2048x384_S384x64_S2048x64_1_0_0_1_n_n.rhsIdx i q 0).val = (q ⟨0, by decide⟩).val :=
  dot_S2048x384_S384x64_S2048x64_1_0_0_1_n_n.rhsIdx_val_of_single rfl i q
theorem rhs_prod1_1 (i : S2048x64.Idx) (q : dot_S2048x384_S384x64_S2048x64_1_0_0_1_n_n.contr.Idx) :
    (dot_S2048x384_S384x64_S2048x64_1_0_0_1_n_n.rhsIdx i q 1).val = (i 1).val := by
  unfold DotDims.rhsIdx
  rw [dif_neg (show ¬(1 : Fin S384x64.rank) ∈ dot_S2048x384_S384x64_S2048x64_1_0_0_1_n_n.rhsBatch by decide), dif_pos (show (1 : Fin S384x64.rank) ∈ dot_S2048x384_S384x64_S2048x64_1_0_0_1_n_n.rhsNonContracting by decide)]
  rfl

/-- Entry (p, j) of the 2048×384 by 384×64 product into the zero splat: the sum over k of l(p, k) * r(k, j). -/
theorem prod1_apply (l : FVec Ideal S2048x384 .bf16) (r : FVec Ideal S384x64 .bf16) (p : Fin 2048) (j : Fin 64) :
    matmul dot_S2048x384_S384x64_S2048x64_1_0_0_1_n_n none l r (constant (F := Ideal) S2048x64 .f32 0x00000000#32) (ix2 p j)
      = ∑ k : Fin 384, l (ix2 p k) * r (ix2 k j) := by
  refine (Ideal.matmul_constant_zero_apply _ none l r (ix2 p j)).trans ?_
  rw [← Equiv.sum_comp (contrEquiv1 dot_S2048x384_S384x64_S2048x64_1_0_0_1_n_n 384 rfl rfl).symm]
  refine Finset.sum_congr rfl fun k _ => ?_
  have hk := contrEquiv1_symm_val dot_S2048x384_S384x64_S2048x64_1_0_0_1_n_n 384 rfl rfl k
  have el : dot_S2048x384_S384x64_S2048x64_1_0_0_1_n_n.lhsIdx (ix2 p j) ((contrEquiv1 dot_S2048x384_S384x64_S2048x64_1_0_0_1_n_n 384 rfl rfl).symm k) = ix2 p k := funext fun a => Fin.ext (by
    match a with
    | ⟨0, _⟩ => exact lhs_prod1_0 _ _
    | ⟨1, _⟩ => exact (lhs_prod1_1 _ _).trans hk)
  have er : dot_S2048x384_S384x64_S2048x64_1_0_0_1_n_n.rhsIdx (ix2 p j) ((contrEquiv1 dot_S2048x384_S384x64_S2048x64_1_0_0_1_n_n 384 rfl rfl).symm k) = ix2 k j := funext fun a => Fin.ext (by
    match a with
    | ⟨0, _⟩ => exact (rhs_prod1_0 _ _).trans hk
    | ⟨1, _⟩ => exact rhs_prod1_1 _ _)
  rw [el, er]

/-! ### The second layer's product: 2048×64 by 64×32 -/

theorem lhs_prod2_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
theorem lhs_prod2_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhs_prod2_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs_prod2_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl

/-- Entry (p, j) of the 2048×64 by 64×32 product into the zero splat: the sum over k of l(p, k) * r(k, j). -/
theorem prod2_apply (l : FVec Ideal S2048x64 .bf16) (r : FVec Ideal S64x32 .bf16) (p : Fin 2048) (j : Fin 32) :
    matmul dot_S2048x64_S64x32_S2048x32_1_0_0_1_n_n none l r (constant (F := Ideal) S2048x32 .f32 0x00000000#32) (ix2 p j)
      = ∑ k : Fin 64, l (ix2 p k) * r (ix2 k j) := by
  refine (Ideal.matmul_constant_zero_apply _ none l r (ix2 p j)).trans ?_
  rw [← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 p j) ((contrEquiv1 dot_S2048x64_S64x32_S2048x32_1_0_0_1_n_n 64 rfl rfl).symm k) = ix2 p k := funext fun a => Fin.ext (by
    match a with
    | ⟨0, _⟩ => exact lhs_prod2_0 _ _
    | ⟨1, _⟩ => exact (lhs_prod2_1 _ _).trans hk)
  have er : dot_S2048x64_S64x32_S2048x32_1_0_0_1_n_n.rhsIdx (ix2 p j) ((contrEquiv1 dot_S2048x64_S64x32_S2048x32_1_0_0_1_n_n 64 rfl rfl).symm k) = ix2 k j := funext fun a => Fin.ext (by
    match a with
    | ⟨0, _⟩ => exact (rhs_prod2_0 _ _).trans hk
    | ⟨1, _⟩ => exact rhs_prod2_1 _ _)
  rw [el, er]

/-! ### The third layer's product: 2048×32 by 32×1 -/

theorem lhs_prod3_0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
theorem lhs_prod3_1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem rhs_prod3_0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem rhs_prod3_1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl

/-- Entry (p, j) of the 2048×32 by 32×1 product into the zero splat: the sum over k of l(p, k) * r(k, j). -/
theorem prod3_apply (l : FVec Ideal S2048x32 .bf16) (r : FVec Ideal S32x1 .bf16) (p : Fin 2048) (j : Fin 1) :
    matmul dot_S2048x32_S32x1_S2048x1_1_0_0_1_n_n none l r (constant (F := Ideal) S2048x1 .f32 0x00000000#32) (ix2 p j)
      = ∑ k : Fin 32, l (ix2 p k) * r (ix2 k j) := by
  refine (Ideal.matmul_constant_zero_apply _ none l r (ix2 p j)).trans ?_
  rw [← Equiv.sum_comp (contrEquiv1 dot_S2048x32_S32x1_S2048x1_1_0_0_1_n_n 32 rfl rfl).symm]
  refine Finset.sum_congr rfl fun k _ => ?_
  have hk := contrEquiv1_symm_val dot_S2048x32_S32x1_S2048x1_1_0_0_1_n_n 32 rfl rfl k
  have el : dot_S2048x32_S32x1_S2048x1_1_0_0_1_n_n.lhsIdx (ix2 p j) ((contrEquiv1 dot_S2048x32_S32x1_S2048x1_1_0_0_1_n_n 32 rfl rfl).symm k) = ix2 p k := funext fun a => Fin.ext (by
    match a with
    | ⟨0, _⟩ => exact lhs_prod3_0 _ _
    | ⟨1, _⟩ => exact (lhs_prod3_1 _ _).trans hk)
  have er : dot_S2048x32_S32x1_S2048x1_1_0_0_1_n_n.rhsIdx (ix2 p j) ((contrEquiv1 dot_S2048x32_S32x1_S2048x1_1_0_0_1_n_n 32 rfl rfl).symm k) = ix2 k j := funext fun a => Fin.ext (by
    match a with
    | ⟨0, _⟩ => exact (rhs_prod3_0 _ _).trans hk
    | ⟨1, _⟩ => exact rhs_prod3_1 _ _)
  rw [el, er]

/-! ## The body's arithmetic at one row

The tile's row p goes through the three dense layers: the narrowing to bf16 is the identity over the extended
reals, each bias row [1, n] is repeated down the 2048 rows, and only the first layer is followed by the maximum
with zero. -/

theorem pay_apply (x0 : Vec Ideal S2048x384 .f32) (x1 : Vec Ideal S384x64 .f32) (x2 : Vec Ideal S1x64 .f32)
    (x3 : Vec Ideal S64x32 .f32) (x4 : Vec Ideal S1x32 .f32) (x5 : Vec Ideal S32x1 .f32) (x6 : Vec Ideal S1x1 .f32)
    (p : Fin 2048) (q : Fin 1) :
    k2_pay1 (F := Ideal) x0 x1 x2 x3 x4 x5 x6 (ix2 p q)
      = Cert.Spec.mlpRow (fun k => x0 (ix2 p k)) (fun k j => x1 (ix2 k j)) (fun j => x2 (ix2 (0 : Fin 1) j))
          (fun k j => x3 (ix2 k j)) (fun j => x4 (ix2 (0 : Fin 1) j)) (fun k j => x5 (ix2 k j)) (fun j => x6 (ix2 (0 : Fin 1) j)) := by
  obtain rfl : q = 0 := Subsingleton.elim _ _
  unfold k2_pay1
  simp only [shapeCast_self]
  simp only [addf_apply, prod3_apply, prod2_apply, prod1_apply, truncf_apply, maximumf_apply, broadcast_apply, broadcastTo_1b_ab_apply]
  unfold Cert.Spec.mlpRow Cert.Spec.affineRow
  rw [show FloatOps.ofBits (F := Ideal) .f32 0x00000000#32 = (0 : EReal) from Ideal.ofBits_zero_f32]

/-! ## From the eight tiles to the whole column

Tile t holds rows 2048 t … 2048 t + 2047 of the input and of the output column; the six parameter windows are their
whole arrays at every tile. Every output row depends on the same row of the input only, so what tile t writes back is
the whole-array map read through tile t's block, and the eight blocks cover the column. -/

variable (V : (c : Dev nD) → (b : Ref sig .tc) → Buf (Elt Ideal) ((c : Thread nD τ).loc b))

theorem zero_offsets : (![0, 0] : Fin 2 → Nat) = fun _ => 0 := funext fun a => by fin_cases a <;> rfl

/-- The input's row-block index is the output's, its column-block index is zero, and the output's block indices
    stay in their ranges (decided over the eight tiles). -/
theorem tile_index_facts : ∀ t : Fin cfg2.N, win2_0.index t (0 : Fin 2) = win2_7.index t (0 : Fin 2)
    ∧ win2_0.index t (1 : Fin 2) = 0
    ∧ win2_7.index t (0 : Fin 2) ≤ 7
    ∧ win2_7.index t (1 : Fin 2) = 0 :=
  (by decide +kernel : ∀ t : Fin grid2.N, _)

/-- The six parameter windows sit at block index zero on both axes at every tile (decided over the eight tiles). -/
theorem whole_index_facts : ∀ t : Fin cfg2.N,
    (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0) :=
  (by decide +kernel : ∀ t : Fin grid2.N, _)

/-- Every row block of the column is some tile's. -/
theorem tile_onto : ∀ q0 : Fin 8, ∃ t : Fin cfg2.N, win2_7.index t = ![q0.val, 0] :=
  (by decide +kernel : ∀ q0 : Fin 8, ∃ t : Fin grid2.N, win2_7.index t = ![q0.val, 0])

/-- Row p of tile t's input block is row (tile index × 2048 + p) of the input array. -/
theorem rows_read (c : Dev nD) (t : Fin cfg2.N) (p : Fin 2048) (k : Fin 384) (r : Fin 16384)
    (hr : r.val = win2_7.index t (0 : Fin 2) * 2048 + p.val) :
    (iblk2 (F := Ideal) V c 0 t : Vec Ideal S2048x384 .f32) (ix2 p k) = V c main_v37 (ix2 r k) := by
  obtain ⟨e0, e1, -, -⟩ := tile_index_facts t
  have he : ((cfg2.win 0).blk t).view.emb (ix2 p k) = ix2 r k := by
    funext a; apply Fin.ext
    match a with
    | ⟨0, _⟩ => show win2_0.index t (0 : Fin 2) * 2048 + 1 * p.val = r.val; omega
    | ⟨1, _⟩ => show win2_0.index t (1 : Fin 2) * 384 + 1 * k.val = k.val; omega
  show V c main_v37 (((cfg2.win 0).blk t).view.emb (ix2 p k)) = V c main_v37 (ix2 r k)
  rw [he]

/-- The first layer's weight window is its whole 384×64 array at every tile. -/
theorem weight1_read (c : Dev nD) (t : Fin cfg2.N) (k : Fin 384) (j : Fin 64) :
    (iblk2 (F := Ideal) V c 1 t : Vec Ideal S384x64 .f32) (ix2 k j) = V c main_arg11 (ix2 k j) := by
  have hi : win2_1.index t (0 : Fin 2) = 0 ∧ win2_1.index t (1 : Fin 2) = 0 := whole_index_facts t |>.1
  have he : ((cfg2.win 1).blk t).view.emb (ix2 k j) = ix2 k j := by
    funext a; apply Fin.ext
    match a with
    | ⟨0, _⟩ => show win2_1.index t (0 : Fin 2) * 384 + 1 * k.val = k.val; omega
    | ⟨1, _⟩ => show win2_1.index t (1 : Fin 2) * 64 + 1 * j.val = j.val; omega
  show V c main_arg11 (((cfg2.win 1).blk t).view.emb (ix2 k j)) = V c main_arg11 (ix2 k j)
  rw [he]

/-- The first layer's bias window is its whole 1×64 array at every tile. -/
theorem bias1_read (c : Dev nD) (t : Fin cfg2.N) (k : Fin 1) (j : Fin 64) :
    (iblk2 (F := Ideal) V c 2 t : Vec Ideal S1x64 .f32) (ix2 k j) = V c main_v38 (ix2 k j) := by
  have hi : win2_2.index t (0 : Fin 2) = 0 ∧ win2_2.index t (1 : Fin 2) = 0 := whole_index_facts t |>.2.1
  have he : ((cfg2.win 2).blk t).view.emb (ix2 k j) = ix2 k j := by
    funext a; apply Fin.ext
    match a with
    | ⟨0, _⟩ => show win2_2.index t (0 : Fin 2) * 1 + 1 * k.val = k.val; omega
    | ⟨1, _⟩ => show win2_2.index t (1 : Fin 2) * 64 + 1 * j.val = j.val; omega
  show V c main_v38 (((cfg2.win 2).blk t).view.emb (ix2 k j)) = V c main_v38 (ix2 k j)
  rw [he]

/-- The second layer's weight window is its whole 64×32 array at every tile. -/
theorem weight2_read (c : Dev nD) (t : Fin cfg2.N) (k : Fin 64) (j : Fin 32) :
    (iblk2 (F := Ideal) V c 3 t : Vec Ideal S64x32 .f32) (ix2 k j) = V c main_arg13 (ix2 k j) := by
  have hi : win2_3.index t (0 : Fin 2) = 0 ∧ win2_3.index t (1 : Fin 2) = 0 := whole_index_facts t |>.2.2.1
  have he : ((cfg2.win 3).blk t).view.emb (ix2 k j) = ix2 k j := by
    funext a; apply Fin.ext
    match a with
    | ⟨0, _⟩ => show win2_3.index t (0 : Fin 2) * 64 + 1 * k.val = k.val; omega
    | ⟨1, _⟩ => show win2_3.index t (1 : Fin 2) * 32 + 1 * j.val = j.val; omega
  show V c main_arg13 (((cfg2.win 3).blk t).view.emb (ix2 k j)) = V c main_arg13 (ix2 k j)
  rw [he]

/-- The second layer's bias window is its whole 1×32 array at every tile. -/
theorem bias2_read (c : Dev nD) (t : Fin cfg2.N) (k : Fin 1) (j : Fin 32) :
    (iblk2 (F := Ideal) V c 4 t : Vec Ideal S1x32 .f32) (ix2 k j) = V c main_v39 (ix2 k j) := by
  have hi : win2_4.index t (0 : Fin 2) = 0 ∧ win2_4.index t (1 : Fin 2) = 0 := whole_index_facts t |>.2.2.2.1
  have he : ((cfg2.win 4).blk t).view.emb (ix2 k j) = ix2 k j := by
    funext a; apply Fin.ext
    match a with
    | ⟨0, _⟩ => show win2_4.index t (0 : Fin 2) * 1 + 1 * k.val = k.val; omega
    | ⟨1, _⟩ => show win2_4.index t (1 : Fin 2) * 32 + 1 * j.val = j.val; omega
  show V c main_v39 (((cfg2.win 4).blk t).view.emb (ix2 k j)) = V c main_v39 (ix2 k j)
  rw [he]

/-- The third layer's weight window is its whole 32×1 array at every tile. -/
theorem weight3_read (c : Dev nD) (t : Fin cfg2.N) (k : Fin 32) (j : Fin 1) :
    (iblk2 (F := Ideal) V c 5 t : Vec Ideal S32x1 .f32) (ix2 k j) = V c main_arg15 (ix2 k j) := by
  have hi : win2_5.index t (0 : Fin 2) = 0 ∧ win2_5.index t (1 : Fin 2) = 0 := whole_index_facts t |>.2.2.2.2.1
  have he : ((cfg2.win 5).blk t).view.emb (ix2 k j) = ix2 k j := by
    funext a; apply Fin.ext
    match a with
    | ⟨0, _⟩ => show win2_5.index t (0 : Fin 2) * 32 + 1 * k.val = k.val; omega
    | ⟨1, _⟩ => show win2_5.index t (1 : Fin 2) * 1 + 1 * j.val = j.val; omega
  show V c main_arg15 (((cfg2.win 5).blk t).view.emb (ix2 k j)) = V c main_arg15 (ix2 k j)
  rw [he]

/-- The third layer's bias window is its whole 1×1 array at every tile. -/
theorem bias3_read (c : Dev nD) (t : Fin cfg2.N) (k : Fin 1) (j : Fin 1) :
    (iblk2 (F := Ideal) V c 6 t : Vec Ideal S1x1 .f32) (ix2 k j) = V c main_v40 (ix2 k j) := by
  have hi : win2_6.index t (0 : Fin 2) = 0 ∧ win2_6.index t (1 : Fin 2) = 0 := whole_index_facts t |>.2.2.2.2.2
  have he : ((cfg2.win 6).blk t).view.emb (ix2 k j) = ix2 k j := by
    funext a; apply Fin.ext
    match a with
    | ⟨0, _⟩ => show win2_6.index t (0 : Fin 2) * 1 + 1 * k.val = k.val; omega
    | ⟨1, _⟩ => show win2_6.index t (1 : Fin 2) * 1 + 1 * j.val = j.val; omega
  show V c main_v40 (((cfg2.win 6).blk t).view.emb (ix2 k j)) = V c main_v40 (ix2 k j)
  rw [he]

/-- What tile t writes back is the scoring head of the whole arrays, read through tile t's block of the column. -/
theorem flushed_eq (c : Dev nD) (t : Fin cfg2.N) :
    (dat2 (F := Ideal) V c).flushed 7 t = ((cfg2.win 7).blk t).view.read (Elt Ideal)
        (Cert.Spec.mlpArr (V c main_v37) (V c main_arg11) (fun j => V c main_v38 (ix2 (0 : Fin 1) j))
          (V c main_arg13) (fun j => V c main_v39 (ix2 (0 : Fin 1) j)) (V c main_arg15) (fun j => V c main_v40 (ix2 (0 : Fin 1) j))) := by
  show (cfg2.win 7).cut (grid2.coords t) ((dat2 (F := Ideal) V c).after 7 t) = _
  rw [after2_7]
  unfold out2_7
  rw [View.canon_unit_zero zero_offsets]
  simp only [View.ld_unit_zero (S := S2048x384) zero_offsets, View.ld_unit_zero (S := S384x64) zero_offsets,
    View.ld_unit_zero (S := S1x64) zero_offsets, View.ld_unit_zero (S := S64x32) zero_offsets,
    View.ld_unit_zero (S := S1x32) zero_offsets, View.ld_unit_zero (S := S32x1) zero_offsets,
    View.ld_unit_zero (S := S1x1) zero_offsets]
  obtain ⟨-, -, h70, e71⟩ := tile_index_facts t
  funext j
  obtain ⟨p, q, rfl⟩ : ∃ (p : Fin 2048) (q : Fin 1), j = ix2 p q := ⟨j 0, j 1, eq_ix2 j⟩
  have hout : ((cfg2.win 7).blk t).view.emb (ix2 p q)
      = ix2 (⟨win2_7.index t (0 : Fin 2) * 2048 + p.val, by have := p.isLt; omega⟩ : Fin 16384) q := by
    funext a; apply Fin.ext
    match a with
    | ⟨0, _⟩ => show win2_7.index t (0 : Fin 2) * 2048 + 1 * p.val = win2_7.index t (0 : Fin 2) * 2048 + p.val; omega
    | ⟨1, _⟩ => show win2_7.index t (1 : Fin 2) * 1 + 1 * q.val = q.val; omega
  show k2_pay1 (F := Ideal) (iblk2 V c 0 t) (iblk2 V c 1 t) (iblk2 V c 2 t) (iblk2 V c 3 t) (iblk2 V c 4 t) (iblk2 V c 5 t) (iblk2 V c 6 t) (ix2 p q)
    = Cert.Spec.mlpArr (V c main_v37) (V c main_arg11) (fun j => V c main_v38 (ix2 (0 : Fin 1) j)) (V c main_arg13) (fun j => V c main_v39 (ix2 (0 : Fin 1) j)) (V c main_arg15) (fun j => V c main_v40 (ix2 (0 : Fin 1) j)) (((cfg2.win 7).blk t).view.emb (ix2 p q))
  rw [hout, Cert.Spec.mlpArr_apply]
  refine (pay_apply (iblk2 V c 0 t) (iblk2 V c 1 t) (iblk2 V c 2 t) (iblk2 V c 3 t) (iblk2 V c 4 t) (iblk2 V c 5 t) (iblk2 V c 6 t) p q).trans ?_
  have hrows : (fun k : Fin 384 => (iblk2 (F := Ideal) V c 0 t : Vec Ideal S2048x384 .f32) (ix2 p k))
      = fun k => V c main_v37 (ix2 (⟨win2_7.index t (0 : Fin 2) * 2048 + p.val, by have := p.isLt; omega⟩ : Fin 16384) k) :=
    funext fun k => rows_read V c t p k _ rfl
  rw [hrows]
  simp only [weight1_read V c t, bias1_read V c t, weight2_read V c t, bias2_read V c t, weight3_read V c t, bias3_read V c t]

/-- A row of the column is in tile t's block iff it lies in the block's range on each axis. -/
theorem mem_blk (t : Fin cfg2.N) (i : S16384x1.Idx) :
    i ∈ ((cfg2.win 7).blk t).view.set ↔ ∀ a : Fin 2, win2_7.index t a * S2048x1.size a ≤ (i a).val ∧ (i a).val < win2_7.index t a * S2048x1.size a + S2048x1.size a := by
  show i ∈ ((View.whole main_v41).slice (win2_7.rect t)).set ↔ _
  rw [View.set_slice_whole, Rect.mem_set_unit]
  exact Iff.rfl

/-- Row r of the column lies in the block of the tile whose row-block index is r / 2048. -/
theorem cover (i : S16384x1.Idx) :
    ∃ t : Fin cfg2.N, (cfg2.win 7).flush t = true ∧ i ∈ ((cfg2.win 7).blk t).view.set := by
  have hi0 : (i 0).val < 16384 := (i 0).isLt
  have hi1 : (i 1).val < 1 := (i 1).isLt
  obtain ⟨t, ht⟩ := tile_onto ⟨(i 0).val / 2048, by omega⟩
  have q0 : win2_7.index t (0 : Fin 2) = (i 0).val / 2048 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 2048 ≤ (i 0).val ∧ (i 0).val < win2_7.index t (0 : Fin 2) * 2048 + 2048; omega
  | ⟨1, _⟩ => show win2_7.index t (1 : Fin 2) * 1 ≤ (i 1).val ∧ (i 1).val < win2_7.index t (1 : Fin 2) * 1 + 1; omega

/-- After the region the output column is the scoring head of the arrays the region found: row r is
    (relu(e_r · W1 + b1) · W2 + b2) · W3 + b3 for row r of e. -/
theorem final2 (c : Dev nD) :
    (dat2 (F := Ideal) V c).arrAt 7 cfg2.N
      = Cert.Spec.mlpArr (V c main_v37) (V c main_arg11) (fun j => V c main_v38 (ix2 (0 : Fin 1) j))
          (V c main_arg13) (fun j => V c main_v39 (ix2 (0 : Fin 1) j)) (V c main_arg15) (fun j => V c main_v40 (ix2 (0 : Fin 1) j)) :=
  (dat2 (F := Ideal) V c).arrAt_eq_of_cover 7 _ (fun t _ => flushed_eq V c t) cover

end Cert.KernelIdeal.MlpRegion

end
-- ==== Proof.Take.lean ====
import proofs.«428266_j67147518705976_1_alg».proof.Defs
import proofs.«428266_j67147518705976_1_alg».proof.Proof.Gen.KernelIdeal
import Idealize.ShloMosaic.Lib.ValueIdx
import Idealize.ShloMosaic.Lib.StableHlo.Predicate

set_option maxRecDepth 16384
noncomputable section
namespace Cert.KernelIdeal.Take
open Idealize.ShloMosaic Idealize.ShloMosaic.TcCoe Idealize.ShloMosaic.ValueIdx Idealize.SL.Sem
open Cert.KernelIdeal Cert.KernelIdeal.Facts₀ Cert.KernelIdeal.Facts

/-- A row index as NumPy reads it: a negative index counts from the end of the 150000 rows. -/
def wrapRows (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 150000#32))) idx)

/-- The row gather that fills out-of-range rows with the not-a-number word. -/
def takeFill (x : FVec Ideal S150000x192 .f32) (idx : IVec S16384 32) : FVec Ideal S16384x192 .f32 :=
  select (broadcastInDim S16384x192 ![0] bcast_S16384_S16384x192_0
      (Host.reduce IntOp.andi
        (andi (cmpi .sge (wrapRows idx) (broadcastInDim S16384x1 ![] bcast_S_S16384x1 (constantI S_ 32 0#32)))
          (cmpi .sle (wrapRows idx) (broadcastInDim S16384x1 ![0, 1] bcast_S1x1_S16384x1_0_1 (broadcastInDim S1x1 ![1] bcast_S1_S1x1_1 (constantI S1 32 149999#32)))))
        (constantI S_ 1 1#1) reducesTo_S16384x1_S16384_d1 h_S_))
    (Host.gather gather_S150000x192_S16384x1_S16384x192_1_0_n_n_0_1_1192 x (wrapRows idx))
    (broadcastInDim S16384x192 ![] bcast_S_S16384x192 (constant S_ .f32 0x7FC00000#32))

/-! ## One index word -/

/-- A word in [0, 149999] passes both range tests. -/
theorem small_word_inRange (w : BitVec 32) (hw : w.toNat ≤ 149999) :
    IntOp.cmpi .sge w 0#32 = 1#1 ∧ IntOp.cmpi .sle w 149999#32 = 1#1 := by
  have h0 : (0#32 : BitVec 32).toNat = 0 := rfl
  have h1 : (149999#32 : BitVec 32).toNat = 149999 := rfl
  exact ⟨(StableHlo.Predicate.sge_iff_toNat (by omega) (by omega)).2 (by omega),
    (StableHlo.Predicate.sle_iff_toNat (by omega) (by omega)).2 (by omega)⟩

/-- The signed test "below zero" of a word is the sign of its integer value. -/
theorem slt_zero_iff (x : BitVec 32) : IntOp.cmpi .slt x 0#32 = 1#1 ↔ x.toInt < 0 := by
  have h0 : (0#32 : BitVec 32).toInt = 0 := by decide
  show BitVec.ofBool (x.slt 0#32) = 1#1 ↔ x.toInt < 0
  rw [StableHlo.Predicate.ofBool_eq_one_iff, BitVec.slt, decide_eq_true_eq, h0]

/-- One word: an index in [-150000, 150000), wrapped by +150000 when negative, lies in [0, 149999]. -/
theorem wrap_word_range (x : BitVec 32) (h1 : -150000 ≤ x.toInt) (h2 : x.toInt < 150000) :
    IntOp.cmpi .sge (Scalar.select (IntOp.cmpi .slt x 0#32) (IntOp.addi x 150000#32) x) 0#32 = 1#1
    ∧ IntOp.cmpi .sle (Scalar.select (IntOp.cmpi .slt x 0#32) (IntOp.addi x 150000#32) x) 149999#32 = 1#1 := by
  apply small_word_inRange
  have hx := x.isLt
  have hcond := BitVec.toInt_eq_toNat_cond x
  by_cases hneg : x.toInt < 0
  · -- a negative word: 150000 is added, and the sum wraps past 2³² to a word below 150000
    rw [(slt_zero_iff x).2 hneg, select_one]
    show (x + 150000#32).toNat ≤ 149999
    have hc : (150000#32 : BitVec 32).toNat = 150000 := rfl
    rw [BitVec.toNat_add, hc]
    by_cases h31 : 2 * x.toNat < 2 ^ 32
    · rw [if_pos h31] at hcond; omega
    · rw [if_neg h31] at hcond; omega
  · -- a non-negative word is kept
    rw [eq_zero_of_ne_one (fun hc => hneg ((slt_zero_iff x).1 hc)), select_zero]
    by_cases h31 : 2 * x.toNat < 2 ^ 32
    · rw [if_pos h31] at hcond; omega
    · rw [if_neg h31] at hcond; omega

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-! ## Reading the two row broadcasts at an index -/

/-- A vector kept as a one-column rectangle reads, at row `i 0`, the vector there. -/
theorem bcast_col_apply {α : Type} (v : S16384.Idx → α) (i : S16384x1.Idx) :
    broadcastInDim S16384x1 ![0] bcast_S16384_S16384x1_0 v i = v (ix1 (i 0)) := by
  simp only [broadcastInDim]
  congr 1
  funext a
  obtain rfl : a = 0 := Subsingleton.elim _ _
  apply Fin.ext
  split
  · next h1 => change (16384 : Nat) = 1 at h1; omega
  · rfl

/-- A vector laid along the rows of the 16384 × 192 rectangle reads, at (b, j), the vector at b. -/
theorem bcast_rows_apply {α : Type} (v : S16384.Idx → α) (b : Fin 16384) (j : Fin 192) :
    broadcastInDim S16384x192 ![0] bcast_S16384_S16384x192_0 v (ix2 b j) = v (ix1 b) := by
  simp only [broadcastInDim]
  congr 1
  funext a
  obtain rfl : a = 0 := Subsingleton.elim _ _
  apply Fin.ext
  split
  · next h1 => change (16384 : Nat) = 1 at h1; omega
  · rfl

/-! ## The wrapped index and the range test at one row -/

/-- The wrapped index at a row is the row's own index word, plus 150000 when it is negative. -/
theorem wrapRows_apply (idx : IVec S16384 32) (i : S16384x1.Idx) :
    wrapRows idx i = Scalar.select (IntOp.cmpi .slt (idx (ix1 (i 0))) 0#32)
      (IntOp.addi (idx (ix1 (i 0))) 150000#32) (idx (ix1 (i 0))) := by
  unfold wrapRows
  rw [bcast_col_apply]
  rfl

/-- With every index in NumPy's range, the test 0 ≤ w ≤ 149999 of the wrapped index holds at every row. -/
theorem inRange_apply (idx : IVec S16384 32)
    (h : ∀ b : Fin 16384, -150000 ≤ (idx (ix1 b)).toInt ∧ (idx (ix1 b)).toInt < 150000) (i : S16384x1.Idx) :
    andi (cmpi .sge (wrapRows idx) (broadcastInDim S16384x1 ![] bcast_S_S16384x1 (constantI S_ 32 0#32)))
      (cmpi .sle (wrapRows idx) (broadcastInDim S16384x1 ![0, 1] bcast_S1x1_S16384x1_0_1
        (broadcastInDim S1x1 ![1] bcast_S1_S1x1_1 (constantI S1 32 149999#32)))) i = 1#1 := by
  show IntOp.andi (IntOp.cmpi .sge (wrapRows idx i) 0#32) (IntOp.cmpi .sle (wrapRows idx i) 149999#32) = 1#1
  rw [wrapRows_apply]
  obtain ⟨h1, h2⟩ := wrap_word_range (idx (ix1 (i 0))) (h (i 0)).1 (h (i 0)).2
  rw [h1, h2]
  rfl

/-! ## The fill mask is all ones, so the select returns the gathered rows -/

theorem takeFill_eq (x : FVec Ideal S150000x192 .f32) (idx : IVec S16384 32)
    (h : ∀ b : Fin 16384, -150000 ≤ (idx (ix1 b)).toInt ∧ (idx (ix1 b)).toInt < 150000) :
    takeFill x idx = Host.gather gather_S150000x192_S16384x1_S16384x192_1_0_n_n_0_1_1192 x (wrapRows idx) := by
  funext i
  obtain ⟨b, j, rfl⟩ : ∃ b j, i = ix2 b j := ⟨i 0, i 1, eq_ix2 i⟩
  unfold takeFill
  rw [select_apply, bcast_rows_apply, Host.reduce_eq_foldl]
  -- the reduction over the size-one axis is a left fold of `and` from the initial word 1 over test words that are all 1
  rw [show (constantI S_ 1 1#1) (Shape.Idx.first h_S_) = 1#1 from rfl,
    foldl_andi_one _ _ (fun n _ => inRange_apply idx h n), select_one]

end Cert.KernelIdeal.Take
end
-- ==== Proof.KernelFold.lean ====
/-
  The kernel program's result array is `scores` of its argument arrays.

  The program is eleven segments: stretches of host operations around three tiled regions. The contents of every buffer
  at each boundary are a fold from the launch memory. Read back through that fold, the result array is the last reshape
  of region 2's output; region 2's output is the scoring head (MlpRegion) of the pair rows and the head's weights; the
  pair rows are the two row gathers side by side, and under the precondition each gather with its out-of-range fill is
  the plain gather (Take); the table they gather from is the three feature arrays side by side; each later feature array
  is a region's graph-convolution layer (LayerRegions) of the previous one and its sparse aggregation. A buffer no
  operation of a stretch writes, and an array a region only reads or does not touch, pass through unchanged. A bias
  vector reshaped to one row reads, at (0, j), the vector at j.
-/
import proofs.«428266_j67147518705976_1_alg».proof.Proof.Gen.KernelIdeal.Frame
import proofs.«428266_j67147518705976_1_alg».proof.Proof.Spec
import proofs.«428266_j67147518705976_1_alg».proof.Proof.Stages
import proofs.«428266_j67147518705976_1_alg».proof.Proof.LayerRegions
import proofs.«428266_j67147518705976_1_alg».proof.Proof.MlpRegion
import proofs.«428266_j67147518705976_1_alg».proof.Proof.Take
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.KernelIdeal.Stages Cert.KernelIdeal.Take
open Cert.KernelIdeal.LayerRegions Cert.KernelIdeal.MlpRegion

variable (m : (ℓ : Loc nD τ sig) → Buf (Elt Ideal) ℓ) (ρ : Dev nD → PrngReg)

/-! ## Reading a buffer back through a stretch of host operations or across a region -/

set_option hygiene false in
/-- An argument array the first two stretches and the first two regions leave alone. -/
macro "arg_to_launch4" r:term : tactic => `(tactic| (
  rw [W4_of_ne m ρ c $r (by decide)]
  show StableHlo.after hostOps1 (W2 m ρ c) (Proc.devRef .tc $r) = _
  after_results_simp
  rw [W2_of_ne m ρ c $r (by decide)]
  show StableHlo.after hostOps0 (W0 m ρ c) (Proc.devRef .tc $r) = _
  after_results_simp <;> rfl))

variable (c : Dev nD)

/-! ## Region 0's entry: the stacked tables, their aggregation, the first layer's weights and bias -/

theorem w1_v0 : W1 (F := Ideal) m ρ c (Proc.devRef .tc main_v0) = feat0 (m ((c : Thread nD τ).loc main_arg5)) (m ((c : Thread nD τ).loc main_arg6)) := by
  show StableHlo.after hostOps0 (W0 m ρ c) (Proc.devRef .tc main_v0) = _
  after_results_simp <;> rfl

theorem w1_v13 : W1 (F := Ideal) m ρ c (Proc.devRef .tc main_v13)
    = aggregate (m ((c : Thread nD τ).loc main_arg2)) (m ((c : Thread nD τ).loc main_arg3)) (m ((c : Thread nD τ).loc main_arg4)) (feat0 (m ((c : Thread nD τ).loc main_arg5)) (m ((c : Thread nD τ).loc main_arg6))) := by
  show StableHlo.after hostOps0 (W0 m ρ c) (Proc.devRef .tc main_v13) = _
  after_results_simp <;> rfl

theorem w1_arg7 : W1 (F := Ideal) m ρ c (Proc.devRef .tc main_arg7) = (m ((c : Thread nD τ).loc main_arg7)) := by
  show StableHlo.after hostOps0 (W0 m ρ c) (Proc.devRef .tc main_arg7) = _
  after_results_simp <;> rfl

theorem w1_bias (j : Fin 64) :
    (W1 (F := Ideal) m ρ c (Proc.devRef .tc main_v14) : S1x64.Idx → EReal) (ix2 (0 : Fin 1) j) = (m ((c : Thread nD τ).loc main_arg8)) (ix1 j) := by
  have e : W1 (F := Ideal) m ρ c (Proc.devRef .tc main_v14) = shapeCast S1x64 (m ((c : Thread nD τ).loc main_arg8)) shapeCasts_S64_S1x64 := by
    show StableHlo.after hostOps0 (W0 m ρ c) (Proc.devRef .tc main_v14) = _
    after_results_simp <;> rfl
  rw [e]
  exact shapeCast_a_1a_apply _ _ _ _

/-! ## Region 0's exit -/

theorem w2_v15 : W2 (F := Ideal) m ρ c (Proc.devRef .tc main_v15) = feat1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 4).trans ((final0 (V1 m ρ) c).trans ?_)
  show Cert.Spec.layerArr (W1 m ρ c (Proc.devRef .tc main_v13)) (W1 m ρ c (Proc.devRef .tc main_v0)) (W1 m ρ c (Proc.devRef .tc main_arg7))
    (fun j => (W1 m ρ c (Proc.devRef .tc main_v14) : S1x64.Idx → EReal) (ix2 (0 : Fin 1) j)) = _
  rw [w1_v13, w1_v0, w1_arg7]
  unfold feat1
  congr 1
  funext j
  exact w1_bias m ρ c j

theorem w2_v0 : W2 (F := Ideal) m ρ c (Proc.devRef .tc main_v0) = feat0 (m ((c : Thread nD τ).loc main_arg5)) (m ((c : Thread nD τ).loc main_arg6)) :=
  ((W2_arr m ρ c 1).trans (((dat0 (V1 m ρ) c).arrAt_in 1 rfl _).trans (A_eq0 (V1 m ρ) c 1))).trans (w1_v0 m ρ c)

theorem w2_arg (r : Ref sig .tc) (hr : ∀ w, Pipeline.arrRef spec0 w ≠ r)
    (h0 : StableHlo.after hostOps0 (W0 (F := Ideal) m ρ c) (Proc.devRef .tc r) = m ((c : Thread nD τ).loc r)) :
    W2 (F := Ideal) m ρ c (Proc.devRef .tc r) = m ((c : Thread nD τ).loc r) :=
  (W2_of_ne m ρ c r hr).trans h0

theorem w2_arg2 : W2 (F := Ideal) m ρ c (Proc.devRef .tc main_arg2) = (m ((c : Thread nD τ).loc main_arg2)) :=
  w2_arg m ρ c main_arg2 (by decide) (by after_results_simp <;> rfl)
theorem w2_arg3 : W2 (F := Ideal) m ρ c (Proc.devRef .tc main_arg3) = (m ((c : Thread nD τ).loc main_arg3)) :=
  w2_arg m ρ c main_arg3 (by decide) (by after_results_simp <;> rfl)
theorem w2_arg4 : W2 (F := Ideal) m ρ c (Proc.devRef .tc main_arg4) = (m ((c : Thread nD τ).loc main_arg4)) :=
  w2_arg m ρ c main_arg4 (by decide) (by after_results_simp <;> rfl)
theorem w2_arg9 : W2 (F := Ideal) m ρ c (Proc.devRef .tc main_arg9) = (m ((c : Thread nD τ).loc main_arg9)) :=
  w2_arg m ρ c main_arg9 (by decide) (by after_results_simp <;> rfl)
theorem w2_arg10 : W2 (F := Ideal) m ρ c (Proc.devRef .tc main_arg10) = (m ((c : Thread nD τ).loc main_arg10)) :=
  w2_arg m ρ c main_arg10 (by decide) (by after_results_simp <;> rfl)

/-! ## Region 1's entry -/

theorem w3_v15 : W3 (F := Ideal) m ρ c (Proc.devRef .tc main_v15) = feat1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps1 (W2 m ρ c) (Proc.devRef .tc main_v15) = _
  after_results_simp
  exact w2_v15 m ρ c

theorem w3_v16 : W3 (F := Ideal) m ρ c (Proc.devRef .tc main_v16) = beside1 (feat0 (m ((c : Thread nD τ).loc main_arg5)) (m ((c : Thread nD τ).loc main_arg6))) (feat1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps1 (W2 m ρ c) (Proc.devRef .tc main_v16) = _
  after_results_simp
  rw [w2_v0, w2_v15]
  rfl

theorem w3_v29 : W3 (F := Ideal) m ρ c (Proc.devRef .tc main_v29)
    = aggregate (m ((c : Thread nD τ).loc main_arg2)) (m ((c : Thread nD τ).loc main_arg3)) (m ((c : Thread nD τ).loc main_arg4)) (feat1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps1 (W2 m ρ c) (Proc.devRef .tc main_v29) = _
  after_results_simp
  rw [w2_arg2, w2_arg3, w2_arg4, w2_v15]
  rfl

theorem w3_arg9 : W3 (F := Ideal) m ρ c (Proc.devRef .tc main_arg9) = (m ((c : Thread nD τ).loc main_arg9)) := by
  show StableHlo.after hostOps1 (W2 m ρ c) (Proc.devRef .tc main_arg9) = _
  after_results_simp
  exact w2_arg9 m ρ c

theorem w3_bias (j : Fin 64) :
    (W3 (F := Ideal) m ρ c (Proc.devRef .tc main_v30) : S1x64.Idx → EReal) (ix2 (0 : Fin 1) j) = (m ((c : Thread nD τ).loc main_arg10)) (ix1 j) := by
  have e : W3 (F := Ideal) m ρ c (Proc.devRef .tc main_v30) = shapeCast S1x64 (m ((c : Thread nD τ).loc main_arg10)) shapeCasts_S64_S1x64 := by
    show StableHlo.after hostOps1 (W2 m ρ c) (Proc.devRef .tc main_v30) = _
    after_results_simp
    rw [w2_arg10]
    rfl
  rw [e]
  exact shapeCast_a_1a_apply _ _ _ _

/-! ## Region 1's exit -/

theorem w4_v31 : W4 (F := Ideal) m ρ c (Proc.devRef .tc main_v31) = feat2 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 4).trans ((final1 (V3 m ρ) c).trans ?_)
  show Cert.Spec.layerArr (W3 m ρ c (Proc.devRef .tc main_v29)) (W3 m ρ c (Proc.devRef .tc main_v15)) (W3 m ρ c (Proc.devRef .tc main_arg9))
    (fun j => (W3 m ρ c (Proc.devRef .tc main_v30) : S1x64.Idx → EReal) (ix2 (0 : Fin 1) j)) = _
  rw [w3_v29, w3_v15, w3_arg9]
  unfold feat2
  congr 1
  funext j
  exact w3_bias m ρ c j

theorem w4_v16 : W4 (F := Ideal) m ρ c (Proc.devRef .tc main_v16) = beside1 (feat0 (m ((c : Thread nD τ).loc main_arg5)) (m ((c : Thread nD τ).loc main_arg6))) (feat1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W4_of_ne m ρ c main_v16 (by decide)).trans (w3_v16 m ρ c)

theorem w4_arg0 : W4 (F := Ideal) m ρ c (Proc.devRef .tc main_arg0) = (m ((c : Thread nD τ).loc main_arg0)) := by
  arg_to_launch4 main_arg0
theorem w4_arg1 : W4 (F := Ideal) m ρ c (Proc.devRef .tc main_arg1) = (m ((c : Thread nD τ).loc main_arg1)) := by
  arg_to_launch4 main_arg1
theorem w4_arg11 : W4 (F := Ideal) m ρ c (Proc.devRef .tc main_arg11) = (m ((c : Thread nD τ).loc main_arg11)) := by
  arg_to_launch4 main_arg11
theorem w4_arg12 : W4 (F := Ideal) m ρ c (Proc.devRef .tc main_arg12) = (m ((c : Thread nD τ).loc main_arg12)) := by
  arg_to_launch4 main_arg12
theorem w4_arg13 : W4 (F := Ideal) m ρ c (Proc.devRef .tc main_arg13) = (m ((c : Thread nD τ).loc main_arg13)) := by
  arg_to_launch4 main_arg13
theorem w4_arg14 : W4 (F := Ideal) m ρ c (Proc.devRef .tc main_arg14) = (m ((c : Thread nD τ).loc main_arg14)) := by
  arg_to_launch4 main_arg14
theorem w4_arg15 : W4 (F := Ideal) m ρ c (Proc.devRef .tc main_arg15) = (m ((c : Thread nD τ).loc main_arg15)) := by
  arg_to_launch4 main_arg15
theorem w4_arg16 : W4 (F := Ideal) m ρ c (Proc.devRef .tc main_arg16) = (m ((c : Thread nD τ).loc main_arg16)) := by
  arg_to_launch4 main_arg16

/-! ## Region 2's entry, stretch by stretch, at any contents the stretch starts from -/

/-- A stretch of host operations leaves a buffer none of them writes as it was. -/
macro "not_written" : tactic => `(tactic| (
  refine StableHlo.after_of_forall_not_mem _ _ (List.forall_iff_forall_mem.mp ?_)
  simp only [hostOps2, hostOps2_1, hostOps2_2, hostOps2_3, hostOps2_4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem table_ops (V : Valuation τ sig (Elt Ideal)) :
    StableHlo.after (hostOps2 (F := Ideal)) V (Proc.devRef .tc main_v32)
      = beside2 (V (Proc.devRef .tc main_v16)) (V (Proc.devRef .tc main_v31)) := by
  after_results_simp <;> rfl

theorem take_user (V : Valuation τ sig (Elt Ideal)) :
    StableHlo.after (hostOps2_1 (F := Ideal)) V (Proc.devRef .tc main_v33)
      = takeFill (V (Proc.devRef .tc main_v32)) (V (Proc.devRef .tc main_arg0)) := by
  simp only [hostOps2_1, TRef.nullary, TRef.unary, TRef.binary, TRef.ternary]
  after_results_simp
  simp only [TRef.toBuf, TRef.ofBuf, cast_eq]
  unfold takeFill wrapRows
  rfl

theorem item_ops (V : Valuation τ sig (Elt Ideal)) :
    StableHlo.after (hostOps2_2 (F := Ideal)) V (Proc.devRef .tc main_v35) = itemRows (V (Proc.devRef .tc main_arg1)) := by
  after_results_simp <;> rfl

theorem take_item (V : Valuation τ sig (Elt Ideal)) :
    StableHlo.after (hostOps2_3 (F := Ideal)) V (Proc.devRef .tc main_v36)
      = takeFill (V (Proc.devRef .tc main_v32)) (V (Proc.devRef .tc main_v35)) := by
  simp only [hostOps2_3, TRef.nullary, TRef.unary, TRef.binary, TRef.ternary]
  after_results_simp
  simp only [TRef.toBuf, TRef.ofBuf, cast_eq]
  unfold takeFill wrapRows
  rfl

theorem pairs_ops (V : Valuation τ sig (Elt Ideal)) :
    StableHlo.after (hostOps2_4 (F := Ideal)) V (Proc.devRef .tc main_v37)
      = beside3 (V (Proc.devRef .tc main_v33)) (V (Proc.devRef .tc main_v36)) := by
  after_results_simp <;> rfl

theorem bias1_ops (V : Valuation τ sig (Elt Ideal)) :
    StableHlo.after (hostOps2_4 (F := Ideal)) V (Proc.devRef .tc main_v38)
      = shapeCast S1x64 (V (Proc.devRef .tc main_arg12)) shapeCasts_S64_S1x64 := by
  after_results_simp <;> rfl
theorem bias2_ops (V : Valuation τ sig (Elt Ideal)) :
    StableHlo.after (hostOps2_4 (F := Ideal)) V (Proc.devRef .tc main_v39)
      = shapeCast S1x32 (V (Proc.devRef .tc main_arg14)) shapeCasts_S32_S1x32 := by
  after_results_simp <;> rfl
theorem bias3_ops (V : Valuation τ sig (Elt Ideal)) :
    StableHlo.after (hostOps2_4 (F := Ideal)) V (Proc.devRef .tc main_v40)
      = shapeCast S1x1 (V (Proc.devRef .tc main_arg16)) shapeCasts_S1_S1x1 := by
  after_results_simp <;> rfl

theorem skip0_arg0 (V : Valuation τ sig (Elt Ideal)) :
    StableHlo.after (hostOps2 (F := Ideal)) V (Proc.devRef .tc main_arg0) = V (Proc.devRef .tc main_arg0) := by
  not_written
theorem skip0_arg1 (V : Valuation τ sig (Elt Ideal)) :
    StableHlo.after (hostOps2 (F := Ideal)) V (Proc.devRef .tc main_arg1) = V (Proc.devRef .tc main_arg1) := by
  not_written
theorem skip0_arg11 (V : Valuation τ sig (Elt Ideal)) :
    StableHlo.after (hostOps2 (F := Ideal)) V (Proc.devRef .tc main_arg11) = V (Proc.devRef .tc main_arg11) := by
  not_written
theorem skip0_arg12 (V : Valuation τ sig (Elt Ideal)) :
    StableHlo.after (hostOps2 (F := Ideal)) V (Proc.devRef .tc main_arg12) = V (Proc.devRef .tc main_arg12) := by
  not_written
theorem skip0_arg13 (V : Valuation τ sig (Elt Ideal)) :
    StableHlo.after (hostOps2 (F := Ideal)) V (Proc.devRef .tc main_arg13) = V (Proc.devRef .tc main_arg13) := by
  not_written
theorem skip0_arg14 (V : Valuation τ sig (Elt Ideal)) :
    StableHlo.after (hostOps2 (F := Ideal)) V (Proc.devRef .tc main_arg14) = V (Proc.devRef .tc main_arg14) := by
  not_written
theorem skip0_arg15 (V : Valuation τ sig (Elt Ideal)) :
    StableHlo.after (hostOps2 (F := Ideal)) V (Proc.devRef .tc main_arg15) = V (Proc.devRef .tc main_arg15) := by
  not_written
theorem skip0_arg16 (V : Valuation τ sig (Elt Ideal)) :
    StableHlo.after (hostOps2 (F := Ideal)) V (Proc.devRef .tc main_arg16) = V (Proc.devRef .tc main_arg16) := by
  not_written
theorem skip1_v32 (V : Valuation τ sig (Elt Ideal)) :
    StableHlo.after (hostOps2_1 (F := Ideal)) V (Proc.devRef .tc main_v32) = V (Proc.devRef .tc main_v32) := by
  not_written
theorem skip1_arg1 (V : Valuation τ sig (Elt Ideal)) :
    StableHlo.after (hostOps2_1 (F := Ideal)) V (Proc.devRef .tc main_arg1) = V (Proc.devRef .tc main_arg1) := by
  not_written
theorem skip1_arg11 (V : Valuation τ sig (Elt Ideal)) :
    StableHlo.after (hostOps2_1 (F := Ideal)) V (Proc.devRef .tc main_arg11) = V (Proc.devRef .tc main_arg11) := by
  not_written
theorem skip1_arg12 (V : Valuation τ sig (Elt Ideal)) :
    StableHlo.after (hostOps2_1 (F := Ideal)) V (Proc.devRef .tc main_arg12) = V (Proc.devRef .tc main_arg12) := by
  not_written
theorem skip1_arg13 (V : Valuation τ sig (Elt Ideal)) :
    StableHlo.after (hostOps2_1 (F := Ideal)) V (Proc.devRef .tc main_arg13) = V (Proc.devRef .tc main_arg13) := by
  not_written
theorem skip1_arg14 (V : Valuation τ sig (Elt Ideal)) :
    StableHlo.after (hostOps2_1 (F := Ideal)) V (Proc.devRef .tc main_arg14) = V (Proc.devRef .tc main_arg14) := by
  not_written
theorem skip1_arg15 (V : Valuation τ sig (Elt Ideal)) :
    StableHlo.after (hostOps2_1 (F := Ideal)) V (Proc.devRef .tc main_arg15) = V (Proc.devRef .tc main_arg15) := by
  not_written
theorem skip1_arg16 (V : Valuation τ sig (Elt Ideal)) :
    StableHlo.after (hostOps2_1 (F := Ideal)) V (Proc.devRef .tc main_arg16) = V (Proc.devRef .tc main_arg16) := by
  not_written
theorem skip2_v32 (V : Valuation τ sig (Elt Ideal)) :
    StableHlo.after (hostOps2_2 (F := Ideal)) V (Proc.devRef .tc main_v32) = V (Proc.devRef .tc main_v32) := by
  not_written
theorem skip2_v33 (V : Valuation τ sig (Elt Ideal)) :
    StableHlo.after (hostOps2_2 (F := Ideal)) V (Proc.devRef .tc main_v33) = V (Proc.devRef .tc main_v33) := by
  not_written
theorem skip2_arg11 (V : Valuation τ sig (Elt Ideal)) :
    StableHlo.after (hostOps2_2 (F := Ideal)) V (Proc.devRef .tc main_arg11) = V (Proc.devRef .tc main_arg11) := by
  not_written
theorem skip2_arg12 (V : Valuation τ sig (Elt Ideal)) :
    StableHlo.after (hostOps2_2 (F := Ideal)) V (Proc.devRef .tc main_arg12) = V (Proc.devRef .tc main_arg12) := by
  not_written
theorem skip2_arg13 (V : Valuation τ sig (Elt Ideal)) :
    StableHlo.after (hostOps2_2 (F := Ideal)) V (Proc.devRef .tc main_arg13) = V (Proc.devRef .tc main_arg13) := by
  not_written
theorem skip2_arg14 (V : Valuation τ sig (Elt Ideal)) :
    StableHlo.after (hostOps2_2 (F := Ideal)) V (Proc.devRef .tc main_arg14) = V (Proc.devRef .tc main_arg14) := by
  not_written
theorem skip2_arg15 (V : Valuation τ sig (Elt Ideal)) :
    StableHlo.after (hostOps2_2 (F := Ideal)) V (Proc.devRef .tc main_arg15) = V (Proc.devRef .tc main_arg15) := by
  not_written
theorem skip2_arg16 (V : Valuation τ sig (Elt Ideal)) :
    StableHlo.after (hostOps2_2 (F := Ideal)) V (Proc.devRef .tc main_arg16) = V (Proc.devRef .tc main_arg16) := by
  not_written
theorem skip3_v33 (V : Valuation τ sig (Elt Ideal)) :
    StableHlo.after (hostOps2_3 (F := Ideal)) V (Proc.devRef .tc main_v33) = V (Proc.devRef .tc main_v33) := by
  not_written
theorem skip3_arg11 (V : Valuation τ sig (Elt Ideal)) :
    StableHlo.after (hostOps2_3 (F := Ideal)) V (Proc.devRef .tc main_arg11) = V (Proc.devRef .tc main_arg11) := by
  not_written
theorem skip3_arg12 (V : Valuation τ sig (Elt Ideal)) :
    StableHlo.after (hostOps2_3 (F := Ideal)) V (Proc.devRef .tc main_arg12) = V (Proc.devRef .tc main_arg12) := by
  not_written
theorem skip3_arg13 (V : Valuation τ sig (Elt Ideal)) :
    StableHlo.after (hostOps2_3 (F := Ideal)) V (Proc.devRef .tc main_arg13) = V (Proc.devRef .tc main_arg13) := by
  not_written
theorem skip3_arg14 (V : Valuation τ sig (Elt Ideal)) :
    StableHlo.after (hostOps2_3 (F := Ideal)) V (Proc.devRef .tc main_arg14) = V (Proc.devRef .tc main_arg14) := by
  not_written
theorem skip3_arg15 (V : Valuation τ sig (Elt Ideal)) :
    StableHlo.after (hostOps2_3 (F := Ideal)) V (Proc.devRef .tc main_arg15) = V (Proc.devRef .tc main_arg15) := by
  not_written
theorem skip3_arg16 (V : Valuation τ sig (Elt Ideal)) :
    StableHlo.after (hostOps2_3 (F := Ideal)) V (Proc.devRef .tc main_arg16) = V (Proc.devRef .tc main_arg16) := by
  not_written
theorem skip4_arg11 (V : Valuation τ sig (Elt Ideal)) :
    StableHlo.after (hostOps2_4 (F := Ideal)) V (Proc.devRef .tc main_arg11) = V (Proc.devRef .tc main_arg11) := by
  not_written
theorem skip4_arg13 (V : Valuation τ sig (Elt Ideal)) :
    StableHlo.after (hostOps2_4 (F := Ideal)) V (Proc.devRef .tc main_arg13) = V (Proc.devRef .tc main_arg13) := by
  not_written
theorem skip4_arg15 (V : Valuation τ sig (Elt Ideal)) :
    StableHlo.after (hostOps2_4 (F := Ideal)) V (Proc.devRef .tc main_arg15) = V (Proc.devRef .tc main_arg15) := by
  not_written

/-! ## Region 2's entry from region 1's exit -/

theorem w5_v32 : W5 (F := Ideal) m ρ c (Proc.devRef .tc main_v32) = (table (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [show W5 (F := Ideal) m ρ c (Proc.devRef .tc main_v32) = _ from table_ops (W4 m ρ c), w4_v16, w4_v31]
  rfl

theorem w8_arg11 : W8 (F := Ideal) m ρ c (Proc.devRef .tc main_arg11) = (m ((c : Thread nD τ).loc main_arg11)) :=
  (skip3_arg11 (W7 m ρ c)).trans ((skip2_arg11 (W6 m ρ c)).trans ((skip1_arg11 (W5 m ρ c)).trans ((skip0_arg11 (W4 m ρ c)).trans (w4_arg11 m ρ c))))
theorem w8_arg12 : W8 (F := Ideal) m ρ c (Proc.devRef .tc main_arg12) = (m ((c : Thread nD τ).loc main_arg12)) :=
  (skip3_arg12 (W7 m ρ c)).trans ((skip2_arg12 (W6 m ρ c)).trans ((skip1_arg12 (W5 m ρ c)).trans ((skip0_arg12 (W4 m ρ c)).trans (w4_arg12 m ρ c))))
theorem w8_arg13 : W8 (F := Ideal) m ρ c (Proc.devRef .tc main_arg13) = (m ((c : Thread nD τ).loc main_arg13)) :=
  (skip3_arg13 (W7 m ρ c)).trans ((skip2_arg13 (W6 m ρ c)).trans ((skip1_arg13 (W5 m ρ c)).trans ((skip0_arg13 (W4 m ρ c)).trans (w4_arg13 m ρ c))))
theorem w8_arg14 : W8 (F := Ideal) m ρ c (Proc.devRef .tc main_arg14) = (m ((c : Thread nD τ).loc main_arg14)) :=
  (skip3_arg14 (W7 m ρ c)).trans ((skip2_arg14 (W6 m ρ c)).trans ((skip1_arg14 (W5 m ρ c)).trans ((skip0_arg14 (W4 m ρ c)).trans (w4_arg14 m ρ c))))
theorem w8_arg15 : W8 (F := Ideal) m ρ c (Proc.devRef .tc main_arg15) = (m ((c : Thread nD τ).loc main_arg15)) :=
  (skip3_arg15 (W7 m ρ c)).trans ((skip2_arg15 (W6 m ρ c)).trans ((skip1_arg15 (W5 m ρ c)).trans ((skip0_arg15 (W4 m ρ c)).trans (w4_arg15 m ρ c))))
theorem w8_arg16 : W8 (F := Ideal) m ρ c (Proc.devRef .tc main_arg16) = (m ((c : Thread nD τ).loc main_arg16)) :=
  (skip3_arg16 (W7 m ρ c)).trans ((skip2_arg16 (W6 m ρ c)).trans ((skip1_arg16 (W5 m ρ c)).trans ((skip0_arg16 (W4 m ρ c)).trans (w4_arg16 m ρ c))))

theorem w9_v37 (h0 : ∀ b : Fin 16384, -150000 ≤ (((m ((c : Thread nD τ).loc main_arg0)) : IVec S16384 32) (ix1 b)).toInt ∧ (((m ((c : Thread nD τ).loc main_arg0)) : IVec S16384 32) (ix1 b)).toInt < 150000)
    (h1 : ∀ b : Fin 16384, -150000 ≤ ((itemRows (m ((c : Thread nD τ).loc main_arg1))) (ix1 b)).toInt ∧ ((itemRows (m ((c : Thread nD τ).loc main_arg1))) (ix1 b)).toInt < 150000) :
    W9 (F := Ideal) m ρ c (Proc.devRef .tc main_v37) = (beside3 (rowsAt (table (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0))) (rowsAt (table (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (itemRows (m ((c : Thread nD τ).loc main_arg1))))) := by
  have eu : W8 (F := Ideal) m ρ c (Proc.devRef .tc main_v33) = rowsAt (table (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0)) := by
    refine (skip3_v33 (W7 m ρ c)).trans ((skip2_v33 (W6 m ρ c)).trans ((take_user (W5 m ρ c)).trans ?_))
    rw [w5_v32, show W5 (F := Ideal) m ρ c (Proc.devRef .tc main_arg0) = _ from skip0_arg0 (W4 m ρ c), w4_arg0]
    exact takeFill_eq _ _ h0
  have ei : W8 (F := Ideal) m ρ c (Proc.devRef .tc main_v36) = rowsAt (table (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (itemRows (m ((c : Thread nD τ).loc main_arg1))) := by
    refine (take_item (W7 m ρ c)).trans ?_
    rw [show W7 (F := Ideal) m ρ c (Proc.devRef .tc main_v32) = _ from (skip2_v32 (W6 m ρ c)).trans (skip1_v32 (W5 m ρ c)), w5_v32,
      show W7 (F := Ideal) m ρ c (Proc.devRef .tc main_v35) = _ from item_ops (W6 m ρ c),
      show W6 (F := Ideal) m ρ c (Proc.devRef .tc main_arg1) = _ from (skip1_arg1 (W5 m ρ c)).trans (skip0_arg1 (W4 m ρ c)), w4_arg1]
    exact takeFill_eq _ _ h1
  rw [show W9 (F := Ideal) m ρ c (Proc.devRef .tc main_v37) = _ from pairs_ops (W8 m ρ c), eu, ei]

theorem w9_arg11 : W9 (F := Ideal) m ρ c (Proc.devRef .tc main_arg11) = (m ((c : Thread nD τ).loc main_arg11)) :=
  (skip4_arg11 (W8 m ρ c)).trans (w8_arg11 m ρ c)
theorem w9_arg13 : W9 (F := Ideal) m ρ c (Proc.devRef .tc main_arg13) = (m ((c : Thread nD τ).loc main_arg13)) :=
  (skip4_arg13 (W8 m ρ c)).trans (w8_arg13 m ρ c)
theorem w9_arg15 : W9 (F := Ideal) m ρ c (Proc.devRef .tc main_arg15) = (m ((c : Thread nD τ).loc main_arg15)) :=
  (skip4_arg15 (W8 m ρ c)).trans (w8_arg15 m ρ c)

theorem w9_bias1 (j : Fin 64) :
    (W9 (F := Ideal) m ρ c (Proc.devRef .tc main_v38) : S1x64.Idx → EReal) (ix2 (0 : Fin 1) j) = (m ((c : Thread nD τ).loc main_arg12)) (ix1 j) := by
  rw [show W9 (F := Ideal) m ρ c (Proc.devRef .tc main_v38) = _ from bias1_ops (W8 m ρ c), w8_arg12]
  exact shapeCast_a_1a_apply _ _ _ _
theorem w9_bias2 (j : Fin 32) :
    (W9 (F := Ideal) m ρ c (Proc.devRef .tc main_v39) : S1x32.Idx → EReal) (ix2 (0 : Fin 1) j) = (m ((c : Thread nD τ).loc main_arg14)) (ix1 j) := by
  rw [show W9 (F := Ideal) m ρ c (Proc.devRef .tc main_v39) = _ from bias2_ops (W8 m ρ c), w8_arg14]
  exact shapeCast_a_1a_apply _ _ _ _
theorem w9_bias3 (j : Fin 1) :
    (W9 (F := Ideal) m ρ c (Proc.devRef .tc main_v40) : S1x1.Idx → EReal) (ix2 (0 : Fin 1) j) = (m ((c : Thread nD τ).loc main_arg16)) (ix1 j) := by
  rw [show W9 (F := Ideal) m ρ c (Proc.devRef .tc main_v40) = _ from bias3_ops (W8 m ρ c), w8_arg16]
  exact shapeCast_a_1a_apply _ _ _ _
/-! ## Region 2's exit, and the result -/

theorem w10_v41 (h0 : ∀ b : Fin 16384, -150000 ≤ (((m ((c : Thread nD τ).loc main_arg0)) : IVec S16384 32) (ix1 b)).toInt ∧ (((m ((c : Thread nD τ).loc main_arg0)) : IVec S16384 32) (ix1 b)).toInt < 150000)
    (h1 : ∀ b : Fin 16384, -150000 ≤ ((itemRows (m ((c : Thread nD τ).loc main_arg1))) (ix1 b)).toInt ∧ ((itemRows (m ((c : Thread nD τ).loc main_arg1))) (ix1 b)).toInt < 150000) :
    W10 (F := Ideal) m ρ c (Proc.devRef .tc main_v41)
      = Cert.Spec.mlpArr (beside3 (rowsAt (table (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0))) (rowsAt (table (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (itemRows (m ((c : Thread nD τ).loc main_arg1))))) (m ((c : Thread nD τ).loc main_arg11)) (bias (m ((c : Thread nD τ).loc main_arg12))) (m ((c : Thread nD τ).loc main_arg13)) (bias (m ((c : Thread nD τ).loc main_arg14))) (m ((c : Thread nD τ).loc main_arg15)) (bias (m ((c : Thread nD τ).loc main_arg16))) := by
  refine (W10_arr m ρ c 7).trans ((final2 (V9 m ρ) c).trans ?_)
  show Cert.Spec.mlpArr (W9 m ρ c (Proc.devRef .tc main_v37)) (W9 m ρ c (Proc.devRef .tc main_arg11))
    (fun j => (W9 m ρ c (Proc.devRef .tc main_v38) : S1x64.Idx → EReal) (ix2 (0 : Fin 1) j))
    (W9 m ρ c (Proc.devRef .tc main_arg13))
    (fun j => (W9 m ρ c (Proc.devRef .tc main_v39) : S1x32.Idx → EReal) (ix2 (0 : Fin 1) j))
    (W9 m ρ c (Proc.devRef .tc main_arg15))
    (fun j => (W9 m ρ c (Proc.devRef .tc main_v40) : S1x1.Idx → EReal) (ix2 (0 : Fin 1) j)) = _
  have b1 : (fun j => (W9 (F := Ideal) m ρ c (Proc.devRef .tc main_v38) : S1x64.Idx → EReal) (ix2 (0 : Fin 1) j)) = bias (m ((c : Thread nD τ).loc main_arg12)) :=
    funext (w9_bias1 m ρ c)
  have b2 : (fun j => (W9 (F := Ideal) m ρ c (Proc.devRef .tc main_v39) : S1x32.Idx → EReal) (ix2 (0 : Fin 1) j)) = bias (m ((c : Thread nD τ).loc main_arg14)) :=
    funext (w9_bias2 m ρ c)
  have b3 : (fun j => (W9 (F := Ideal) m ρ c (Proc.devRef .tc main_v40) : S1x1.Idx → EReal) (ix2 (0 : Fin 1) j)) = bias (m ((c : Thread nD τ).loc main_arg16)) :=
    funext (w9_bias3 m ρ c)
  rw [b1, b2, b3, w9_v37 m ρ c h0 h1, w9_arg11, w9_arg13, w9_arg15]

/-- The result array after the program's last operation is `scores` of the argument arrays, when every row index is
    a valid index of the 150000-row table. -/
theorem kernel_result (h0 : ∀ b : Fin 16384, -150000 ≤ (((m ((c : Thread nD τ).loc main_arg0)) : IVec S16384 32) (ix1 b)).toInt ∧ (((m ((c : Thread nD τ).loc main_arg0)) : IVec S16384 32) (ix1 b)).toInt < 150000)
    (h1 : ∀ b : Fin 16384, -150000 ≤ ((itemRows (m ((c : Thread nD τ).loc main_arg1))) (ix1 b)).toInt ∧ ((itemRows (m ((c : Thread nD τ).loc main_arg1))) (ix1 b)).toInt < 150000) :
    W11 (F := Ideal) m ρ c (Proc.devRef .tc main_v42) = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps3 (W10 m ρ c) (Proc.devRef .tc main_v42) = _
  after_results_simp
  rw [w10_v41 m ρ c h0 h1]
  rfl

end Cert.KernelIdeal.Fold

end
-- ==== Proof.RefLayers.lean ====
import proofs.«428266_j67147518705976_1_alg».proof.Proof.Gen.ReferenceIdeal
import proofs.«428266_j67147518705976_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384
noncomputable section
open scoped BigOperators
namespace Cert.ReferenceIdeal.RefLayers
open Idealize.ShloMosaic Idealize.ShloMosaic.TcCoe Idealize.ShloMosaic.ValueIdx Idealize.SL.Sem
open Cert.ReferenceIdeal Cert.ReferenceIdeal.Facts₀ Cert.ReferenceIdeal.Facts

/-- One graph-convolution layer as the reference spells it: relu((s + f) · W + b) on whole arrays. -/
def refLayer (s f : FVec Ideal S150000x64 .f32) (W : FVec Ideal S64x64 .f32) (b : FVec Ideal S64 .f32) : FVec Ideal S150000x64 .f32 :=
  maximumf (addf (Host.dotGeneral dot_S150000x64_S64x64_S150000x64_1_0_0_1_n_n none (addf s f) W)
      (broadcastInDim S150000x64 ![0, 1] bcast_S1x64_S150000x64_0_1 (broadcastInDim S1x64 ![1] bcast_S64_S1x64_1 b)))
    (broadcastInDim S150000x64 ![] bcast_S_S150000x64 (constant S_ .f32 0x00000000#32))

/-- The scoring head as the reference spells it: (relu(e · W1 + b1) · W2 + b2) · W3 + b3 on whole arrays. -/
def refMlp (e : FVec Ideal S16384x384 .f32) (W1 : FVec Ideal S384x64 .f32) (b1 : FVec Ideal S64 .f32)
    (W2 : FVec Ideal S64x32 .f32) (b2 : FVec Ideal S32 .f32) (W3 : FVec Ideal S32x1 .f32) (b3 : FVec Ideal S1 .f32) : FVec Ideal S16384x1 .f32 :=
  addf (Host.dotGeneral dot_S16384x32_S32x1_S16384x1_1_0_0_1_n_n none
      (addf (Host.dotGeneral dot_S16384x64_S64x32_S16384x32_1_0_0_1_n_n none
          (maximumf (addf (Host.dotGeneral dot_S16384x384_S384x64_S16384x64_1_0_0_1_n_n none e W1)
              (broadcastInDim S16384x64 ![0, 1] bcast_S1x64_S16384x64_0_1 (broadcastInDim S1x64 ![1] bcast_S64_S1x64_1 b1)))
            (broadcastInDim S16384x64 ![] bcast_S_S16384x64 (constant S_ .f32 0x00000000#32)))
          W2)
        (broadcastInDim S16384x32 ![0, 1] bcast_S1x32_S16384x32_0_1 (broadcastInDim S1x32 ![1] bcast_S32_S1x32_1 b2)))
      W3)
    (broadcastInDim S16384x1 ![0, 1] bcast_S1x1_S16384x1_0_1 (broadcastInDim S1x1 ![1] bcast_S1_S1x1_1 b3))

/-! ## The bias row repeated over all rows, and the zero the relu compares with -/

/-- A vector of length `m` laid out as the single row of a 1×m array, that row then repeated `n` times: entry (r, q) of
    the result is entry q of the vector, whatever the row r. -/
theorem biasRows_apply {α : Type} {n m : Nat}
    (h1 : (⟨1, ![m]⟩ : Shape).BroadcastsInDim ⟨2, ![1, m]⟩ ![1])
    (h2 : (⟨2, ![1, m]⟩ : Shape).BroadcastsInDim ⟨2, ![n, m]⟩ ![0, 1])
    (b : (⟨1, ![m]⟩ : Shape).Idx → α) (r : Fin n) (q : Fin m) :
    broadcastInDim ⟨2, ![n, m]⟩ ![0, 1] h2 (broadcastInDim ⟨2, ![1, m]⟩ ![1] h1 b) (ix2 r q) = b (ix1 q) := by
  have hq : q.val = if m = 1 then 0 else q.val := by
    by_cases hm : m = 1
    · rw [if_pos hm]; have := q.isLt; omega
    · rw [if_neg hm]
  rw [broadcastInDim_apply _ h2 _ (ix2 r q) (ix2 (0 : Fin 1) q) (fun a => match a with
      | ⟨0, _⟩ => by show 0 = if (1 : Nat) = 1 then 0 else r.val; rw [if_pos rfl]
      | ⟨1, _⟩ => hq),
    broadcastInDim_apply _ h1 b (ix2 (0 : Fin 1) q) (ix1 q) (fun a => match a with
      | ⟨0, _⟩ => hq)]

/-- The zero word repeated over an n×m array reads the extended real `0` at every entry. -/
theorem zeros_apply {n m : Nat} (h : (⟨0, ![]⟩ : Shape).BroadcastsInDim ⟨2, ![n, m]⟩ ![])
    (i : (⟨2, ![n, m]⟩ : Shape).Idx) :
    broadcastInDim ⟨2, ![n, m]⟩ ![] h (constant (F := Ideal) ⟨0, ![]⟩ .f32 0x00000000#32) i = (0 : EReal) := by
  rw [broadcastInDim_apply _ h _ i ix0 (fun a => a.elim0), constant_apply, Ideal.ofBits_zero_f32]

/-! ## Where a matrix product reads its operands

All four products contract axis 1 of the left operand with axis 0 of the right and have no batch axis. So for the
result entry `i` and the contracted position `c` the left operand is read at (row of `i`, `c`) and the right operand at
(`c`, column of `i`). Four facts per product, one per operand axis. -/

/-- 150000×64 by 64×64: the left operand's row is the result entry's row. -/
theorem dotLayer_lhs_row (i : S150000x64.Idx) (c : dot_S150000x64_S64x64_S150000x64_1_0_0_1_n_n.contr.Idx) :
    (dot_S150000x64_S64x64_S150000x64_1_0_0_1_n_n.lhsIdx i c 0).val = (i 0).val := by
  unfold DotDims.lhsIdx
  rw [dif_neg (show ¬(0 : Fin S150000x64.rank) ∈ dot_S150000x64_S64x64_S150000x64_1_0_0_1_n_n.lhsBatch by decide),
    dif_pos (show (0 : Fin S150000x64.rank) ∈ dot_S150000x64_S64x64_S150000x64_1_0_0_1_n_n.lhsNonContracting by decide)]
  rfl
/-- 150000×64 by 64×64: the left operand's column is the contracted position. -/
theorem dotLayer_lhs_contr (i : S150000x64.Idx) (c : dot_S150000x64_S64x64_S150000x64_1_0_0_1_n_n.contr.Idx) :
    (dot_S150000x64_S64x64_S150000x64_1_0_0_1_n_n.lhsIdx i c 1).val = (c ⟨0, by decide⟩).val :=
  dot_S150000x64_S64x64_S150000x64_1_0_0_1_n_n.lhsIdx_val_of_single rfl i c
/-- 150000×64 by 64×64: the right operand's row is the contracted position. -/
theorem dotLayer_rhs_contr (i : S150000x64.Idx) (c : dot_S150000x64_S64x64_S150000x64_1_0_0_1_n_n.contr.Idx) :
    (dot_S150000x64_S64x64_S150000x64_1_0_0_1_n_n.rhsIdx i c 0).val = (c ⟨0, by decide⟩).val :=
  dot_S150000x64_S64x64_S150000x64_1_0_0_1_n_n.rhsIdx_val_of_single rfl i c
/-- 150000×64 by 64×64: the right operand's column is the result entry's column. -/
theorem dotLayer_rhs_col (i : S150000x64.Idx) (c : dot_S150000x64_S64x64_S150000x64_1_0_0_1_n_n.contr.Idx) :
    (dot_S150000x64_S64x64_S150000x64_1_0_0_1_n_n.rhsIdx i c 1).val = (i 1).val := by
  unfold DotDims.rhsIdx
  rw [dif_neg (show ¬(1 : Fin S64x64.rank) ∈ dot_S150000x64_S64x64_S150000x64_1_0_0_1_n_n.rhsBatch by decide),
    dif_pos (show (1 : Fin S64x64.rank) ∈ dot_S150000x64_S64x64_S150000x64_1_0_0_1_n_n.rhsNonContracting by decide)]
  rfl

/-- 16384×384 by 384×64: the left operand's row is the result entry's row. -/
theorem dotIn_lhs_row (i : S16384x64.Idx) (c : dot_S16384x384_S384x64_S16384x64_1_0_0_1_n_n.contr.Idx) :
    (dot_S16384x384_S384x64_S16384x64_1_0_0_1_n_n.lhsIdx i c 0).val = (i 0).val := by
  unfold DotDims.lhsIdx
  rw [dif_neg (show ¬(0 : Fin S16384x384.rank) ∈ dot_S16384x384_S384x64_S16384x64_1_0_0_1_n_n.lhsBatch by decide),
    dif_pos (show (0 : Fin S16384x384.rank) ∈ dot_S16384x384_S384x64_S16384x64_1_0_0_1_n_n.lhsNonContracting by decide)]
  rfl
/-- 16384×384 by 384×64: the left operand's column is the contracted position. -/
theorem dotIn_lhs_contr (i : S16384x64.Idx) (c : dot_S16384x384_S384x64_S16384x64_1_0_0_1_n_n.contr.Idx) :
    (dot_S16384x384_S384x64_S16384x64_1_0_0_1_n_n.lhsIdx i c 1).val = (c ⟨0, by decide⟩).val :=
  dot_S16384x384_S384x64_S16384x64_1_0_0_1_n_n.lhsIdx_val_of_single rfl i c
/-- 16384×384 by 384×64: the right operand's row is the contracted position. -/
theorem dotIn_rhs_contr (i : S16384x64.Idx) (c : dot_S16384x384_S384x64_S16384x64_1_0_0_1_n_n.contr.Idx) :
    (dot_S16384x384_S384x64_S16384x64_1_0_0_1_n_n.rhsIdx i c 0).val = (c ⟨0, by decide⟩).val :=
  dot_S16384x384_S384x64_S16384x64_1_0_0_1_n_n.rhsIdx_val_of_single rfl i c
/-- 16384×384 by 384×64: the right operand's column is the result entry's column. -/
theorem dotIn_rhs_col (i : S16384x64.Idx) (c : dot_S16384x384_S384x64_S16384x64_1_0_0_1_n_n.contr.Idx) :
    (dot_S16384x384_S384x64_S16384x64_1_0_0_1_n_n.rhsIdx i c 1).val = (i 1).val := by
  unfold DotDims.rhsIdx
  rw [dif_neg (show ¬(1 : Fin S384x64.rank) ∈ dot_S16384x384_S384x64_S16384x64_1_0_0_1_n_n.rhsBatch by decide),
    dif_pos (show (1 : Fin S384x64.rank) ∈ dot_S16384x384_S384x64_S16384x64_1_0_0_1_n_n.rhsNonContracting by decide)]
  rfl

/-- 16384×64 by 64×32: the left operand's row is the result entry's row. -/
theorem dotMid_lhs_row (i : S16384x32.Idx) (c : dot_S16384x64_S64x32_S16384x32_1_0_0_1_n_n.contr.Idx) :
    (dot_S16384x64_S64x32_S16384x32_1_0_0_1_n_n.lhsIdx i c 0).val = (i 0).val := by
  unfold DotDims.lhsIdx
  rw [dif_neg (show ¬(0 : Fin S16384x64.rank) ∈ dot_S16384x64_S64x32_S16384x32_1_0_0_1_n_n.lhsBatch by decide),
    dif_pos (show (0 : Fin S16384x64.rank) ∈ dot_S16384x64_S64x32_S16384x32_1_0_0_1_n_n.lhsNonContracting by decide)]
  rfl
/-- 16384×64 by 64×32: the left operand's column is the contracted position. -/
theorem dotMid_lhs_contr (i : S16384x32.Idx) (c : dot_S16384x64_S64x32_S16384x32_1_0_0_1_n_n.contr.Idx) :
    (dot_S16384x64_S64x32_S16384x32_1_0_0_1_n_n.lhsIdx i c 1).val = (c ⟨0, by decide⟩).val :=
  dot_S16384x64_S64x32_S16384x32_1_0_0_1_n_n.lhsIdx_val_of_single rfl i c
/-- 16384×64 by 64×32: the right operand's row is the contracted position. -/
theorem dotMid_rhs_contr (i : S16384x32.Idx) (c : dot_S16384x64_S64x32_S16384x32_1_0_0_1_n_n.contr.Idx) :
    (dot_S16384x64_S64x32_S16384x32_1_0_0_1_n_n.rhsIdx i c 0).val = (c ⟨0, by decide⟩).val :=
  dot_S16384x64_S64x32_S16384x32_1_0_0_1_n_n.rhsIdx_val_of_single rfl i c
/-- 16384×64 by 64×32: the right operand's column is the result entry's column. -/
theorem dotMid_rhs_col (i : S16384x32.Idx) (c : dot_S16384x64_S64x32_S16384x32_1_0_0_1_n_n.contr.Idx) :
    (dot_S16384x64_S64x32_S16384x32_1_0_0_1_n_n.rhsIdx i c 1).val = (i 1).val := by
  unfold DotDims.rhsIdx
  rw [dif_neg (show ¬(1 : Fin S64x32.rank) ∈ dot_S16384x64_S64x32_S16384x32_1_0_0_1_n_n.rhsBatch by decide),
    dif_pos (show (1 : Fin S64x32.rank) ∈ dot_S16384x64_S64x32_S16384x32_1_0_0_1_n_n.rhsNonContracting by decide)]
  rfl

/-- 16384×32 by 32×1: the left operand's row is the result entry's row. -/
theorem dotOut_lhs_row (i : S16384x1.Idx) (c : dot_S16384x32_S32x1_S16384x1_1_0_0_1_n_n.contr.Idx) :
    (dot_S16384x32_S32x1_S16384x1_1_0_0_1_n_n.lhsIdx i c 0).val = (i 0).val := by
  unfold DotDims.lhsIdx
  rw [dif_neg (show ¬(0 : Fin S16384x32.rank) ∈ dot_S16384x32_S32x1_S16384x1_1_0_0_1_n_n.lhsBatch by decide),
    dif_pos (show (0 : Fin S16384x32.rank) ∈ dot_S16384x32_S32x1_S16384x1_1_0_0_1_n_n.lhsNonContracting by decide)]
  rfl
/-- 16384×32 by 32×1: the left operand's column is the contracted position. -/
theorem dotOut_lhs_contr (i : S16384x1.Idx) (c : dot_S16384x32_S32x1_S16384x1_1_0_0_1_n_n.contr.Idx) :
    (dot_S16384x32_S32x1_S16384x1_1_0_0_1_n_n.lhsIdx i c 1).val = (c ⟨0, by decide⟩).val :=
  dot_S16384x32_S32x1_S16384x1_1_0_0_1_n_n.lhsIdx_val_of_single rfl i c
/-- 16384×32 by 32×1: the right operand's row is the contracted position. -/
theorem dotOut_rhs_contr (i : S16384x1.Idx) (c : dot_S16384x32_S32x1_S16384x1_1_0_0_1_n_n.contr.Idx) :
    (dot_S16384x32_S32x1_S16384x1_1_0_0_1_n_n.rhsIdx i c 0).val = (c ⟨0, by decide⟩).val :=
  dot_S16384x32_S32x1_S16384x1_1_0_0_1_n_n.rhsIdx_val_of_single rfl i c
/-- 16384×32 by 32×1: the right operand's column is the result entry's column. -/
theorem dotOut_rhs_col (i : S16384x1.Idx) (c : dot_S16384x32_S32x1_S16384x1_1_0_0_1_n_n.contr.Idx) :
    (dot_S16384x32_S32x1_S16384x1_1_0_0_1_n_n.rhsIdx i c 1).val = (i 1).val := by
  unfold DotDims.rhsIdx
  rw [dif_neg (show ¬(1 : Fin S32x1.rank) ∈ dot_S16384x32_S32x1_S16384x1_1_0_0_1_n_n.rhsBatch by decide),
    dif_pos (show (1 : Fin S32x1.rank) ∈ dot_S16384x32_S32x1_S16384x1_1_0_0_1_n_n.rhsNonContracting by decide)]
  rfl

/-! ## The four matrix products at an entry: each is the sum over its one contracted axis -/

/-- Entry (p, j) of the 150000×64 by 64×64 product is the sum over the 64 contracted positions k of l(p, k) · w(k, j):
    the left operand is read along row p only. -/
theorem dotLayer_apply (l : FVec Ideal S150000x64 .f32) (w : FVec Ideal S64x64 .f32) (p : Fin 150000) (j : Fin 64) :
    Host.dotGeneral dot_S150000x64_S64x64_S150000x64_1_0_0_1_n_n none l w (ix2 p j) = ∑ k : Fin 64, l (ix2 p k) * w (ix2 k j) := by
  simp only [Host.dotGeneral]
  rw [Ideal.dotGeneral_apply, ← Equiv.sum_comp (contrEquiv1 dot_S150000x64_S64x64_S150000x64_1_0_0_1_n_n 64 rfl rfl).symm]
  refine Finset.sum_congr rfl fun k _ => ?_
  have hk := contrEquiv1_symm_val dot_S150000x64_S64x64_S150000x64_1_0_0_1_n_n 64 rfl rfl k
  have el : dot_S150000x64_S64x64_S150000x64_1_0_0_1_n_n.lhsIdx (ix2 p j) ((contrEquiv1 dot_S150000x64_S64x64_S150000x64_1_0_0_1_n_n 64 rfl rfl).symm k) = ix2 p k :=
    funext fun a => Fin.ext (by
      match a with
      | ⟨0, _⟩ => exact dotLayer_lhs_row _ _
      | ⟨1, _⟩ => exact (dotLayer_lhs_contr _ _).trans hk)
  have er : dot_S150000x64_S64x64_S150000x64_1_0_0_1_n_n.rhsIdx (ix2 p j) ((contrEquiv1 dot_S150000x64_S64x64_S150000x64_1_0_0_1_n_n 64 rfl rfl).symm k) = ix2 k j :=
    funext fun a => Fin.ext (by
      match a with
      | ⟨0, _⟩ => exact (dotLayer_rhs_contr _ _).trans hk
      | ⟨1, _⟩ => exact dotLayer_rhs_col _ _)
  rw [el, er]

/-- Entry (p, j) of the 16384×384 by 384×64 product: the sum over the 384 contracted positions. -/
theorem dotIn_apply (l : FVec Ideal S16384x384 .f32) (w : FVec Ideal S384x64 .f32) (p : Fin 16384) (j : Fin 64) :
    Host.dotGeneral dot_S16384x384_S384x64_S16384x64_1_0_0_1_n_n none l w (ix2 p j) = ∑ k : Fin 384, l (ix2 p k) * w (ix2 k j) := by
  simp only [Host.dotGeneral]
  rw [Ideal.dotGeneral_apply, ← Equiv.sum_comp (contrEquiv1 dot_S16384x384_S384x64_S16384x64_1_0_0_1_n_n 384 rfl rfl).symm]
  refine Finset.sum_congr rfl fun k _ => ?_
  have hk := contrEquiv1_symm_val dot_S16384x384_S384x64_S16384x64_1_0_0_1_n_n 384 rfl rfl k
  have el : dot_S16384x384_S384x64_S16384x64_1_0_0_1_n_n.lhsIdx (ix2 p j) ((contrEquiv1 dot_S16384x384_S384x64_S16384x64_1_0_0_1_n_n 384 rfl rfl).symm k) = ix2 p k :=
    funext fun a => Fin.ext (by
      match a with
      | ⟨0, _⟩ => exact dotIn_lhs_row _ _
      | ⟨1, _⟩ => exact (dotIn_lhs_contr _ _).trans hk)
  have er : dot_S16384x384_S384x64_S16384x64_1_0_0_1_n_n.rhsIdx (ix2 p j) ((contrEquiv1 dot_S16384x384_S384x64_S16384x64_1_0_0_1_n_n 384 rfl rfl).symm k) = ix2 k j :=
    funext fun a => Fin.ext (by
      match a with
      | ⟨0, _⟩ => exact (dotIn_rhs_contr _ _).trans hk
      | ⟨1, _⟩ => exact dotIn_rhs_col _ _)
  rw [el, er]

/-- Entry (p, j) of the 16384×64 by 64×32 product: the sum over the 64 contracted positions. -/
theorem dotMid_apply (l : FVec Ideal S16384x64 .f32) (w : FVec Ideal S64x32 .f32) (p : Fin 16384) (j : Fin 32) :
    Host.dotGeneral dot_S16384x64_S64x32_S16384x32_1_0_0_1_n_n none l w (ix2 p j) = ∑ k : Fin 64, l (ix2 p k) * w (ix2 k j) := by
  simp only [Host.dotGeneral]
  rw [Ideal.dotGeneral_apply, ← Equiv.sum_comp (contrEquiv1 dot_S16384x64_S64x32_S16384x32_1_0_0_1_n_n 64 rfl rfl).symm]
  refine Finset.sum_congr rfl fun k _ => ?_
  have hk := contrEquiv1_symm_val dot_S16384x64_S64x32_S16384x32_1_0_0_1_n_n 64 rfl rfl k
  have el : dot_S16384x64_S64x32_S16384x32_1_0_0_1_n_n.lhsIdx (ix2 p j) ((contrEquiv1 dot_S16384x64_S64x32_S16384x32_1_0_0_1_n_n 64 rfl rfl).symm k) = ix2 p k :=
    funext fun a => Fin.ext (by
      match a with
      | ⟨0, _⟩ => exact dotMid_lhs_row _ _
      | ⟨1, _⟩ => exact (dotMid_lhs_contr _ _).trans hk)
  have er : dot_S16384x64_S64x32_S16384x32_1_0_0_1_n_n.rhsIdx (ix2 p j) ((contrEquiv1 dot_S16384x64_S64x32_S16384x32_1_0_0_1_n_n 64 rfl rfl).symm k) = ix2 k j :=
    funext fun a => Fin.ext (by
      match a with
      | ⟨0, _⟩ => exact (dotMid_rhs_contr _ _).trans hk
      | ⟨1, _⟩ => exact dotMid_rhs_col _ _)
  rw [el, er]

/-- Entry (p, j) of the 16384×32 by 32×1 product: the sum over the 32 contracted positions. -/
theorem dotOut_apply (l : FVec Ideal S16384x32 .f32) (w : FVec Ideal S32x1 .f32) (p : Fin 16384) (j : Fin 1) :
    Host.dotGeneral dot_S16384x32_S32x1_S16384x1_1_0_0_1_n_n none l w (ix2 p j) = ∑ k : Fin 32, l (ix2 p k) * w (ix2 k j) := by
  simp only [Host.dotGeneral]
  rw [Ideal.dotGeneral_apply, ← Equiv.sum_comp (contrEquiv1 dot_S16384x32_S32x1_S16384x1_1_0_0_1_n_n 32 rfl rfl).symm]
  refine Finset.sum_congr rfl fun k _ => ?_
  have hk := contrEquiv1_symm_val dot_S16384x32_S32x1_S16384x1_1_0_0_1_n_n 32 rfl rfl k
  have el : dot_S16384x32_S32x1_S16384x1_1_0_0_1_n_n.lhsIdx (ix2 p j) ((contrEquiv1 dot_S16384x32_S32x1_S16384x1_1_0_0_1_n_n 32 rfl rfl).symm k) = ix2 p k :=
    funext fun a => Fin.ext (by
      match a with
      | ⟨0, _⟩ => exact dotOut_lhs_row _ _
      | ⟨1, _⟩ => exact (dotOut_lhs_contr _ _).trans hk)
  have er : dot_S16384x32_S32x1_S16384x1_1_0_0_1_n_n.rhsIdx (ix2 p j) ((contrEquiv1 dot_S16384x32_S32x1_S16384x1_1_0_0_1_n_n 32 rfl rfl).symm k) = ix2 k j :=
    funext fun a => Fin.ext (by
      match a with
      | ⟨0, _⟩ => exact (dotOut_rhs_contr _ _).trans hk
      | ⟨1, _⟩ => exact dotOut_rhs_col _ _)
  rw [el, er]

/-! ## The two programs' stretches are the row maps -/

/-- The layer, entry by entry: row r of (s + f) against column q of W, plus b(q), compared with zero: `layerRow` on
    row r of s and of f. -/
theorem refLayer_eq (s f : FVec Ideal S150000x64 .f32) (W : FVec Ideal S64x64 .f32) (b : FVec Ideal S64 .f32) :
    refLayer s f W b = Cert.Spec.layerArr s f W (fun j => b (ix1 j)) := by
  funext i
  obtain ⟨r, q, rfl⟩ : ∃ (r : Fin 150000) (q : Fin 64), i = ix2 r q := ⟨i 0, i 1, eq_ix2 i⟩
  rw [Cert.Spec.layerArr_apply]
  unfold refLayer Cert.Spec.layerRow Cert.Spec.affineRow
  rw [maximumf_apply, addf_apply, dotLayer_apply, biasRows_apply, zeros_apply]
  simp only [addf_apply]

/-- The head, entry by entry: the result has one column, so its entry (r, 0) is `mlpRow` on row r of e; each of the
    three products reads the row of its left operand only, so the three dense layers nest row by row. -/
theorem refMlp_eq (e : FVec Ideal S16384x384 .f32) (W1 : FVec Ideal S384x64 .f32) (b1 : FVec Ideal S64 .f32)
    (W2 : FVec Ideal S64x32 .f32) (b2 : FVec Ideal S32 .f32) (W3 : FVec Ideal S32x1 .f32) (b3 : FVec Ideal S1 .f32) :
    refMlp e W1 b1 W2 b2 W3 b3 = Cert.Spec.mlpArr e W1 (fun j => b1 (ix1 j)) W2 (fun j => b2 (ix1 j)) W3 (fun j => b3 (ix1 j)) := by
  funext i
  obtain ⟨r, q, rfl⟩ : ∃ (r : Fin 16384) (q : Fin 1), i = ix2 r q := ⟨i 0, i 1, eq_ix2 i⟩
  obtain rfl : q = 0 := Subsingleton.elim _ _
  rw [Cert.Spec.mlpArr_apply]
  unfold refMlp Cert.Spec.mlpRow Cert.Spec.affineRow
  rw [addf_apply, dotOut_apply, biasRows_apply]
  simp only [addf_apply, maximumf_apply, dotMid_apply, dotIn_apply,
    biasRows_apply bcast_S64_S1x64_1 bcast_S1x64_S16384x64_0_1, biasRows_apply bcast_S32_S1x32_1 bcast_S1x32_S16384x32_0_1,
    zeros_apply bcast_S_S16384x64]

end Cert.ReferenceIdeal.RefLayers
end
-- ==== Proof.RefFold.lean ====
/-
  The reference program terminates with `scores` of its argument arrays in its result.

  The reference is a straight line of 89 host operations, cut here into seven stretches: stack the two tables and
  aggregate; a layer; lay two feature arrays side by side and aggregate again; a layer; lay all three side by side and gather
  the user rows and the shifted item rows; lay those side by side; the scoring head and the last reshape. What each stretch
  computes is read at ANY contents the stretch starts from, so the stretches compose by rewriting. A layer's operations are
  the ones `refLayer` names and the head's the ones `refMlp` names (RefLayers: they are Spec's row maps on whole arrays);
  every other stretch is, operation for operation, the stage of the same name in `Stages`. A stretch leaves a buffer none
  of its operations writes as it was; in particular no operation writes an argument array.
-/
import proofs.«428266_j67147518705976_1_alg».proof.Proof.RefOps
import proofs.«428266_j67147518705976_1_alg».proof.Proof.RefLayers
import proofs.«428266_j67147518705976_1_alg».proof.Proof.Stages
import Idealize.ShloMosaic.Lib.StableHlo.Run
import Idealize.ShloMosaic.Lib.Pipeline.Frame
import Idealize.ShloMosaic.Lib.ValueIdx

set_option maxRecDepth 16384

noncomputable section

namespace Cert.ReferenceIdeal.RefFold

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.Ops Cert.ReferenceIdeal.RefLayers Cert.KernelIdeal.Stages

section Stretches
variable {F : FTy → Type} [FloatOps F]

/-- The stacked tables and their sparse aggregation. -/
abbrev opsAgg0 : List (HloOp τ sig (Elt F)) :=
  [ binary main_arg5 main_arg6 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg4 main_v1 (broadcastInDim S2400000x1 ![0] bcast_S2400000_S2400000x1_0 : (⟨S2400000, .f32⟩ : BufTy).Contents (Elt F) → (⟨S2400000x1, .f32⟩ : BufTy).Contents (Elt F)),
    nullary main_c (constantI S_ 32 0#32),
    unary main_c main_v2 (broadcastInDim S2400000 ![] bcast_S_S2400000 : (⟨S_, .i32⟩ : BufTy).Contents (Elt F) → (⟨S2400000, .i32⟩ : BufTy).Contents (Elt F)),
    binary main_arg3 main_v2 main_v3 (cmpi .slt : (⟨S2400000, .i32⟩ : BufTy).Contents (Elt F) → (⟨S2400000, .i32⟩ : BufTy).Contents (Elt F) → (⟨S2400000, .i1⟩ : BufTy).Contents (Elt F)),
    nullary main_c_0 (constantI S_ 32 150000#32),
    unary main_c_0 main_v4 (broadcastInDim S2400000 ![] bcast_S_S2400000 : (⟨S_, .i32⟩ : BufTy).Contents (Elt F) → (⟨S2400000, .i32⟩ : BufTy).Contents (Elt F)),
    binary main_arg3 main_v4 main_v5 (addi : (⟨S2400000, .i32⟩ : BufTy).Contents (Elt F) → (⟨S2400000, .i32⟩ : BufTy).Contents (Elt F) → (⟨S2400000, .i32⟩ : BufTy).Contents (Elt F)),
    ternary main_v3 main_v5 main_arg3 main_v6 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v6 main_v7 (broadcastInDim S2400000x1 ![0] bcast_S2400000_S2400000x1_0 : (⟨S2400000, .i32⟩ : BufTy).Contents (Elt F) → (⟨S2400000x1, .i32⟩ : BufTy).Contents (Elt F)),
    binary main_v0 main_v7 main_v8 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v1 main_v9 (broadcastInDim S2400000x64 ![0, 1] bcast_S2400000x1_S2400000x64_0_1 : (⟨S2400000x1, .f32⟩ : BufTy).Contents (Elt F) → (⟨S2400000x64, .f32⟩ : BufTy).Contents (Elt F)),
    binary main_v9 main_v8 main_v10 (mulf : (⟨S2400000x64, .f32⟩ : BufTy).Contents (Elt F) → (⟨S2400000x64, .f32⟩ : BufTy).Contents (Elt F) → (⟨S2400000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg2 main_v12 (broadcastInDim S2400000x1 ![0] bcast_S2400000_S2400000x1_0 : (⟨S2400000, .i32⟩ : BufTy).Contents (Elt F) → (⟨S2400000x1, .i32⟩ : BufTy).Contents (Elt F)),
    ternary main_v11 main_v12 main_v10 main_v13 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) ]

/-- The first graph-convolution layer. -/
abbrev opsLayer1 : List (HloOp τ sig (Elt F)) :=
  [ binary main_v13 main_v0 main_v14 (addf : (⟨S150000x64, .f32⟩ : BufTy).Contents (Elt F) → (⟨S150000x64, .f32⟩ : BufTy).Contents (Elt F) → (⟨S150000x64, .f32⟩ : BufTy).Contents (Elt F)),
    binary main_v14 main_arg7 main_v15 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg8 main_v16 (broadcastInDim S1x64 ![1] bcast_S64_S1x64_1 : (⟨S64, .f32⟩ : BufTy).Contents (Elt F) → (⟨S1x64, .f32⟩ : BufTy).Contents (Elt F)),
    unary main_v16 main_v17 (broadcastInDim S150000x64 ![0, 1] bcast_S1x64_S150000x64_0_1 : (⟨S1x64, .f32⟩ : BufTy).Contents (Elt F) → (⟨S150000x64, .f32⟩ : BufTy).Contents (Elt F)),
    binary main_v15 main_v17 main_v18 (addf : (⟨S150000x64, .f32⟩ : BufTy).Contents (Elt F) → (⟨S150000x64, .f32⟩ : BufTy).Contents (Elt F) → (⟨S150000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S150000x64, .f32⟩) main_call0_v0) (broadcastInDim S150000x64 ![] bcast_S_S150000x64),
    TRef.binary (TRef.of (T := ⟨S150000x64, .f32⟩) main_v18) (TRef.of (T := ⟨S150000x64, .f32⟩) main_call0_v0) (TRef.of (T := ⟨S150000x64, .f32⟩) main_v19) maximumf ]

/-- The first two feature arrays side by side, and the aggregation of the second. -/
abbrev opsAgg1 : List (HloOp τ sig (Elt F)) :=
  [ binary main_v0 main_v19 main_v20 ((fun a b => concatenate S150000x128 1 [⟨S150000x64, a⟩, ⟨S150000x64, b⟩] concatenates_S150000x64_S150000x64_S150000x128_d1) : (⟨S150000x64, .f32⟩ : BufTy).Contents (Elt F) → (⟨S150000x64, .f32⟩ : BufTy).Contents (Elt F) → (⟨S150000x128, .f32⟩ : BufTy).Contents (Elt F)),
    unary main_arg4 main_v21 (broadcastInDim S2400000x1 ![0] bcast_S2400000_S2400000x1_0 : (⟨S2400000, .f32⟩ : BufTy).Contents (Elt F) → (⟨S2400000x1, .f32⟩ : BufTy).Contents (Elt F)),
    nullary main_c_1 (constantI S_ 32 0#32),
    unary main_c_1 main_v22 (broadcastInDim S2400000 ![] bcast_S_S2400000 : (⟨S_, .i32⟩ : BufTy).Contents (Elt F) → (⟨S2400000, .i32⟩ : BufTy).Contents (Elt F)),
    binary main_arg3 main_v22 main_v23 (cmpi .slt : (⟨S2400000, .i32⟩ : BufTy).Contents (Elt F) → (⟨S2400000, .i32⟩ : BufTy).Contents (Elt F) → (⟨S2400000, .i1⟩ : BufTy).Contents (Elt F)),
    nullary main_c_2 (constantI S_ 32 150000#32),
    unary main_c_2 main_v24 (broadcastInDim S2400000 ![] bcast_S_S2400000 : (⟨S_, .i32⟩ : BufTy).Contents (Elt F) → (⟨S2400000, .i32⟩ : BufTy).Contents (Elt F)),
    binary main_arg3 main_v24 main_v25 (addi : (⟨S2400000, .i32⟩ : BufTy).Contents (Elt F) → (⟨S2400000, .i32⟩ : BufTy).Contents (Elt F) → (⟨S2400000, .i32⟩ : BufTy).Contents (Elt F)),
    ternary main_v23 main_v25 main_arg3 main_v26 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v26 main_v27 (broadcastInDim S2400000x1 ![0] bcast_S2400000_S2400000x1_0 : (⟨S2400000, .i32⟩ : BufTy).Contents (Elt F) → (⟨S2400000x1, .i32⟩ : BufTy).Contents (Elt F)),
    binary main_v19 main_v27 main_v28 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v21 main_v29 (broadcastInDim S2400000x64 ![0, 1] bcast_S2400000x1_S2400000x64_0_1 : (⟨S2400000x1, .f32⟩ : BufTy).Contents (Elt F) → (⟨S2400000x64, .f32⟩ : BufTy).Contents (Elt F)),
    binary main_v29 main_v28 main_v30 (mulf : (⟨S2400000x64, .f32⟩ : BufTy).Contents (Elt F) → (⟨S2400000x64, .f32⟩ : BufTy).Contents (Elt F) → (⟨S2400000x64, .f32⟩ : BufTy).Contents (Elt F)),
    nullary main_cst_3 (constant S_ .f32 0x00000000#32),
    unary main_cst_3 main_v31 (broadcastInDim S150000x64 ![] bcast_S_S150000x64 : (⟨S_, .f32⟩ : BufTy).Contents (Elt F) → (⟨S150000x64, .f32⟩ : BufTy).Contents (Elt F)),
    unary main_arg2 main_v32 (broadcastInDim S2400000x1 ![0] bcast_S2400000_S2400000x1_0 : (⟨S2400000, .i32⟩ : BufTy).Contents (Elt F) → (⟨S2400000x1, .i32⟩ : BufTy).Contents (Elt F)),
    ternary main_v31 main_v32 main_v30 main_v33 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) ]

/-- The second graph-convolution layer. -/
abbrev opsLayer2 : List (HloOp τ sig (Elt F)) :=
  [ binary main_v33 main_v19 main_v34 (addf : (⟨S150000x64, .f32⟩ : BufTy).Contents (Elt F) → (⟨S150000x64, .f32⟩ : BufTy).Contents (Elt F) → (⟨S150000x64, .f32⟩ : BufTy).Contents (Elt F)),
    binary main_v34 main_arg9 main_v35 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg10 main_v36 (broadcastInDim S1x64 ![1] bcast_S64_S1x64_1 : (⟨S64, .f32⟩ : BufTy).Contents (Elt F) → (⟨S1x64, .f32⟩ : BufTy).Contents (Elt F)),
    unary main_v36 main_v37 (broadcastInDim S150000x64 ![0, 1] bcast_S1x64_S150000x64_0_1 : (⟨S1x64, .f32⟩ : BufTy).Contents (Elt F) → (⟨S150000x64, .f32⟩ : BufTy).Contents (Elt F)),
    binary main_v35 main_v37 main_v38 (addf : (⟨S150000x64, .f32⟩ : BufTy).Contents (Elt F) → (⟨S150000x64, .f32⟩ : BufTy).Contents (Elt F) → (⟨S150000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S150000x64, .f32⟩) main_call1_v0) (broadcastInDim S150000x64 ![] bcast_S_S150000x64),
    TRef.binary (TRef.of (T := ⟨S150000x64, .f32⟩) main_v38) (TRef.of (T := ⟨S150000x64, .f32⟩) main_call1_v0) (TRef.of (T := ⟨S150000x64, .f32⟩) main_v39) maximumf ]

/-- The table of three feature arrays, the user rows and the shifted item rows. -/
abbrev opsRows : List (HloOp τ sig (Elt F)) :=
  [ binary main_v20 main_v39 main_v40 ((fun a b => concatenate S150000x192 1 [⟨S150000x128, a⟩, ⟨S150000x64, b⟩] concatenates_S150000x128_S150000x64_S150000x192_d1) : (⟨S150000x128, .f32⟩ : BufTy).Contents (Elt F) → (⟨S150000x64, .f32⟩ : BufTy).Contents (Elt F) → (⟨S150000x192, .f32⟩ : BufTy).Contents (Elt F)),
    nullary main_c_4 (constantI S_ 32 0#32),
    unary main_c_4 main_v41 (broadcastInDim S16384 ![] bcast_S_S16384 : (⟨S_, .i32⟩ : BufTy).Contents (Elt F) → (⟨S16384, .i32⟩ : BufTy).Contents (Elt F)),
    binary main_arg0 main_v41 main_v42 (cmpi .slt : (⟨S16384, .i32⟩ : BufTy).Contents (Elt F) → (⟨S16384, .i32⟩ : BufTy).Contents (Elt F) → (⟨S16384, .i1⟩ : BufTy).Contents (Elt F)),
    nullary main_c_5 (constantI S_ 32 150000#32),
    unary main_c_5 main_v43 (broadcastInDim S16384 ![] bcast_S_S16384 : (⟨S_, .i32⟩ : BufTy).Contents (Elt F) → (⟨S16384, .i32⟩ : BufTy).Contents (Elt F)),
    binary main_arg0 main_v43 main_v44 (addi : (⟨S16384, .i32⟩ : BufTy).Contents (Elt F) → (⟨S16384, .i32⟩ : BufTy).Contents (Elt F) → (⟨S16384, .i32⟩ : BufTy).Contents (Elt F)),
    ternary main_v42 main_v44 main_arg0 main_v45 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v45 main_v46 (broadcastInDim S16384x1 ![0] bcast_S16384_S16384x1_0 : (⟨S16384, .i32⟩ : BufTy).Contents (Elt F) → (⟨S16384x1, .i32⟩ : BufTy).Contents (Elt F)),
    binary main_v40 main_v46 main_v47 ((fun x i => Host.gather gather_S150000x192_S16384x1_S16384x192_1_0_n_n_0_1_1192 x i) : (⟨S150000x192, .f32⟩ : BufTy).Contents (Elt F) → (⟨S16384x1, .i32⟩ : BufTy).Contents (Elt F) → (⟨S16384x192, .f32⟩ : BufTy).Contents (Elt F)),
    nullary main_c_6 (constantI S_ 32 100000#32),
    unary main_c_6 main_v48 (broadcastInDim S16384 ![] bcast_S_S16384 : (⟨S_, .i32⟩ : BufTy).Contents (Elt F) → (⟨S16384, .i32⟩ : BufTy).Contents (Elt F)),
    binary main_arg1 main_v48 main_v49 (addi : (⟨S16384, .i32⟩ : BufTy).Contents (Elt F) → (⟨S16384, .i32⟩ : BufTy).Contents (Elt F) → (⟨S16384, .i32⟩ : BufTy).Contents (Elt F)),
    nullary main_c_7 (constantI S_ 32 0#32),
    unary main_c_7 main_v50 (broadcastInDim S16384 ![] bcast_S_S16384 : (⟨S_, .i32⟩ : BufTy).Contents (Elt F) → (⟨S16384, .i32⟩ : BufTy).Contents (Elt F)),
    binary main_v49 main_v50 main_v51 (cmpi .slt : (⟨S16384, .i32⟩ : BufTy).Contents (Elt F) → (⟨S16384, .i32⟩ : BufTy).Contents (Elt F) → (⟨S16384, .i1⟩ : BufTy).Contents (Elt F)),
    nullary main_c_8 (constantI S_ 32 150000#32),
    unary main_c_8 main_v52 (broadcastInDim S16384 ![] bcast_S_S16384 : (⟨S_, .i32⟩ : BufTy).Contents (Elt F) → (⟨S16384, .i32⟩ : BufTy).Contents (Elt F)),
    binary main_v49 main_v52 main_v53 (addi : (⟨S16384, .i32⟩ : BufTy).Contents (Elt F) → (⟨S16384, .i32⟩ : BufTy).Contents (Elt F) → (⟨S16384, .i32⟩ : BufTy).Contents (Elt F)),
    ternary main_v51 main_v53 main_v49 main_v54 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v54 main_v55 (broadcastInDim S16384x1 ![0] bcast_S16384_S16384x1_0 : (⟨S16384, .i32⟩ : BufTy).Contents (Elt F) → (⟨S16384x1, .i32⟩ : BufTy).Contents (Elt F)),
    binary main_v40 main_v55 main_v56 ((fun x i => Host.gather gather_S150000x192_S16384x1_S16384x192_1_0_n_n_0_1_1192 x i) : (⟨S150000x192, .f32⟩ : BufTy).Contents (Elt F) → (⟨S16384x1, .i32⟩ : BufTy).Contents (Elt F) → (⟨S16384x192, .f32⟩ : BufTy).Contents (Elt F)) ]

/-- A user's row beside an item's row. -/
abbrev opsBeside : List (HloOp τ sig (Elt F)) :=
  [ binary main_v47 main_v56 main_v57 ((fun a b => concatenate S16384x384 1 [⟨S16384x192, a⟩, ⟨S16384x192, b⟩] concatenates_S16384x192_S16384x192_S16384x384_d1) : (⟨S16384x192, .f32⟩ : BufTy).Contents (Elt F) → (⟨S16384x192, .f32⟩ : BufTy).Contents (Elt F) → (⟨S16384x384, .f32⟩ : BufTy).Contents (Elt F)) ]

/-- The scoring head and the final reshape. -/
abbrev opsHead : List (HloOp τ sig (Elt F)) :=
  [ binary main_v57 main_arg11 main_v58 ((fun l r => Host.dotGeneral dot_S16384x384_S384x64_S16384x64_1_0_0_1_n_n none l r) : (⟨S16384x384, .f32⟩ : BufTy).Contents (Elt F) → (⟨S384x64, .f32⟩ : BufTy).Contents (Elt F) → (⟨S16384x64, .f32⟩ : BufTy).Contents (Elt F)),
    unary main_arg12 main_v59 (broadcastInDim S1x64 ![1] bcast_S64_S1x64_1 : (⟨S64, .f32⟩ : BufTy).Contents (Elt F) → (⟨S1x64, .f32⟩ : BufTy).Contents (Elt F)),
    unary main_v59 main_v60 (broadcastInDim S16384x64 ![0, 1] bcast_S1x64_S16384x64_0_1 : (⟨S1x64, .f32⟩ : BufTy).Contents (Elt F) → (⟨S16384x64, .f32⟩ : BufTy).Contents (Elt F)),
    binary main_v58 main_v60 main_v61 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x64, .f32⟩) main_call2_v0) (broadcastInDim S16384x64 ![] bcast_S_S16384x64),
    TRef.binary (TRef.of (T := ⟨S16384x64, .f32⟩) main_v61) (TRef.of (T := ⟨S16384x64, .f32⟩) main_call2_v0) (TRef.of (T := ⟨S16384x64, .f32⟩) main_v62) maximumf,
    binary main_v62 main_arg13 main_v63 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    unary main_arg14 main_v64 (broadcastInDim S1x32 ![1] bcast_S32_S1x32_1 : (⟨S32, .f32⟩ : BufTy).Contents (Elt F) → (⟨S1x32, .f32⟩ : BufTy).Contents (Elt F)),
    unary main_v64 main_v65 (broadcastInDim S16384x32 ![0, 1] bcast_S1x32_S16384x32_0_1 : (⟨S1x32, .f32⟩ : BufTy).Contents (Elt F) → (⟨S16384x32, .f32⟩ : BufTy).Contents (Elt F)),
    binary main_v63 main_v65 main_v66 (addf : (⟨S16384x32, .f32⟩ : BufTy).Contents (Elt F) → (⟨S16384x32, .f32⟩ : BufTy).Contents (Elt F) → (⟨S16384x32, .f32⟩ : BufTy).Contents (Elt F)),
    binary main_v66 main_arg15 main_v67 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
    unary main_arg16 main_v68 (broadcastInDim S1x1 ![1] bcast_S1_S1x1_1 : (⟨S1, .f32⟩ : BufTy).Contents (Elt F) → (⟨S1x1, .f32⟩ : BufTy).Contents (Elt F)),
    unary main_v68 main_v69 (broadcastInDim S16384x1 ![0, 1] bcast_S1x1_S16384x1_0_1 : (⟨S1x1, .f32⟩ : BufTy).Contents (Elt F) → (⟨S16384x1, .f32⟩ : BufTy).Contents (Elt F)),
    binary main_v67 main_v69 main_v70 (addf : (⟨S16384x1, .f32⟩ : BufTy).Contents (Elt F) → (⟨S16384x1, .f32⟩ : BufTy).Contents (Elt F) → (⟨S16384x1, .f32⟩ : BufTy).Contents (Elt F)),
    reshape main_v70 main_v71 rfl shapeCasts_S16384x1_S16384 ]

/-- The program's operation list is its seven stretches in order. -/
theorem ops_split : (ops : List (HloOp τ sig (Elt F))) = opsAgg0 ++ (opsLayer1 ++ (opsAgg1 ++ (opsLayer2 ++ (opsRows ++ (opsBeside ++ opsHead))))) := rfl

end Stretches

/-- A stretch of host operations leaves a buffer none of them writes as it was. -/
macro "not_written" : tactic => `(tactic| (
  refine StableHlo.after_of_forall_not_mem _ _ (List.forall_iff_forall_mem.mp ?_)
  simp only [ops, opsAgg0, opsLayer1, opsAgg1, opsLayer2, opsRows, opsBeside, opsHead, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## What each stretch computes, at any contents it starts from -/

theorem agg0_feat0 (V : Valuation τ sig (Elt Ideal)) :
    StableHlo.after (opsAgg0 (F := Ideal)) V (Proc.devRef .tc main_v0) = feat0 (V (Proc.devRef .tc main_arg5)) (V (Proc.devRef .tc main_arg6)) := by
  after_results_simp <;> rfl

theorem agg0_aggregate (V : Valuation τ sig (Elt Ideal)) :
    StableHlo.after (opsAgg0 (F := Ideal)) V (Proc.devRef .tc main_v13)
      = aggregate (V (Proc.devRef .tc main_arg2)) (V (Proc.devRef .tc main_arg3)) (V (Proc.devRef .tc main_arg4)) (feat0 (V (Proc.devRef .tc main_arg5)) (V (Proc.devRef .tc main_arg6))) := by
  after_results_simp <;> rfl

theorem layer1_layer (V : Valuation τ sig (Elt Ideal)) :
    StableHlo.after (opsLayer1 (F := Ideal)) V (Proc.devRef .tc main_v19)
      = refLayer (V (Proc.devRef .tc main_v13)) (V (Proc.devRef .tc main_v0)) (V (Proc.devRef .tc main_arg7)) (V (Proc.devRef .tc main_arg8)) := by
  simp only [opsLayer1, TRef.nullary, TRef.unary, TRef.binary]
  after_results_simp
  simp only [TRef.toBuf, TRef.ofBuf, cast_eq]
  unfold refLayer
  rfl

theorem agg1_beside (V : Valuation τ sig (Elt Ideal)) :
    StableHlo.after (opsAgg1 (F := Ideal)) V (Proc.devRef .tc main_v20) = beside1 (V (Proc.devRef .tc main_v0)) (V (Proc.devRef .tc main_v19)) := by
  after_results_simp <;> rfl

theorem agg1_aggregate (V : Valuation τ sig (Elt Ideal)) :
    StableHlo.after (opsAgg1 (F := Ideal)) V (Proc.devRef .tc main_v33)
      = aggregate (V (Proc.devRef .tc main_arg2)) (V (Proc.devRef .tc main_arg3)) (V (Proc.devRef .tc main_arg4)) (V (Proc.devRef .tc main_v19)) := by
  after_results_simp <;> rfl

theorem layer2_layer (V : Valuation τ sig (Elt Ideal)) :
    StableHlo.after (opsLayer2 (F := Ideal)) V (Proc.devRef .tc main_v39)
      = refLayer (V (Proc.devRef .tc main_v33)) (V (Proc.devRef .tc main_v19)) (V (Proc.devRef .tc main_arg9)) (V (Proc.devRef .tc main_arg10)) := by
  simp only [opsLayer2, TRef.nullary, TRef.unary, TRef.binary]
  after_results_simp
  simp only [TRef.toBuf, TRef.ofBuf, cast_eq]
  unfold refLayer
  rfl

theorem rows_users (V : Valuation τ sig (Elt Ideal)) :
    StableHlo.after (opsRows (F := Ideal)) V (Proc.devRef .tc main_v47)
      = rowsAt (beside2 (V (Proc.devRef .tc main_v20)) (V (Proc.devRef .tc main_v39))) (V (Proc.devRef .tc main_arg0)) := by
  after_results_simp <;> rfl

theorem rows_items (V : Valuation τ sig (Elt Ideal)) :
    StableHlo.after (opsRows (F := Ideal)) V (Proc.devRef .tc main_v56)
      = rowsAt (beside2 (V (Proc.devRef .tc main_v20)) (V (Proc.devRef .tc main_v39))) (itemRows (V (Proc.devRef .tc main_arg1))) := by
  after_results_simp <;> rfl

theorem beside_pairs (V : Valuation τ sig (Elt Ideal)) :
    StableHlo.after (opsBeside (F := Ideal)) V (Proc.devRef .tc main_v57) = beside3 (V (Proc.devRef .tc main_v47)) (V (Proc.devRef .tc main_v56)) := by
  after_results_simp <;> rfl

theorem head_scores (V : Valuation τ sig (Elt Ideal)) :
    StableHlo.after (opsHead (F := Ideal)) V (Proc.devRef .tc main_v71)
      = shapeCast S16384 (refMlp (V (Proc.devRef .tc main_v57)) (V (Proc.devRef .tc main_arg11)) (V (Proc.devRef .tc main_arg12)) (V (Proc.devRef .tc main_arg13)) (V (Proc.devRef .tc main_arg14)) (V (Proc.devRef .tc main_arg15)) (V (Proc.devRef .tc main_arg16)))
          shapeCasts_S16384x1_S16384 := by
  simp only [opsHead, TRef.nullary, TRef.unary, TRef.binary]
  after_results_simp
  simp only [TRef.toBuf, TRef.ofBuf, cast_eq]
  unfold refMlp
  rfl

/-! ## What each stretch leaves alone -/

theorem agg0_keeps_arg0 (V : Valuation τ sig (Elt Ideal)) :
    StableHlo.after (opsAgg0 (F := Ideal)) V (Proc.devRef .tc main_arg0) = V (Proc.devRef .tc main_arg0) := by
  not_written
theorem agg0_keeps_arg1 (V : Valuation τ sig (Elt Ideal)) :
    StableHlo.after (opsAgg0 (F := Ideal)) V (Proc.devRef .tc main_arg1) = V (Proc.devRef .tc main_arg1) := by
  not_written
theorem agg0_keeps_arg2 (V : Valuation τ sig (Elt Ideal)) :
    StableHlo.after (opsAgg0 (F := Ideal)) V (Proc.devRef .tc main_arg2) = V (Proc.devRef .tc main_arg2) := by
  not_written
theorem agg0_keeps_arg3 (V : Valuation τ sig (Elt Ideal)) :
    StableHlo.after (opsAgg0 (F := Ideal)) V (Proc.devRef .tc main_arg3) = V (Proc.devRef .tc main_arg3) := by
  not_written
theorem agg0_keeps_arg4 (V : Valuation τ sig (Elt Ideal)) :
    StableHlo.after (opsAgg0 (F := Ideal)) V (Proc.devRef .tc main_arg4) = V (Proc.devRef .tc main_arg4) := by
  not_written
theorem agg0_keeps_arg7 (V : Valuation τ sig (Elt Ideal)) :
    StableHlo.after (opsAgg0 (F := Ideal)) V (Proc.devRef .tc main_arg7) = V (Proc.devRef .tc main_arg7) := by
  not_written
theorem agg0_keeps_arg8 (V : Valuation τ sig (Elt Ideal)) :
    StableHlo.after (opsAgg0 (F := Ideal)) V (Proc.devRef .tc main_arg8) = V (Proc.devRef .tc main_arg8) := by
  not_written
theorem agg0_keeps_arg9 (V : Valuation τ sig (Elt Ideal)) :
    StableHlo.after (opsAgg0 (F := Ideal)) V (Proc.devRef .tc main_arg9) = V (Proc.devRef .tc main_arg9) := by
  not_written
theorem agg0_keeps_arg10 (V : Valuation τ sig (Elt Ideal)) :
    StableHlo.after (opsAgg0 (F := Ideal)) V (Proc.devRef .tc main_arg10) = V (Proc.devRef .tc main_arg10) := by
  not_written
theorem agg0_keeps_arg11 (V : Valuation τ sig (Elt Ideal)) :
    StableHlo.after (opsAgg0 (F := Ideal)) V (Proc.devRef .tc main_arg11) = V (Proc.devRef .tc main_arg11) := by
  not_written
theorem agg0_keeps_arg12 (V : Valuation τ sig (Elt Ideal)) :
    StableHlo.after (opsAgg0 (F := Ideal)) V (Proc.devRef .tc main_arg12) = V (Proc.devRef .tc main_arg12) := by
  not_written
theorem agg0_keeps_arg13 (V : Valuation τ sig (Elt Ideal)) :
    StableHlo.after (opsAgg0 (F := Ideal)) V (Proc.devRef .tc main_arg13) = V (Proc.devRef .tc main_arg13) := by
  not_written
theorem agg0_keeps_arg14 (V : Valuation τ sig (Elt Ideal)) :
    StableHlo.after (opsAgg0 (F := Ideal)) V (Proc.devRef .tc main_arg14) = V (Proc.devRef .tc main_arg14) := by
  not_written
theorem agg0_keeps_arg15 (V : Valuation τ sig (Elt Ideal)) :
    StableHlo.after (opsAgg0 (F := Ideal)) V (Proc.devRef .tc main_arg15) = V (Proc.devRef .tc main_arg15) := by
  not_written
theorem agg0_keeps_arg16 (V : Valuation τ sig (Elt Ideal)) :
    StableHlo.after (opsAgg0 (F := Ideal)) V (Proc.devRef .tc main_arg16) = V (Proc.devRef .tc main_arg16) := by
  not_written

theorem layer1_keeps_v0 (V : Valuation τ sig (Elt Ideal)) :
    StableHlo.after (opsLayer1 (F := Ideal)) V (Proc.devRef .tc main_v0) = V (Proc.devRef .tc main_v0) := by
  not_written
theorem layer1_keeps_arg0 (V : Valuation τ sig (Elt Ideal)) :
    StableHlo.after (opsLayer1 (F := Ideal)) V (Proc.devRef .tc main_arg0) = V (Proc.devRef .tc main_arg0) := by
  not_written
theorem layer1_keeps_arg1 (V : Valuation τ sig (Elt Ideal)) :
    StableHlo.after (opsLayer1 (F := Ideal)) V (Proc.devRef .tc main_arg1) = V (Proc.devRef .tc main_arg1) := by
  not_written
theorem layer1_keeps_arg2 (V : Valuation τ sig (Elt Ideal)) :
    StableHlo.after (opsLayer1 (F := Ideal)) V (Proc.devRef .tc main_arg2) = V (Proc.devRef .tc main_arg2) := by
  not_written
theorem layer1_keeps_arg3 (V : Valuation τ sig (Elt Ideal)) :
    StableHlo.after (opsLayer1 (F := Ideal)) V (Proc.devRef .tc main_arg3) = V (Proc.devRef .tc main_arg3) := by
  not_written
theorem layer1_keeps_arg4 (V : Valuation τ sig (Elt Ideal)) :
    StableHlo.after (opsLayer1 (F := Ideal)) V (Proc.devRef .tc main_arg4) = V (Proc.devRef .tc main_arg4) := by
  not_written
theorem layer1_keeps_arg9 (V : Valuation τ sig (Elt Ideal)) :
    StableHlo.after (opsLayer1 (F := Ideal)) V (Proc.devRef .tc main_arg9) = V (Proc.devRef .tc main_arg9) := by
  not_written
theorem layer1_keeps_arg10 (V : Valuation τ sig (Elt Ideal)) :
    StableHlo.after (opsLayer1 (F := Ideal)) V (Proc.devRef .tc main_arg10) = V (Proc.devRef .tc main_arg10) := by
  not_written
theorem layer1_keeps_arg11 (V : Valuation τ sig (Elt Ideal)) :
    StableHlo.after (opsLayer1 (F := Ideal)) V (Proc.devRef .tc main_arg11) = V (Proc.devRef .tc main_arg11) := by
  not_written
theorem layer1_keeps_arg12 (V : Valuation τ sig (Elt Ideal)) :
    StableHlo.after (opsLayer1 (F := Ideal)) V (Proc.devRef .tc main_arg12) = V (Proc.devRef .tc main_arg12) := by
  not_written
theorem layer1_keeps_arg13 (V : Valuation τ sig (Elt Ideal)) :
    StableHlo.after (opsLayer1 (F := Ideal)) V (Proc.devRef .tc main_arg13) = V (Proc.devRef .tc main_arg13) := by
  not_written
theorem layer1_keeps_arg14 (V : Valuation τ sig (Elt Ideal)) :
    StableHlo.after (opsLayer1 (F := Ideal)) V (Proc.devRef .tc main_arg14) = V (Proc.devRef .tc main_arg14) := by
  not_written
theorem layer1_keeps_arg15 (V : Valuation τ sig (Elt Ideal)) :
    StableHlo.after (opsLayer1 (F := Ideal)) V (Proc.devRef .tc main_arg15) = V (Proc.devRef .tc main_arg15) := by
  not_written
theorem layer1_keeps_arg16 (V : Valuation τ sig (Elt Ideal)) :
    StableHlo.after (opsLayer1 (F := Ideal)) V (Proc.devRef .tc main_arg16) = V (Proc.devRef .tc main_arg16) := by
  not_written

theorem agg1_keeps_v19 (V : Valuation τ sig (Elt Ideal)) :
    StableHlo.after (opsAgg1 (F := Ideal)) V (Proc.devRef .tc main_v19) = V (Proc.devRef .tc main_v19) := by
  not_written
theorem agg1_keeps_arg0 (V : Valuation τ sig (Elt Ideal)) :
    StableHlo.after (opsAgg1 (F := Ideal)) V (Proc.devRef .tc main_arg0) = V (Proc.devRef .tc main_arg0) := by
  not_written
theorem agg1_keeps_arg1 (V : Valuation τ sig (Elt Ideal)) :
    StableHlo.after (opsAgg1 (F := Ideal)) V (Proc.devRef .tc main_arg1) = V (Proc.devRef .tc main_arg1) := by
  not_written
theorem agg1_keeps_arg9 (V : Valuation τ sig (Elt Ideal)) :
    StableHlo.after (opsAgg1 (F := Ideal)) V (Proc.devRef .tc main_arg9) = V (Proc.devRef .tc main_arg9) := by
  not_written
theorem agg1_keeps_arg10 (V : Valuation τ sig (Elt Ideal)) :
    StableHlo.after (opsAgg1 (F := Ideal)) V (Proc.devRef .tc main_arg10) = V (Proc.devRef .tc main_arg10) := by
  not_written
theorem agg1_keeps_arg11 (V : Valuation τ sig (Elt Ideal)) :
    StableHlo.after (opsAgg1 (F := Ideal)) V (Proc.devRef .tc main_arg11) = V (Proc.devRef .tc main_arg11) := by
  not_written
theorem agg1_keeps_arg12 (V : Valuation τ sig (Elt Ideal)) :
    StableHlo.after (opsAgg1 (F := Ideal)) V (Proc.devRef .tc main_arg12) = V (Proc.devRef .tc main_arg12) := by
  not_written
theorem agg1_keeps_arg13 (V : Valuation τ sig (Elt Ideal)) :
    StableHlo.after (opsAgg1 (F := Ideal)) V (Proc.devRef .tc main_arg13) = V (Proc.devRef .tc main_arg13) := by
  not_written
theorem agg1_keeps_arg14 (V : Valuation τ sig (Elt Ideal)) :
    StableHlo.after (opsAgg1 (F := Ideal)) V (Proc.devRef .tc main_arg14) = V (Proc.devRef .tc main_arg14) := by
  not_written
theorem agg1_keeps_arg15 (V : Valuation τ sig (Elt Ideal)) :
    StableHlo.after (opsAgg1 (F := Ideal)) V (Proc.devRef .tc main_arg15) = V (Proc.devRef .tc main_arg15) := by
  not_written
theorem agg1_keeps_arg16 (V : Valuation τ sig (Elt Ideal)) :
    StableHlo.after (opsAgg1 (F := Ideal)) V (Proc.devRef .tc main_arg16) = V (Proc.devRef .tc main_arg16) := by
  not_written

theorem layer2_keeps_v20 (V : Valuation τ sig (Elt Ideal)) :
    StableHlo.after (opsLayer2 (F := Ideal)) V (Proc.devRef .tc main_v20) = V (Proc.devRef .tc main_v20) := by
  not_written
theorem layer2_keeps_arg0 (V : Valuation τ sig (Elt Ideal)) :
    StableHlo.after (opsLayer2 (F := Ideal)) V (Proc.devRef .tc main_arg0) = V (Proc.devRef .tc main_arg0) := by
  not_written
theorem layer2_keeps_arg1 (V : Valuation τ sig (Elt Ideal)) :
    StableHlo.after (opsLayer2 (F := Ideal)) V (Proc.devRef .tc main_arg1) = V (Proc.devRef .tc main_arg1) := by
  not_written
theorem layer2_keeps_arg11 (V : Valuation τ sig (Elt Ideal)) :
    StableHlo.after (opsLayer2 (F := Ideal)) V (Proc.devRef .tc main_arg11) = V (Proc.devRef .tc main_arg11) := by
  not_written
theorem layer2_keeps_arg12 (V : Valuation τ sig (Elt Ideal)) :
    StableHlo.after (opsLayer2 (F := Ideal)) V (Proc.devRef .tc main_arg12) = V (Proc.devRef .tc main_arg12) := by
  not_written
theorem layer2_keeps_arg13 (V : Valuation τ sig (Elt Ideal)) :
    StableHlo.after (opsLayer2 (F := Ideal)) V (Proc.devRef .tc main_arg13) = V (Proc.devRef .tc main_arg13) := by
  not_written
theorem layer2_keeps_arg14 (V : Valuation τ sig (Elt Ideal)) :
    StableHlo.after (opsLayer2 (F := Ideal)) V (Proc.devRef .tc main_arg14) = V (Proc.devRef .tc main_arg14) := by
  not_written
theorem layer2_keeps_arg15 (V : Valuation τ sig (Elt Ideal)) :
    StableHlo.after (opsLayer2 (F := Ideal)) V (Proc.devRef .tc main_arg15) = V (Proc.devRef .tc main_arg15) := by
  not_written
theorem layer2_keeps_arg16 (V : Valuation τ sig (Elt Ideal)) :
    StableHlo.after (opsLayer2 (F := Ideal)) V (Proc.devRef .tc main_arg16) = V (Proc.devRef .tc main_arg16) := by
  not_written

theorem rows_keeps_arg11 (V : Valuation τ sig (Elt Ideal)) :
    StableHlo.after (opsRows (F := Ideal)) V (Proc.devRef .tc main_arg11) = V (Proc.devRef .tc main_arg11) := by
  not_written
theorem rows_keeps_arg12 (V : Valuation τ sig (Elt Ideal)) :
    StableHlo.after (opsRows (F := Ideal)) V (Proc.devRef .tc main_arg12) = V (Proc.devRef .tc main_arg12) := by
  not_written
theorem rows_keeps_arg13 (V : Valuation τ sig (Elt Ideal)) :
    StableHlo.after (opsRows (F := Ideal)) V (Proc.devRef .tc main_arg13) = V (Proc.devRef .tc main_arg13) := by
  not_written
theorem rows_keeps_arg14 (V : Valuation τ sig (Elt Ideal)) :
    StableHlo.after (opsRows (F := Ideal)) V (Proc.devRef .tc main_arg14) = V (Proc.devRef .tc main_arg14) := by
  not_written
theorem rows_keeps_arg15 (V : Valuation τ sig (Elt Ideal)) :
    StableHlo.after (opsRows (F := Ideal)) V (Proc.devRef .tc main_arg15) = V (Proc.devRef .tc main_arg15) := by
  not_written
theorem rows_keeps_arg16 (V : Valuation τ sig (Elt Ideal)) :
    StableHlo.after (opsRows (F := Ideal)) V (Proc.devRef .tc main_arg16) = V (Proc.devRef .tc main_arg16) := by
  not_written

theorem beside_keeps_arg11 (V : Valuation τ sig (Elt Ideal)) :
    StableHlo.after (opsBeside (F := Ideal)) V (Proc.devRef .tc main_arg11) = V (Proc.devRef .tc main_arg11) := by
  not_written
theorem beside_keeps_arg12 (V : Valuation τ sig (Elt Ideal)) :
    StableHlo.after (opsBeside (F := Ideal)) V (Proc.devRef .tc main_arg12) = V (Proc.devRef .tc main_arg12) := by
  not_written
theorem beside_keeps_arg13 (V : Valuation τ sig (Elt Ideal)) :
    StableHlo.after (opsBeside (F := Ideal)) V (Proc.devRef .tc main_arg13) = V (Proc.devRef .tc main_arg13) := by
  not_written
theorem beside_keeps_arg14 (V : Valuation τ sig (Elt Ideal)) :
    StableHlo.after (opsBeside (F := Ideal)) V (Proc.devRef .tc main_arg14) = V (Proc.devRef .tc main_arg14) := by
  not_written
theorem beside_keeps_arg15 (V : Valuation τ sig (Elt Ideal)) :
    StableHlo.after (opsBeside (F := Ideal)) V (Proc.devRef .tc main_arg15) = V (Proc.devRef .tc main_arg15) := by
  not_written
theorem beside_keeps_arg16 (V : Valuation τ sig (Elt Ideal)) :
    StableHlo.after (opsBeside (F := Ideal)) V (Proc.devRef .tc main_arg16) = V (Proc.devRef .tc main_arg16) := by
  not_written

theorem ops_keeps_arg0 (V : Valuation τ sig (Elt Ideal)) :
    StableHlo.after (ops (F := Ideal)) V (Proc.devRef .tc main_arg0) = V (Proc.devRef .tc main_arg0) := by
  not_written
theorem ops_keeps_arg1 (V : Valuation τ sig (Elt Ideal)) :
    StableHlo.after (ops (F := Ideal)) V (Proc.devRef .tc main_arg1) = V (Proc.devRef .tc main_arg1) := by
  not_written
theorem ops_keeps_arg2 (V : Valuation τ sig (Elt Ideal)) :
    StableHlo.after (ops (F := Ideal)) V (Proc.devRef .tc main_arg2) = V (Proc.devRef .tc main_arg2) := by
  not_written
theorem ops_keeps_arg3 (V : Valuation τ sig (Elt Ideal)) :
    StableHlo.after (ops (F := Ideal)) V (Proc.devRef .tc main_arg3) = V (Proc.devRef .tc main_arg3) := by
  not_written
theorem ops_keeps_arg4 (V : Valuation τ sig (Elt Ideal)) :
    StableHlo.after (ops (F := Ideal)) V (Proc.devRef .tc main_arg4) = V (Proc.devRef .tc main_arg4) := by
  not_written
theorem ops_keeps_arg5 (V : Valuation τ sig (Elt Ideal)) :
    StableHlo.after (ops (F := Ideal)) V (Proc.devRef .tc main_arg5) = V (Proc.devRef .tc main_arg5) := by
  not_written
theorem ops_keeps_arg6 (V : Valuation τ sig (Elt Ideal)) :
    StableHlo.after (ops (F := Ideal)) V (Proc.devRef .tc main_arg6) = V (Proc.devRef .tc main_arg6) := by
  not_written
theorem ops_keeps_arg7 (V : Valuation τ sig (Elt Ideal)) :
    StableHlo.after (ops (F := Ideal)) V (Proc.devRef .tc main_arg7) = V (Proc.devRef .tc main_arg7) := by
  not_written
theorem ops_keeps_arg8 (V : Valuation τ sig (Elt Ideal)) :
    StableHlo.after (ops (F := Ideal)) V (Proc.devRef .tc main_arg8) = V (Proc.devRef .tc main_arg8) := by
  not_written
theorem ops_keeps_arg9 (V : Valuation τ sig (Elt Ideal)) :
    StableHlo.after (ops (F := Ideal)) V (Proc.devRef .tc main_arg9) = V (Proc.devRef .tc main_arg9) := by
  not_written
theorem ops_keeps_arg10 (V : Valuation τ sig (Elt Ideal)) :
    StableHlo.after (ops (F := Ideal)) V (Proc.devRef .tc main_arg10) = V (Proc.devRef .tc main_arg10) := by
  not_written
theorem ops_keeps_arg11 (V : Valuation τ sig (Elt Ideal)) :
    StableHlo.after (ops (F := Ideal)) V (Proc.devRef .tc main_arg11) = V (Proc.devRef .tc main_arg11) := by
  not_written
theorem ops_keeps_arg12 (V : Valuation τ sig (Elt Ideal)) :
    StableHlo.after (ops (F := Ideal)) V (Proc.devRef .tc main_arg12) = V (Proc.devRef .tc main_arg12) := by
  not_written
theorem ops_keeps_arg13 (V : Valuation τ sig (Elt Ideal)) :
    StableHlo.after (ops (F := Ideal)) V (Proc.devRef .tc main_arg13) = V (Proc.devRef .tc main_arg13) := by
  not_written
theorem ops_keeps_arg14 (V : Valuation τ sig (Elt Ideal)) :
    StableHlo.after (ops (F := Ideal)) V (Proc.devRef .tc main_arg14) = V (Proc.devRef .tc main_arg14) := by
  not_written
theorem ops_keeps_arg15 (V : Valuation τ sig (Elt Ideal)) :
    StableHlo.after (ops (F := Ideal)) V (Proc.devRef .tc main_arg15) = V (Proc.devRef .tc main_arg15) := by
  not_written
theorem ops_keeps_arg16 (V : Valuation τ sig (Elt Ideal)) :
    StableHlo.after (ops (F := Ideal)) V (Proc.devRef .tc main_arg16) = V (Proc.devRef .tc main_arg16) := by
  not_written

/-! ## The whole list -/

set_option maxHeartbeats 4000000 in
/-- After all 89 operations the result buffer holds `scores` of the contents of the argument buffers. -/
theorem fold_result (V : Valuation τ sig (Elt Ideal)) :
    StableHlo.after (ops (F := Ideal)) V (Proc.devRef .tc main_v71)
      = scores (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [ops_split, StableHlo.after_append, StableHlo.after_append, StableHlo.after_append, StableHlo.after_append, StableHlo.after_append,
    StableHlo.after_append]
  repeat (first
    | rw [head_scores]
    | rw [beside_pairs]
    | rw [rows_users]
    | rw [rows_items]
    | rw [layer2_layer]
    | rw [agg1_beside]
    | rw [agg1_aggregate]
    | rw [layer1_layer]
    | rw [agg0_feat0]
    | rw [agg0_aggregate]
    | rw [agg0_keeps_arg0]
    | rw [agg0_keeps_arg1]
    | rw [agg0_keeps_arg2]
    | rw [agg0_keeps_arg3]
    | rw [agg0_keeps_arg4]
    | rw [agg0_keeps_arg7]
    | rw [agg0_keeps_arg8]
    | rw [agg0_keeps_arg9]
    | rw [agg0_keeps_arg10]
    | rw [agg0_keeps_arg11]
    | rw [agg0_keeps_arg12]
    | rw [agg0_keeps_arg13]
    | rw [agg0_keeps_arg14]
    | rw [agg0_keeps_arg15]
    | rw [agg0_keeps_arg16]
    | rw [layer1_keeps_v0]
    | rw [layer1_keeps_arg0]
    | rw [layer1_keeps_arg1]
    | rw [layer1_keeps_arg2]
    | rw [layer1_keeps_arg3]
    | rw [layer1_keeps_arg4]
    | rw [layer1_keeps_arg9]
    | rw [layer1_keeps_arg10]
    | rw [layer1_keeps_arg11]
    | rw [layer1_keeps_arg12]
    | rw [layer1_keeps_arg13]
    | rw [layer1_keeps_arg14]
    | rw [layer1_keeps_arg15]
    | rw [layer1_keeps_arg16]
    | rw [agg1_keeps_v19]
    | rw [agg1_keeps_arg0]
    | rw [agg1_keeps_arg1]
    | rw [agg1_keeps_arg9]
    | rw [agg1_keeps_arg10]
    | rw [agg1_keeps_arg11]
    | rw [agg1_keeps_arg12]
    | rw [agg1_keeps_arg13]
    | rw [agg1_keeps_arg14]
    | rw [agg1_keeps_arg15]
    | rw [agg1_keeps_arg16]
    | rw [layer2_keeps_v20]
    | rw [layer2_keeps_arg0]
    | rw [layer2_keeps_arg1]
    | rw [layer2_keeps_arg11]
    | rw [layer2_keeps_arg12]
    | rw [layer2_keeps_arg13]
    | rw [layer2_keeps_arg14]
    | rw [layer2_keeps_arg15]
    | rw [layer2_keeps_arg16]
    | rw [rows_keeps_arg11]
    | rw [rows_keeps_arg12]
    | rw [rows_keeps_arg13]
    | rw [rows_keeps_arg14]
    | rw [rows_keeps_arg15]
    | rw [rows_keeps_arg16]
    | rw [beside_keeps_arg11]
    | rw [beside_keeps_arg12]
    | rw [beside_keeps_arg13]
    | rw [beside_keeps_arg14]
    | rw [beside_keeps_arg15]
    | rw [beside_keeps_arg16])
  rw [refMlp_eq, refLayer_eq, refLayer_eq]
  rfl

/-! ## The run -/

/-- Every weakly fair execution of the reference terminates, nothing faulting, with `scores` of the argument arrays in the
    result array and every argument array as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v71).trans (fold_result (launchContents m c)),
      (h c main_arg0).trans (ops_keeps_arg0 (launchContents m c)),
      (h c main_arg1).trans (ops_keeps_arg1 (launchContents m c)),
      (h c main_arg2).trans (ops_keeps_arg2 (launchContents m c)),
      (h c main_arg3).trans (ops_keeps_arg3 (launchContents m c)),
      (h c main_arg4).trans (ops_keeps_arg4 (launchContents m c)),
      (h c main_arg5).trans (ops_keeps_arg5 (launchContents m c)),
      (h c main_arg6).trans (ops_keeps_arg6 (launchContents m c)),
      (h c main_arg7).trans (ops_keeps_arg7 (launchContents m c)),
      (h c main_arg8).trans (ops_keeps_arg8 (launchContents m c)),
      (h c main_arg9).trans (ops_keeps_arg9 (launchContents m c)),
      (h c main_arg10).trans (ops_keeps_arg10 (launchContents m c)),
      (h c main_arg11).trans (ops_keeps_arg11 (launchContents m c)),
      (h c main_arg12).trans (ops_keeps_arg12 (launchContents m c)),
      (h c main_arg13).trans (ops_keeps_arg13 (launchContents m c)),
      (h c main_arg14).trans (ops_keeps_arg14 (launchContents m c)),
      (h c main_arg15).trans (ops_keeps_arg15 (launchContents m c)),
      (h c main_arg16).trans (ops_keeps_arg16 (launchContents m c))⟩)
    (run_seq scopedRefs_eq scopedSems_eq defs main (fun _ => ops) main_eq (fun _ => ops_sub) m ρ)

end Cert.ReferenceIdeal.RefFold

end
-- ==== Proof.IndexRange.lean ====
import proofs.«428266_j67147518705976_1_alg».proof.Defs
import proofs.«428266_j67147518705976_1_alg».proof.Proof.Gen.KernelIdeal
import proofs.«428266_j67147518705976_1_alg».proof.Proof.Gen.Pre_finite_inputs
import Idealize.ShloMosaic.Lib.ValueIdx
import Idealize.ShloMosaic.Lib.ReduceAll
import Idealize.ShloMosaic.Lib.StableHlo.Predicate

set_option maxRecDepth 16384
noncomputable section
namespace Cert.KernelIdeal.IndexRange
open Idealize.ShloMosaic Idealize.ShloMosaic.TcCoe Idealize.ShloMosaic.ValueIdx Idealize.SL.Sem
open Cert.KernelIdeal Cert.KernelIdeal.Facts₀ Cert.KernelIdeal.Facts

/-! ## One 32-bit word -/

/-- The two negative bounds of the precondition, read signed. -/
theorem toInt_lo_user : (4294817296#32 : BitVec 32).toInt = -150000 := by decide
theorem toInt_lo_item : (4294717296#32 : BitVec 32).toInt = -250000 := by decide
theorem toInt_hi_user : (150000#32 : BitVec 32).toInt = 150000 := by decide
theorem toInt_hi_item : (50000#32 : BitVec 32).toInt = 50000 := by decide
theorem toInt_shift : (100000#32 : BitVec 32).toInt = 100000 := by decide

/-- A word in [-250000, 50000) plus 100000 does not wrap: its signed value is the sum. -/
theorem toInt_add_shift (x : BitVec 32) (h₁ : -250000 ≤ x.toInt) (h₂ : x.toInt < 50000) :
    (x + 100000#32).toInt = x.toInt + 100000 := by
  rw [BitVec.toInt_add, toInt_shift]
  exact Int.bmod_eq_of_le (by omega) (by omega)

/-! ## One range conjunct of the precondition, read at an index -/

/-- The scalar shape has one index. -/
instance : Subsingleton Cert.Pre_finite_inputs.S_.Idx := ⟨fun a b => funext fun d => d.elim0⟩

/-- `all ((a ≥ lo) ∧ (a < hi))` over the 16384 indices, being one, bounds every entry of `a`, read signed. -/
theorem range_of_all (a : IVec Cert.Pre_finite_inputs.S16384 32) (lo hi : BitVec 32)
    (e : Host.reduce IntOp.andi
        (andi
          (cmpi .sge a (broadcastInDim Cert.Pre_finite_inputs.S16384 ![] Cert.Pre_finite_inputs.Facts.bcast_S_S16384
            (constantI Cert.Pre_finite_inputs.S_ 32 lo)))
          (cmpi .slt a (broadcastInDim Cert.Pre_finite_inputs.S16384 ![] Cert.Pre_finite_inputs.Facts.bcast_S_S16384
            (constantI Cert.Pre_finite_inputs.S_ 32 hi))))
        (constantI Cert.Pre_finite_inputs.S_ 1 1#1)
        Cert.Pre_finite_inputs.Facts.reducesTo_S16384_S_d0 Cert.Pre_finite_inputs.Facts.h_S_ ix0 = 1#1)
    (b : Fin 16384) : lo.toInt ≤ (a (ix1 b)).toInt ∧ (a (ix1 b)).toInt < hi.toInt := by
  have hb := Host.reduce_andi_all _ _ _ _ _ e (ix1 b)
  -- at an index the vector operations are the word operations, and a broadcast scalar reads the scalar
  have hb' : IntOp.andi (IntOp.cmpi .sge (a (ix1 b)) lo) (IntOp.cmpi .slt (a (ix1 b)) hi) = 1#1 := hb
  obtain ⟨h₁, h₂⟩ := IntOp.andi_eq_one.1 hb'
  exact ⟨IntOp.cmpi_sge.1 h₁, IntOp.cmpi_slt.1 h₂⟩

/-- Under the precondition every user index, and every item index shifted by the 100000 user rows, is a valid NumPy row index of the 150000-row table. -/
theorem idx_ranges (m : (ℓ : Loc nD τ sig) → Buf (Elt Ideal) ℓ) (h : Cert.Pre_KernelIdeal m) (c : Dev nD) :
    (∀ b : Fin 16384, -150000 ≤ ((m ((c.tc : Thread nD τ).loc main_arg0) : IVec S16384 32) (ix1 b)).toInt
        ∧ ((m ((c.tc : Thread nD τ).loc main_arg0) : IVec S16384 32) (ix1 b)).toInt < 150000)
    ∧ (∀ b : Fin 16384, -250000 ≤ ((m ((c.tc : Thread nD τ).loc main_arg1) : IVec S16384 32) (ix1 b)).toInt
        ∧ ((m ((c.tc : Thread nD τ).loc main_arg1) : IVec S16384 32) (ix1 b)).toInt < 50000) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- the result is ((finiteness ∧ user range) ∧ item range): keep the two right conjuncts
  obtain ⟨h70, hitem⟩ := IntOp.andi_eq_one.1 h0
  obtain ⟨-, huser⟩ := IntOp.andi_eq_one.1 h70
  refine ⟨fun b => ?_, fun b => ?_⟩
  · have := range_of_all _ _ _ huser b
    rw [toInt_lo_user, toInt_hi_user] at this
    exact this
  · have := range_of_all _ _ _ hitem b
    rw [toInt_lo_item, toInt_hi_item] at this
    exact this

/-- The item indices shifted past the user rows: an entry in [-250000, 50000) plus 100000 is in [-150000, 150000). -/
theorem shifted_range (idx : IVec S16384 32)
    (h : ∀ b : Fin 16384, -250000 ≤ (idx (ix1 b)).toInt ∧ (idx (ix1 b)).toInt < 50000) :
    ∀ b : Fin 16384, -150000 ≤ ((addi idx (broadcastInDim S16384 ![] bcast_S_S16384 (constantI S_ 32 100000#32))) (ix1 b)).toInt
      ∧ ((addi idx (broadcastInDim S16384 ![] bcast_S_S16384 (constantI S_ 32 100000#32))) (ix1 b)).toInt < 150000 := by
  intro b
  obtain ⟨h₁, h₂⟩ := h b
  -- at an index the sum is the word sum with the broadcast constant
  have e : (addi idx (broadcastInDim S16384 ![] bcast_S_S16384 (constantI S_ 32 100000#32))) (ix1 b)
      = idx (ix1 b) + 100000#32 := rfl
  rw [e, toInt_add_shift _ h₁ h₂]
  omega

end Cert.KernelIdeal.IndexRange
end
-- ==== Proof.lean ====
/-
  The certificate of a two-layer graph-convolution recommender scored by a small perceptron.

  Both programs stack the user and item embedding tables into 150000 node rows of 64 features; twice they aggregate
  neighbours through the sparse Laplacian (gather, scale, scatter-add) and apply relu((aggregate + features) · W + b); they
  lay the three feature arrays side by side, gather the row of each user and of each item (shifted past the 100000 user
  rows), lay those side by side, and send each 384-wide row through (relu(e · W1 + b1) · W2 + b2) · W3 + b3.
  The kernel runs the two layers and the perceptron as tiled regions (25 tiles of 6000 rows, 8 tiles of 2048 rows) with
  bf16 casts that are the identity on the extended reals; every output row depends on one input row, so the tiles
  assemble to the same whole-array maps the reference applies (Spec, LayerRegions, MlpRegion, RefLayers); the reference's own
  run is read stretch by stretch (RefFold). The sparse
  aggregation, the stacking and the gathers are the same operations in both programs and are never opened (Stages).
  One difference needs the precondition: the kernel's row gather replaces an out-of-range row by not-a-number words, the
  reference's clamps the index; on valid NumPy row indices of the 150000-row table (-150000 ≤ index < 150000, for the user
  indices and for the item indices plus 100000) the two agree (Take, IndexRange). No algebraic law beyond reading a
  matrix product as a sum is used, and finiteness of the float inputs is not needed.
-/
import proofs.«428266_j67147518705976_1_alg».proof.Defs
import proofs.«428266_j67147518705976_1_alg».proof.Proof.Gen.Kernel
import proofs.«428266_j67147518705976_1_alg».proof.Proof.Gen.Kernel.Frame
import proofs.«428266_j67147518705976_1_alg».proof.Proof.Gen.KernelIdeal
import proofs.«428266_j67147518705976_1_alg».proof.Proof.Gen.KernelIdeal.Frame
import proofs.«428266_j67147518705976_1_alg».proof.Proof.Gen.ReferenceIdeal
import proofs.«428266_j67147518705976_1_alg».proof.Proof.Gen.Pre_finite_inputs
import proofs.«428266_j67147518705976_1_alg».proof.Proof.NamedRun
import proofs.«428266_j67147518705976_1_alg».proof.Proof.KernelFold
import proofs.«428266_j67147518705976_1_alg».proof.Proof.RefFold
import proofs.«428266_j67147518705976_1_alg».proof.Proof.IndexRange
import Idealize.ShloMosaic.Adequacy
import Idealize.ShloMosaic.Init

noncomputable section

namespace Cert.Proof

open Idealize.ShloMosaic Idealize.SL.Sem

/-- The word-level kernel runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.RefFold.run m ρ)

/-- The ideal reading rewrote no operation of the kernel. -/
theorem preserves : Cert.preserves_Kernel_KernelIdeal := trivial

set_option maxHeartbeats 1600000 in
/-- Both programs end with `scores` of the argument arrays in their result. -/
theorem algebraic : Cert.algebraic_KernelIdeal_ReferenceIdeal := by
  intro m ρ m' ρ' hpre hagree
  refine ⟨fun c => Cert.KernelIdeal.Stages.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ⟨(h c).1.trans ?_, (h c).2⟩)
      (Cert.KernelIdeal.NamedRun.run (F := Ideal) m ρ)
    obtain ⟨hu, hi⟩ := Cert.KernelIdeal.IndexRange.idx_ranges m hpre c
    exact Cert.KernelIdeal.Fold.kernel_result m ρ c hu (Cert.KernelIdeal.IndexRange.shifted_range _ hi)
  · refine (θ_run Cert.ReferenceIdeal.defs _ _).mono (fun r h c => ⟨(h c).1.trans ?_, (h c).2⟩)
      (Cert.ReferenceIdeal.RefFold.run m' ρ')
    obtain ⟨e0, e1, e2, e3, e4, e5, e6, e7, e8, e9, e10, e11, e12, e13, e14, e15, e16⟩ := hagree c
    simp only [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
